-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S10000x512 : Shape := ⟨2, ![10000, 512]⟩
abbrev S100x10000 : Shape := ⟨2, ![100, 10000]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S100x10000 : S_.BroadcastsInDim S100x10000 (![] : Fin 0 → Fin S100x10000.rank)
  reducesTo_S100x10000_S_d0_1 : S100x10000.ReducesTo [0, 1] S_

variable [Facts]

def fn {F : FTy → Type} [FloatOps F] (main_arg0 : FVec F S4096x512 .f32) (main_arg1 : FVec F S10000x512 .f32) (main_arg2 : FVec F S100x10000 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S100x10000 .f32 := Host.absf main_arg2
  let main_cst_2 : FVec F S_ .f32 := constant S_ .f32 0x7F800000#32
  let main_v10 : FVec F S100x10000 .f32 := broadcastInDim S100x10000 ![] bcast_S_S100x10000 main_cst_2
  let main_v11 : IVec S100x10000 1 := cmpf .olt main_v9 main_v10
  let main_c_3 : IVec S_ 1 := constantI S_ 1 1#1
  let main_v12 : IVec S_ 1 := (fun x v => Host.reduce IntOp.andi x v reducesTo_S100x10000_S_d0_1 h_S_) main_v11 main_c_3
  let main_v13 : IVec S_ 1 := andi main_v8 main_v12
  main_v13
-- ==== Kernel.lean ====
abbrev S4096x512 : Shape := ⟨2, ![4096, 512]⟩
abbrev S10000x512 : Shape := ⟨2, ![10000, 512]⟩
abbrev S100x10000 : Shape := ⟨2, ![100, 10000]⟩
abbrev S4096x100 : Shape := ⟨2, ![4096, 100]⟩
abbrev S2048x512 : Shape := ⟨2, ![2048, 512]⟩
abbrev S100x2048 : Shape := ⟨2, ![100, 2048]⟩
abbrev S2048x100 : Shape := ⟨2, ![2048, 100]⟩
abbrev S512x512 : Shape := ⟨2, ![512, 512]⟩
abbrev S100x512 : Shape := ⟨2, ![100, 512]⟩
abbrev S100x1 : Shape := ⟨2, ![100, 1]⟩
abbrev S100 : Shape := ⟨1, ![100]⟩
abbrev S2048 : Shape := ⟨1, ![2048]⟩
abbrev S2048x1 : Shape := ⟨2, ![2048, 1]⟩
abbrev S1x100 : Shape := ⟨2, ![1, 100]⟩

abbrev nBuf : Space → Nat
  | .hbm => 4
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S100x10000, .f32⟩
  | .hbm, ⟨3, _⟩ => ⟨S4096x100, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S100x2048, .f32⟩
  | .local _ .vmem, ⟨5, _⟩ => ⟨S100x2048, .f32⟩
  | .local _ .vmem, ⟨6, _⟩ => ⟨S2048x100, .f32⟩
  | .local _ .vmem, ⟨7, _⟩ => ⟨S2048x100, .f32⟩
  | .local _ .vmem, ⟨8, _⟩ => ⟨S512x512, .f32⟩
  | .local _ .vmem, ⟨9, _⟩ => ⟨S100x512, .f32⟩
  | .local _ .vmem, ⟨10, _⟩ => ⟨S100x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![7], ![false]⟩

def k0_cond4 (i : grid0.Coords) : BitVec 1 :=
  let arg0 : BitVec 32 := BitVec.ofNat 32 (i 0).val
  let c5_i32 : BitVec 32 := 5#32
  let v11 : BitVec 1 := Scalar.cmpi .sge arg0 c5_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  inb_S100x2048_S100x2048_0_0 : ∀ a, (![0, 0] : Fin 2 → Nat) a + S100x2048.size a ≤ S100x2048.size a
  h_S100x2048 : 0 < S100x2048.numel
  bitsLt_bf16_f32 : FTy.bits .bf16 < FTy.bits .f32
  reduces_S100x2048_S100 : S100x2048.Reduces [1] S100
  shapeCasts_S100_S100x1 : S100.ShapeCasts S100x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S100x512_S100x512_0_0 : ∀ a, (![0, 0] : Fin 2 → Nat) a + S100x512.size a ≤ S100x512.size a
  h_S100x512 : 0 < S100x512.numel
  shapeCasts_S100x512_S100x512 : S100x512.ShapeCasts S100x512
  inb_S100x1_S100x1_0_0 : ∀ a, (![0, 0] : Fin 2 → Nat) a + S100x1.size a ≤ S100x1.size a
  h_S100x1 : 0 < S100x1.numel
  shapeCasts_S100x1_S100x1 : S100x1.ShapeCasts S100x1
  iota_S2048x512_d0_w32 : S2048x512.Iotas .tc 32 [0]
  iota_S100x2048_d1_w32 : S100x2048.Iotas .tc 32 [1]
  reduces_S2048x512_S2048 : S2048x512.Reduces [1] S2048
  shapeCasts_S2048_S2048x1 : S2048.ShapeCasts S2048x1
  shapeCasts_S100x1_S1x100 : S100x1.ShapeCasts S1x100
  broadcasts_S2048x1_S2048x100 : S2048x1.Broadcasts S2048x100
  broadcasts_S1x100_S2048x100 : S1x100.Broadcasts S2048x100
  inb_S2048x100_S2048x100_0_0 : ∀ a, (![0, 0] : Fin 2 → Nat) a + S2048x100.size a ≤ S2048x100.size a
  h_S2048x100 : 0 < S2048x100.numel
  dot_S2048x512_S2048x512_S512x512_0_0_1_1_n_n_wf : DotDims.WF S2048x512 S2048x512 S512x512 [0] [0] [1] [1] [] []
  dot_S100x2048_S2048x512_S100x512_1_0_0_1_n_n_wf : DotDims.WF S100x2048 S2048x512 S100x512 [1] [0] [0] [1] [] []
  dot_S2048x512_S512x512_S2048x512_1_0_0_1_n_n_wf : DotDims.WF S2048x512 S512x512 S2048x512 [1] [0] [0] [1] [] []
  dot_S2048x512_S100x512_S2048x100_1_1_0_0_n_n_wf : DotDims.WF S2048x512 S100x512 S2048x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S10000x512.size a
  hwx0_1 : ∀ i : grid0.Coords, EltTy.bits .f32 = 32 ∨ (Rect.unit (s := S10000x512) (fun a => cc0_transform_1 i a * S2048x512.size a) (fun a => (Pipeline.Clip.of (cc0_transform_1 i a) (S2048x512.size a) (S10000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S10000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S100x2048.size a < S100x10000.size a
  hwx0_2 : ∀ i : grid0.Coords, EltTy.bits .f32 = 32 ∨ (Rect.unit (s := S100x10000) (fun a => cc0_transform_2 i a * S100x2048.size a) (fun a => (Pipeline.Clip.of (cc0_transform_2 i a) (S100x2048.size a) (S100x10000.size a)).extent (S100x2048.size a)) fun a => Pipeline.Clip.inb (Pipeline.Clip.ok_of (hstart0_2 i a))).WholeWords (EltTy.packing .f32)
  hwxs0_2 : ∀ i : grid0.Coords, EltTy.bits .f32 = 32 ∨ (Rect.unit (s := S100x2048) (fun _ => 0) (fun a => (Pipeline.Clip.of (cc0_transform_2 i a) (S100x2048.size a) (S100x10000.size a)).extent (S100x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x100.size a ≤ S4096x100.size a
  hwx0_3 : ∀ i : grid0.Coords, EltTy.bits .f32 = 32 ∨ (Rect.block (s := S4096x100) S2048x100.size (cc0_transform_3 i) (hinb0_3 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S100x2048_S2048x512_S100x512_1_0_0_1_n_n : DotDims S100x2048 S2048x512 S100x512 where
  lhsContracting := [1]
  rhsContracting := [0]
  lhsNonContracting := [0]
  rhsNonContracting := [1]
  lhsBatch := []
  rhsBatch := []
  wf := dot_S100x2048_S2048x512_S100x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S100x512_S2048x100_1_1_0_0_n_n : DotDims S2048x512 S100x512 S2048x100 where
  lhsContracting := [1]
  rhsContracting := [1]
  lhsNonContracting := [0]
  rhsNonContracting := [0]
  lhsBatch := []
  rhsBatch := []
  wf := dot_S2048x512_S100x512_S2048x100_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S100x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S2048x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S10000x512 : Shape := ⟨2, ![10000, 512]⟩
abbrev S100x10000 : Shape := ⟨2, ![100, 10000]⟩
abbrev S512x10000 : Shape := ⟨2, ![512, 10000]⟩
abbrev S4096x10000 : Shape := ⟨2, ![4096, 10000]⟩
abbrev S_ : Shape := ⟨0, ![]⟩
abbrev S4096 : Shape := ⟨1, ![4096]⟩
abbrev S4096x1 : Shape := ⟨2, ![4096, 1]⟩
abbrev S100 : Shape := ⟨1, ![100]⟩
abbrev S100x1 : Shape := ⟨2, ![100, 1]⟩
abbrev S10000x100 : Shape := ⟨2, ![10000, 100]⟩
abbrev S4096x100 : Shape := ⟨2, ![4096, 100]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S100x10000, .f32⟩
  | .hbm, ⟨3, _⟩ => ⟨S512x10000, .f32⟩
  | .hbm, ⟨4, _⟩ => ⟨S4096x10000, .f32⟩
  | .hbm, ⟨5, _⟩ => ⟨S4096x10000, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x10000, .f32⟩
  | .hbm, ⟨15, _⟩ => ⟨S4096x10000, .f32⟩
  | .hbm, ⟨16, _⟩ => ⟨S100x10000, .f32⟩
  | .hbm, ⟨17, _⟩ => ⟨S_, .f32⟩
  | .hbm, ⟨18, _⟩ => ⟨S100, .f32⟩
  | .hbm, ⟨19, _⟩ => ⟨S100x1, .f32⟩
  | .hbm, ⟨20, _⟩ => ⟨S100x1, .f32⟩
  | .hbm, ⟨21, _⟩ => ⟨S_, .f32⟩
  | .hbm, ⟨22, _⟩ => ⟨S_, .f32⟩
  | .hbm, ⟨23, _⟩ => ⟨S100x1, .f32⟩
  | .hbm, ⟨24, _⟩ => ⟨S100x1, .f32⟩
  | .hbm, ⟨25, _⟩ => ⟨S100x10000, .f32⟩
  | .hbm, ⟨26, _⟩ => ⟨S100x10000, .f32⟩
  | .hbm, ⟨27, _⟩ => ⟨S10000x100, .f32⟩
  | .hbm, ⟨28, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call2_v0 : Ref sig .tc := ⟨.hbm, 16, rfl⟩
abbrev main_call2_cst : Ref sig .tc := ⟨.hbm, 17, rfl⟩
abbrev main_call2_v1 : Ref sig .tc := ⟨.hbm, 18, rfl⟩
abbrev main_call2_v2 : Ref sig .tc := ⟨.hbm, 19, rfl⟩
abbrev main_v6 : Ref sig .tc := ⟨.hbm, 20, rfl⟩
abbrev main_cst_0 : Ref sig .tc := ⟨.hbm, 21, rfl⟩
abbrev main_call3_v0 : Ref sig .tc := ⟨.hbm, 22, rfl⟩
abbrev main_call3_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]

class Facts₀ : Prop where
  transposes_S10000x512_S512x10000_1_0 : S10000x512.Transposes [1, 0] S512x10000
  reducesTo_S4096x10000_S4096_d1 : S4096x10000.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x10000_0_1 : S4096x1.BroadcastsInDim S4096x10000 (![0, 1] : Fin 2 → Fin S4096x10000.rank)
  reducesTo_S100x10000_S100_d1 : S100x10000.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x10000_0_1 : S100x1.BroadcastsInDim S100x10000 (![0, 1] : Fin 2 → Fin S100x10000.rank)
  transposes_S100x10000_S10000x100_1_0 : S100x10000.Transposes [1, 0] S10000x100
  dot_S4096x512_S512x10000_S4096x10000_1_0_0_1_n_n_wf : DotDims.WF S4096x512 S512x10000 S4096x10000 [1] [0] [0] [1] [] []
  dot_S4096x10000_S10000x100_S4096x100_1_0_0_1_n_n_wf : DotDims.WF S4096x10000 S10000x100 S4096x100 [1] [0] [0] [1] [] []

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf
def dot_S4096x10000_S10000x100_S4096x100_1_0_0_1_n_n : DotDims S4096x10000 S10000x100 S4096x100 where
  lhsContracting := [1]
  rhsContracting := [0]
  lhsNonContracting := [0]
  rhsNonContracting := [1]
  lhsBatch := []
  rhsBatch := []
  wf := dot_S4096x10000_S10000x100_S4096x100_1_0_0_1_n_n_wf

class Facts : Prop extends Facts₀ where

variable [Facts]
-- ==== Proof.K.Conds.lean ====
/-
  The grid of seven points runs four kinds of step: point 0 starts the three accumulators (the Gram matrix of the
  projection rows, the projected centroids, the centroids' squared norms) from the first hyperdimension block;
  points 1 to 3 add a whole block; point 4 adds the last block, of which 1808 rows lie inside the arrays; points
  5 and 6 score a block of 2048 samples against the finished accumulators. Here: the four branch conditions as
  functions of the point, in closed form over the grid; where the score window is idle and where it is written
  back; which points fetch which window; the staging and accumulator buffers as the body is handed them.
-/
import proofs.«124658_g15693810500123_cont_7to1_75_23_alg».proof.Proof.Gen.Kernel.Launch
import proofs.«124658_g15693810500123_cont_7to1_75_23_alg».proof.Proof.Gen.Kernel.Skeleton
import proofs.«124658_g15693810500123_cont_7to1_75_23_alg».proof.Proof.Gen.Kernel.Points
import proofs.«124658_g15693810500123_cont_7to1_75_23_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first point": the accumulators are started. -/
abbrev cond0_1 (i : grid0.Coords) : Prop :=
  (Scalar.cmpi .ne (Scalar.extui (Scalar.cmpi .eq (BitVec.ofNat 32 (i 0).val) 0#32)) 0#32) = 1#1
/-- "An interior hyperdimension block": points 1, 2, 3. -/
abbrev cond0_2 (i : grid0.Coords) : Prop :=
  (Scalar.cmpi .ne (Scalar.extui (Scalar.andi (Scalar.cmpi .sgt (BitVec.ofNat 32 (i 0).val) 0#32) (Scalar.cmpi .slt (BitVec.ofNat 32 (i 0).val) 4#32))) 0#32) = 1#1
/-- "The last hyperdimension block": point 4. -/
abbrev cond0_3 (i : grid0.Coords) : Prop :=
  (Scalar.cmpi .ne (Scalar.extui (Scalar.cmpi .eq (BitVec.ofNat 32 (i 0).val) 4#32)) 0#32) = 1#1
/-- "A block of samples is scored": points 5 and 6. -/
abbrev cond0_4 (i : grid0.Coords) : Prop := k0_cond4 i = 1#1

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ (0 < t.val ∧ t.val < 4) :=
  (by decide +kernel : ∀ t : Fin grid0.N, cond0_2 (grid0.coords t) ↔ (0 < t.val ∧ t.val < 4))
theorem hcond0_3 : ∀ t : Fin cfg0.N, cond0_3 (grid0.coords t) ↔ t.val = 4 :=
  (by decide +kernel : ∀ t : Fin grid0.N, cond0_3 (grid0.coords t) ↔ t.val = 4)
theorem hcond0_4 : ∀ t : Fin cfg0.N, cond0_4 (grid0.coords t) ↔ 5 ≤ t.val :=
  (by decide +kernel : ∀ t : Fin grid0.N, cond0_4 (grid0.coords t) ↔ 5 ≤ t.val)

/-! ## Idle points, write-backs and fetches -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The score window is idle while the hyperdimension is swept, and is not written back there; -/
theorem idleAt0_3 : ∀ t : Fin cfg0.N, t.val < 5 → cfg0.idle 3 (grid0.coords t) = true := by decide +kernel
theorem noFlush0_3 : ∀ t : Fin cfg0.N, t.val < 5 → (cfg0.win 3).flush t = false := by decide +kernel
/-- it is live, and written back, at the two scoring points. -/
theorem liveAt0_3 : ∀ t : Fin cfg0.N, 5 ≤ t.val → cfg0.idle 3 (grid0.coords t) = false := by decide +kernel
theorem flush0_3 : ∀ t : Fin cfg0.N, 5 ≤ t.val → (cfg0.win 3).flush t = true := by decide +kernel
/-- The two clipped windows are not loose-free: the configuration states them loose, the other two exact. -/
theorem loose0_0 : cfg0.loose 0 = false := rfl
theorem loose0_1 : cfg0.loose 1 = true := rfl
theorem loose0_2 : cfg0.loose 2 = true := rfl
theorem loose0_3 : cfg0.loose 3 = false := rfl

/-! ## The buffers the body is handed -/

/-- Each window's current staging memref at point `t`, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S100x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x100 .f32 := win0_3.stage (cfg0.slots t 3)
abbrev hs0_3 (t : Fin cfg0.N) : (ms0_3 t).IsWhole := hstage0_3 ((cfg0.slots t 3).cast nbuf0_3)
/-- The three accumulators: whole scoped buffers of the kernel's own. -/
abbrev scM0_0 : Memref sig .tc .vmem S512x512 .f32 := Memref.whole cc0_scratch0
abbrev scM0_1 : Memref sig .tc .vmem S100x512 .f32 := Memref.whole cc0_scratch1
abbrev scM0_2 : Memref sig .tc .vmem S100x1 .f32 := Memref.whole cc0_scratch2

/-- The region's invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Whole-buffer loads and stores -/

/-- A load through the rectangle that is the whole of a whole buffer reads the buffer's contents. -/
theorem readAt_unread_whole {S : Shape} {e : EltTy} (M : Memref sig .tc .vmem S e) (hM : M.IsWhole) {off : Fin S.rank → Nat}
    (h : off = fun _ => 0) (inb : ∀ a, off a + S.size a ≤ S.size a) (X : S.Idx → Elt F e) :
    M.view.readAt (Elt F) (Rect.unit off S.size inb).toLoadRect (hM.unread X) = X := by
  rw [View.readAt_eq_ld, hM.read_unread, View.ld_unit_zero h]

/-- A store through that rectangle leaves its payload, whatever the buffer held. -/
theorem read_writes_whole {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, by
    subst h; show y ∈ (Rect.whole S).set; rw [Rect.set_whole]; exact Finset.mem_univ y⟩), View.canon_unit_zero h]

/-- The zero offsets of a rank-2 access. -/
theorem off00 : (![0, 0] : Fin 2 → Nat) = fun _ => 0 := funext fun a => by fin_cases a <;> rfl

end Cert.Kernel.Gen

end
-- ==== Proof.K.Blocks.lean ====
/-
  The blocks the body is handed at each point, read off the argument arrays, and what the body's payloads make of
  them point by point: the three accumulators by recursion on the point (`accAt`: started at point 0, a block's term
  added at points 1 to 4, kept at 5 and 6), and the score block a scoring point leaves (`outAt`).
-/
import proofs.«124658_g15693810500123_cont_7to1_75_23_alg».proof.Proof.K.Conds
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staged blocks -/

/-- The block of samples at point `t`. -/
def x1At (c : Dev nD) (t : Fin cfg0.N) : Vec F S2048x512 .f32 := iblk m c 0 t
/-- The block of projection rows at point `t`, zero past the array's end. -/
def x2At (c : Dev nD) (t : Fin cfg0.N) : Vec F S2048x512 .f32 :=
  win0_1.fill (grid0.coords t) (fun _ => Scalar.ofBits .f32 0#32) (iblk m c 1 t)
/-- The block of centroid lanes at point `t`, zero past the array's end. -/
def x3At (c : Dev nD) (t : Fin cfg0.N) : Vec F S100x2048 .f32 :=
  win0_2.fill (grid0.coords t) (fun _ => Scalar.ofBits .f32 0#32) (iblk m c 2 t)

/-- At the whole blocks (points 0 to 3) a fetch fills the whole buffer. -/
theorem xsize0_1 : ∀ t : Fin cfg0.N, t.val < 4 → ∀ a, win0_1.xsize (grid0.coords t) a = S2048x512.size a := by decide +kernel
theorem xsize0_2 : ∀ t : Fin cfg0.N, t.val < 4 → ∀ a, win0_2.xsize (grid0.coords t) a = S100x2048.size a := by decide +kernel
/-- At the last block 1808 rows (lanes) lie inside the arrays, at every point from 4 on. -/
theorem xsize0_1_edge : ∀ t : Fin cfg0.N, 4 ≤ t.val → win0_1.xsize (grid0.coords t) 0 = 1808 ∧ win0_1.xsize (grid0.coords t) 1 = 512 := by decide +kernel
theorem xsize0_2_edge : ∀ t : Fin cfg0.N, 4 ≤ t.val → win0_2.xsize (grid0.coords t) 0 = 100 ∧ win0_2.xsize (grid0.coords t) 1 = 1808 := by decide +kernel

theorem fill0_1_whole (c : Dev nD) (t : Fin cfg0.N) (ht : t.val < 4) (d : S2048x512.Idx → Elt F .f32) :
    win0_1.fill (grid0.coords t) d (iblk m c 1 t) = x2At m c t := by
  funext j
  have hm : win0_1.moved (grid0.coords t) j = true := (win0_1.moved_iff _ _).mpr fun a => by rw [xsize0_1 t ht a]; exact (j a).isLt
  unfold x2At Window.fill; rw [dif_pos hm, dif_pos hm]
theorem fill0_2_whole (c : Dev nD) (t : Fin cfg0.N) (ht : t.val < 4) (d : S100x2048.Idx → Elt F .f32) :
    win0_2.fill (grid0.coords t) d (iblk m c 2 t) = x3At m c t := by
  funext j
  have hm : win0_2.moved (grid0.coords t) j = true := (win0_2.moved_iff _ _).mpr fun a => by rw [xsize0_2 t ht a]; exact (j a).isLt
  unfold x3At Window.fill; rw [dif_pos hm, dif_pos hm]

open Idealize.ShloMosaic.ValueIdx in
/-- At the last block any two fills agree on the 1808 rows inside the array. -/
theorem fill0_1_edge (c : Dev nD) (t : Fin cfg0.N) (ht : 4 ≤ t.val) (d : S2048x512.Idx → Elt F .f32) (k : Fin 2048) (f : Fin 512) (hk : k.val < 1808) :
    win0_1.fill (grid0.coords t) d (iblk m c 1 t) (ix2 k f) = x2At m c t (ix2 k f) := by
  have hm : win0_1.moved (grid0.coords t) (ix2 k f) = true := (win0_1.moved_iff _ _).mpr fun a => by
    match a with
    | ⟨0, _⟩ => show k.val < win0_1.xsize (grid0.coords t) 0; rw [(xsize0_1_edge t ht).1]; exact hk
    | ⟨1, _⟩ => show f.val < win0_1.xsize (grid0.coords t) 1; rw [(xsize0_1_edge t ht).2]; exact f.isLt
  unfold x2At Window.fill; rw [dif_pos hm, dif_pos hm]
open Idealize.ShloMosaic.ValueIdx in
theorem fill0_2_edge (c : Dev nD) (t : Fin cfg0.N) (ht : 4 ≤ t.val) (d : S100x2048.Idx → Elt F .f32) (r : Fin 100) (k : Fin 2048) (hk : k.val < 1808) :
    win0_2.fill (grid0.coords t) d (iblk m c 2 t) (ix2 r k) = x3At m c t (ix2 r k) := by
  have hm : win0_2.moved (grid0.coords t) (ix2 r k) = true := (win0_2.moved_iff _ _).mpr fun a => by
    match a with
    | ⟨0, _⟩ => show r.val < win0_2.xsize (grid0.coords t) 0; rw [(xsize0_2_edge t ht).1]; exact r.isLt
    | ⟨1, _⟩ => show k.val < win0_2.xsize (grid0.coords t) 1; rw [(xsize0_2_edge t ht).2]; exact hk
  unfold x3At Window.fill; rw [dif_pos hm, dif_pos hm]

/-! ## The accumulators and the score block, point by point -/

/-- The Gram matrix, the projected centroids and the squared norms accumulated up to and including point `n`. -/
def accAt (c : Dev nD) : (n : ℕ) → n < cfg0.N → Vec F S512x512 .f32 × Vec F S100x512 .f32 × Vec F S100x1 .f32
  | 0, hn => (k0_pay2 (x2At m c ⟨0, hn⟩), k0_pay3 (x2At m c ⟨0, hn⟩) (x3At m c ⟨0, hn⟩), k0_pay4 (x3At m c ⟨0, hn⟩))
  | n + 1, hn =>
    if n + 1 < 4 then
      (k0_pay6 (x2At m c ⟨n + 1, hn⟩) (accAt c n (Nat.lt_of_succ_lt hn)).1,
       k0_pay7 (x2At m c ⟨n + 1, hn⟩) (x3At m c ⟨n + 1, hn⟩) (accAt c n (Nat.lt_of_succ_lt hn)).2.1,
       k0_pay8 (x3At m c ⟨n + 1, hn⟩) (accAt c n (Nat.lt_of_succ_lt hn)).2.2)
    else if n + 1 = 4 then
      (k0_pay12 (x2At m c ⟨n + 1, hn⟩) (accAt c n (Nat.lt_of_succ_lt hn)).1,
       k0_pay13 (x2At m c ⟨n + 1, hn⟩) (x3At m c ⟨n + 1, hn⟩) (accAt c n (Nat.lt_of_succ_lt hn)).2.1,
       k0_pay14 (x3At m c ⟨n + 1, hn⟩) (accAt c n (Nat.lt_of_succ_lt hn)).2.2)
    else accAt c n (Nat.lt_of_succ_lt hn)

theorem accAt_A (c : Dev nD) (t : Fin cfg0.N) (h : t.val = 0) :
    accAt m c t.val t.isLt = (k0_pay2 (x2At m c t), k0_pay3 (x2At m c t) (x3At m c t), k0_pay4 (x3At m c t)) := by
  obtain ⟨n, hn⟩ := t
  cases n with
  | zero => rfl
  | succ n => exact absurd h (Nat.succ_ne_zero n)

theorem accAt_B (c : Dev nD) (t : Fin cfg0.N) (h0 : t.val ≠ 0) (h4 : t.val < 4) :
    accAt m c t.val t.isLt =
      (k0_pay6 (x2At m c t) (accAt m c (t.val - 1) (Nat.lt_of_le_of_lt (Nat.sub_le _ _) t.isLt)).1,
       k0_pay7 (x2At m c t) (x3At m c t) (accAt m c (t.val - 1) (Nat.lt_of_le_of_lt (Nat.sub_le _ _) t.isLt)).2.1,
       k0_pay8 (x3At m c t) (accAt m c (t.val - 1) (Nat.lt_of_le_of_lt (Nat.sub_le _ _) t.isLt)).2.2) := by
  obtain ⟨n, hn⟩ := t
  cases n with
  | zero => exact absurd rfl h0
  | succ n => exact (if_pos h4).trans rfl

theorem accAt_C (c : Dev nD) (t : Fin cfg0.N) (h : t.val = 4) :
    accAt m c t.val t.isLt =
      (k0_pay12 (x2At m c t) (accAt m c (t.val - 1) (Nat.lt_of_le_of_lt (Nat.sub_le _ _) t.isLt)).1,
       k0_pay13 (x2At m c t) (x3At m c t) (accAt m c (t.val - 1) (Nat.lt_of_le_of_lt (Nat.sub_le _ _) t.isLt)).2.1,
       k0_pay14 (x3At m c t) (accAt m c (t.val - 1) (Nat.lt_of_le_of_lt (Nat.sub_le _ _) t.isLt)).2.2) := by
  obtain ⟨n, hn⟩ := t
  cases n with
  | zero => exact absurd h (by show ¬ (0 : ℕ) = 4; omega)
  | succ n => exact (if_neg (by dsimp only at h; omega)).trans ((if_pos h).trans rfl)

theorem accAt_D (c : Dev nD) (t : Fin cfg0.N) (h : 5 ≤ t.val) :
    accAt m c t.val t.isLt = accAt m c (t.val - 1) (Nat.lt_of_le_of_lt (Nat.sub_le _ _) t.isLt) := by
  obtain ⟨n, hn⟩ := t
  cases n with
  | zero => exact absurd h (by show ¬ 5 ≤ (0 : ℕ); omega)
  | succ n => exact (if_neg (by dsimp only at h; omega)).trans ((if_neg (by dsimp only at h; omega)).trans rfl)

/-- The score block point `t` leaves: the sample block scored against the accumulators as they stand. -/
def outAt (c : Dev nD) (t : Fin cfg0.N) : Vec F S2048x100 .f32 :=
  k0_pay9 (x1At m c t) (accAt m c t.val t.isLt).1 (accAt m c t.val t.isLt).2.1 (accAt m c t.val t.isLt).2.2

end Cert.Kernel.Gen

end
-- ==== Proof.K.RunA.lean ====
/- The body at the first point. It loads the first block of projection rows `x2` and of centroid lanes `x3`, and
   starts the three accumulators from them: the block's Gram matrix, the block's projected centroids, the block's
   squared lane sums. The accumulators may hold anything before; the sample and score buffers are left alone. -/
import proofs.«124658_g15693810500123_cont_7to1_75_23_alg».proof.Proof.K.Conds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : cond0_1 i) (hc2 : ¬cond0_2 i) (hc3 : ¬cond0_3 i) (hc4 : ¬cond0_4 i)
    (x1 : Vec F S2048x512 .f32) (x2 : Vec F S2048x512 .f32) (x3 : Vec F S100x2048 .f32) (x4 : Vec F S2048x100 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay2 x2) ∗ owns (c : Thread nD τ) arg6 fullShare (k0_pay3 x2 x3)
            ∗ owns (c : Thread nD τ) arg7 fullShare (k0_pay4 x3)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, Hk⟩
  obtain rfl := harg1.eq_unread hf1; obtain rfl := harg2.eq_unread hf2; obtain rfl := harg3.eq_unread hf3; obtain rfl := harg4.eq_unread hf4
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_writes_whole _ _ off00 _ _
  isplitl [H6]
  · iexists _; isplitr
    swap; · iexact H6
    ipureintro; exact read_writes_whole _ _ off00 _ _
  iexists _; isplitr
  swap; · iexact H7
  ipureintro; exact read_writes_whole _ _ off00 _ _

end Cert.Kernel.Gen

end
-- ==== Proof.K.RunB.lean ====
/- The body at an interior hyperdimension block (points 1, 2, 3): each accumulator gains the block's term. -/
import proofs.«124658_g15693810500123_cont_7to1_75_23_alg».proof.Proof.K.Conds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_B (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond0_1 i) (hc2 : cond0_2 i) (hc3 : ¬cond0_3 i) (hc4 : ¬cond0_4 i)
    (x1 : Vec F S2048x512 .f32) (x2 : Vec F S2048x512 .f32) (x3 : Vec F S100x2048 .f32) (x4 : Vec F S2048x100 .f32)
    (s5 : Vec F S512x512 .f32) (s6 : Vec F S100x512 .f32) (s7 : Vec F S100x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg5 fullShare s5 ∗ owns (c : Thread nD τ) arg6 fullShare s6 ∗ owns (c : Thread nD τ) arg7 fullShare s7
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay6 x2 s5) ∗ owns (c : Thread nD τ) arg6 fullShare (k0_pay7 x2 x3 s6)
            ∗ owns (c : Thread nD τ) arg7 fullShare (k0_pay8 x3 s7)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_writes_whole _ _ off00 _ _
  isplitl [H6]
  · iexists _; isplitr
    swap; · iexact H6
    ipureintro; exact read_writes_whole _ _ off00 _ _
  iexists _; isplitr
  swap; · iexact H7
  ipureintro; exact read_writes_whole _ _ off00 _ _

end Cert.Kernel.Gen

end
-- ==== Proof.K.RunC.lean ====
/- The body at the last hyperdimension block (point 4): each accumulator gains the block's term, with the rows of
   `x2` and the lanes of `x3` past the arrays' end replaced by zero first. -/
import proofs.«124658_g15693810500123_cont_7to1_75_23_alg».proof.Proof.K.Conds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_C (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond0_1 i) (hc2 : ¬cond0_2 i) (hc3 : cond0_3 i) (hc4 : ¬cond0_4 i)
    (x1 : Vec F S2048x512 .f32) (x2 : Vec F S2048x512 .f32) (x3 : Vec F S100x2048 .f32) (x4 : Vec F S2048x100 .f32)
    (s5 : Vec F S512x512 .f32) (s6 : Vec F S100x512 .f32) (s7 : Vec F S100x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg5 fullShare s5 ∗ owns (c : Thread nD τ) arg6 fullShare s6 ∗ owns (c : Thread nD τ) arg7 fullShare s7
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay12 x2 s5) ∗ owns (c : Thread nD τ) arg6 fullShare (k0_pay13 x2 x3 s6)
            ∗ owns (c : Thread nD τ) arg7 fullShare (k0_pay14 x3 s7)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_writes_whole _ _ off00 _ _
  isplitl [H6]
  · iexists _; isplitr
    swap; · iexact H6
    ipureintro; exact read_writes_whole _ _ off00 _ _
  iexists _; isplitr
  swap; · iexact H7
  ipureintro; exact read_writes_whole _ _ off00 _ _

end Cert.Kernel.Gen

end
-- ==== Proof.K.RunD.lean ====
/- The body at a scoring point (5, 6): the block of samples `x1` is scored against the finished accumulators into
   the score buffer, whatever that held; the accumulators and the other buffers are left alone. -/
import proofs.«124658_g15693810500123_cont_7to1_75_23_alg».proof.Proof.K.Conds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_D (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond0_1 i) (hc2 : ¬cond0_2 i) (hc3 : ¬cond0_3 i) (hc4 : cond0_4 i)
    (x1 : Vec F S2048x512 .f32) (x2 : Vec F S2048x512 .f32) (x3 : Vec F S100x2048 .f32) (x4 : Vec F S2048x100 .f32)
    (s5 : Vec F S512x512 .f32) (s6 : Vec F S100x512 .f32) (s7 : Vec F S100x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg5 fullShare s5 ∗ owns (c : Thread nD τ) arg6 fullShare s6 ∗ owns (c : Thread nD τ) arg7 fullShare s7
        ∗ (iprop(owns (c : Thread nD τ) arg1 fullShare x1 ∗ owns (c : Thread nD τ) arg2 fullShare x2 ∗ owns (c : Thread nD τ) arg3 fullShare x3
            ∗ owns (c : Thread nD τ) arg4 fullShare (k0_pay9 x1 s5 s6 s7)
            ∗ owns (c : Thread nD τ) arg5 fullShare s5 ∗ owns (c : Thread nD τ) arg6 fullShare s6
            ∗ owns (c : Thread nD τ) arg7 fullShare s7) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact read_writes_whole _ _ off00 _ _
  isplitl [H5]
  · iexists _; isplitr
    swap; · iexact H5
    ipureintro; exact harg5.read_unread _
  isplitl [H6]
  · iexists _; isplitr
    swap; · iexact H6
    ipureintro; exact harg6.read_unread _
  iexists _; isplitr
  swap; · iexact H7
  ipureintro; exact harg7.read_unread _

end Cert.Kernel.Gen

end
-- ==== Proof.K.MaskCongr.lean ====
import proofs.«124658_g15693810500123_cont_7to1_75_23_alg».proof.Proof.Gen.Kernel.Skeleton
import Idealize.ShloMosaic.Lib.ValueIdx
import Idealize.ShloMosaic.Lib.Affine
import Idealize.ShloMosaic.Lib.Pipeline.Value

/-! # The masked payloads do not read the masked entries

In the last block along the contracted axis the rows of the first operand and the lanes of the
second operand whose number is 1808 or more are replaced by zero before anything else reads them.
Hence two operands that agree below 1808 give the same payloads. -/

noncomputable section

namespace Cert.Kernel.MaskCongr

open Cert.Kernel Cert.Kernel.Gen Idealize.ShloMosaic Idealize.ShloMosaic.ValueIdx

variable {F : FTy → Type} [FloatOps F]

/-- For a number below 2048, the signed comparison of its 32-bit word with the word 1808 holds
    exactly when the number is below 1808. -/
theorem slt_1808_iff (k : Nat) (hk : k < 2048) :
    IntOp.cmpi .slt (BitVec.ofNat 32 k) 1808#32 = 1#1 ↔ k < 1808 := by
  rw [IntOp.cmpi_slt]
  have e := BitVec.toInt_eq_toNat_cond (BitVec.ofNat 32 k)
  have e2 : (1808#32).toInt = 1808 := by decide
  have e3 : (BitVec.ofNat 32 k).toNat = k := by
    rw [BitVec.toNat_ofNat]; exact Nat.mod_eq_of_lt (by omega)
  rw [e2, e, e3]
  split <;> omega

/-- A one-bit word other than one selects the second branch. -/
theorem select_of_ne_one {α : Type} (c : BitVec 1) (hc : c ≠ 1#1) (a b : α) :
    Scalar.select c a b = b := by
  rw [eq_zero_of_ne_one hc]; exact select_zero a b

/-- The row mask at row `k` is set exactly when `k < 1808`. -/
theorem rowMask_iff (k : Fin 2048) (f : Fin 512) :
    cmpi .slt (iota .tc S2048x512 32 [0] iota_S2048x512_d0_w32) (broadcast S2048x512 1808#32) (ix2 k f) = 1#1
      ↔ k.val < 1808 := by
  show IntOp.cmpi .slt (iota .tc S2048x512 32 [0] iota_S2048x512_d0_w32 (ix2 k f)) 1808#32 = 1#1 ↔ _
  rw [iota_single_apply]
  exact slt_1808_iff k.val k.isLt

/-- The lane mask at lane `k` is set exactly when `k < 1808`. -/
theorem laneMask_iff (c : Fin 100) (k : Fin 2048) :
    cmpi .slt (iota .tc S100x2048 32 [1] iota_S100x2048_d1_w32) (broadcast S100x2048 1808#32) (ix2 c k) = 1#1
      ↔ k.val < 1808 := by
  show IntOp.cmpi .slt (iota .tc S100x2048 32 [1] iota_S100x2048_d1_w32 (ix2 c k)) 1808#32 = 1#1 ↔ _
  rw [iota_single_apply]
  exact slt_1808_iff k.val k.isLt

/-- The masked first operand depends only on its rows below 1808. -/
theorem pay11_congr (x2 x2' : Vec F S2048x512 .f32)
    (h : ∀ (k : Fin 2048) (f : Fin 512), k.val < 1808 → x2 (ix2 k f) = x2' (ix2 k f)) :
    k0_pay11 x2 = k0_pay11 x2' := by
  unfold k0_pay11
  refine congrArg (fun v => truncf .bf16 v bitsLt_bf16_f32) ?_
  funext j
  obtain ⟨k, f, rfl⟩ : ∃ k f, j = ix2 k f := ⟨j 0, j 1, eq_ix2 j⟩
  rw [select_apply, select_apply]
  by_cases hk : k.val < 1808
  · rw [(rowMask_iff k f).mpr hk, select_one, select_one]
    exact h k f hk
  · have hne := fun e => hk ((rowMask_iff k f).mp e)
    rw [select_of_ne_one _ hne, select_of_ne_one _ hne]

/-- The masked second operand depends only on its lanes below 1808. -/
theorem pay10_congr (x3 x3' : Vec F S100x2048 .f32)
    (h : ∀ (c : Fin 100) (k : Fin 2048), k.val < 1808 → x3 (ix2 c k) = x3' (ix2 c k)) :
    k0_pay10 x3 = k0_pay10 x3' := by
  unfold k0_pay10
  funext j
  obtain ⟨c, k, rfl⟩ : ∃ c k, j = ix2 c k := ⟨j 0, j 1, eq_ix2 j⟩
  rw [select_apply, select_apply]
  by_cases hk : k.val < 1808
  · rw [(laneMask_iff c k).mpr hk, select_one, select_one]
    exact h c k hk
  · have hne := fun e => hk ((laneMask_iff c k).mp e)
    rw [select_of_ne_one _ hne, select_of_ne_one _ hne]

theorem pay12_congr (x2 x2' : Vec F S2048x512 .f32) (s5 : Vec F S512x512 .f32)
    (h2 : ∀ (k : Fin 2048) (f : Fin 512), k.val < 1808 → x2 (ix2 k f) = x2' (ix2 k f)) :
    k0_pay12 x2 s5 = k0_pay12 x2' s5 := by
  unfold k0_pay12
  rw [pay11_congr x2 x2' h2]

theorem pay13_congr (x2 x2' : Vec F S2048x512 .f32) (x3 x3' : Vec F S100x2048 .f32)
    (s6 : Vec F S100x512 .f32)
    (h2 : ∀ (k : Fin 2048) (f : Fin 512), k.val < 1808 → x2 (ix2 k f) = x2' (ix2 k f))
    (h3 : ∀ (c : Fin 100) (k : Fin 2048), k.val < 1808 → x3 (ix2 c k) = x3' (ix2 c k)) :
    k0_pay13 x2 x3 s6 = k0_pay13 x2' x3' s6 := by
  unfold k0_pay13
  rw [pay11_congr x2 x2' h2, pay10_congr x3 x3' h3]

theorem pay14_congr (x3 x3' : Vec F S100x2048 .f32) (s7 : Vec F S100x1 .f32)
    (h3 : ∀ (c : Fin 100) (k : Fin 2048), k.val < 1808 → x3 (ix2 c k) = x3' (ix2 c k)) :
    k0_pay14 x3 s7 = k0_pay14 x3' s7 := by
  unfold k0_pay14
  rw [pay10_congr x3 x3' h3]

end Cert.Kernel.MaskCongr
-- ==== Proof.K.Frame.lean ====
/-
  The run of the whole grid. What the three accumulators hold after each point is a recursion on the point over the
  body's own payloads (`accAt`): started at point 0, a block's term added at points 1 to 4, kept at 5 and 6; the score
  block a scoring point leaves is the score payload of the sample block and the finished accumulators (`outAt`).
  The two windows that sweep the hyperdimension overhang their arrays at the last block; what their staging buffers
  hold past the arrays' end is not named, and nothing depends on it: the last block's payloads zero those rows and
  lanes before use. From these, the proof data of the pipeline, the body's obligation at every point by cases on the
  point, and the run: every execution ends, and every array holds what the write-backs of the two score blocks left.
-/
import proofs.«124658_g15693810500123_cont_7to1_75_23_alg».proof.Proof.K.Blocks
import proofs.«124658_g15693810500123_cont_7to1_75_23_alg».proof.Proof.K.RunA
import proofs.«124658_g15693810500123_cont_7to1_75_23_alg».proof.Proof.K.RunB
import proofs.«124658_g15693810500123_cont_7to1_75_23_alg».proof.Proof.K.RunC
import proofs.«124658_g15693810500123_cont_7to1_75_23_alg».proof.Proof.K.RunD
import proofs.«124658_g15693810500123_cont_7to1_75_23_alg».proof.Proof.K.MaskCongr

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.MaskCongr

variable (m : (ℓ : Loc nD τ sig) → Buf (Elt F) ℓ) (ρ : Dev nD → PrngReg)

/-! ## The region's invariant -/

/-- Before the first point the accumulators hold anything; before point `n + 1` what point `n` left. -/
def PhiS (c : Dev nD) : (n : ℕ) → n ≤ cfg0.N → sProp 𝕄
  | 0, _ => Pipeline.ΦA spec0 c
  | n + 1, hn => iprop(iprop(owns (c : Thread nD τ) scM0_0 fullShare (accAt m c n hn).1 ∗ owns (c : Thread nD τ) scM0_1 fullShare (accAt m c n hn).2.1
      ∗ owns (c : Thread nD τ) scM0_2 fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn).1 ∗ owns (c : Thread nD τ) scM0_1 fullShare (accAt m c n hn).2.1
      ∗ owns (c : Thread nD τ) scM0_2 fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)).1 ∗ owns (c : Thread nD τ) scM0_1 fullShare (accAt m c (n - 1) (by omega)).2.1
      ∗ owns (c : Thread nD τ) scM0_2 fullShare (accAt m c (n - 1) (by omega)).2.2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => x2At m c t
    | ⟨2, _⟩ => x3At m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = x2At m c t := by dsimp only [dats]
theorem after0_2 (c : Dev nD) (t : Fin cfg0.N) : (dats m 0 c).after 2 t = x3At m c t := by dsimp only [dats]
theorem after0_3 (c : Dev nD) (t : Fin cfg0.N) : (dats m 0 c).after 3 t = outAt m c t := by dsimp only [dats]

/-- The sample window's buffer holds its block at every point. -/
theorem before0_0 (c : Dev nD) (t : Fin cfg0.N) (d) : (dats m 0 c).before 0 t d = iblk m c 0 t :=
  before0_0_of m (dats m 0 c) (A_eq m c 0) (after0_0 m c) t d

/-- The cuts of the two hyperdimension windows depend on the point through the block index only. -/
theorem hclip0_1 : ∀ t t' : Fin cfg0.N, (cfg0.win 1).index t = (cfg0.win 1).index t' →
    (cfg0.win 1).clip (cfg0.grid.coords t) = (cfg0.win 1).clip (cfg0.grid.coords t') := by decide +kernel
theorem hclip0_2 : ∀ t t' : Fin cfg0.N, (cfg0.win 2).index t = (cfg0.win 2).index t' →
    (cfg0.win 2).clip (cfg0.grid.coords t) = (cfg0.win 2).clip (cfg0.grid.coords t') := by decide +kernel

theorem keep0_1 (c : Dev nD) (t : Fin cfg0.N) :
    (cfg0.win 1).cut (cfg0.grid.coords t) ((dats m 0 c).after 1 t) = iblk m c 1 t := by
  rw [after0_1]; exact win0_1.cut_fill _ _ _
theorem keep0_2 (c : Dev nD) (t : Fin cfg0.N) :
    (cfg0.win 2).cut (cfg0.grid.coords t) ((dats m 0 c).after 2 t) = iblk m c 2 t := by
  rw [after0_2]; exact win0_2.cut_fill _ _ _

theorem blockOf0_1 (c : Dev nD) (t : Fin cfg0.N) : (dats m 0 c).blockOf 1 t = iblk m c 1 t := by
  unfold Dat.blockOf iblk; rw [A_eq]
theorem blockOf0_2 (c : Dev nD) (t : Fin cfg0.N) : (dats m 0 c).blockOf 2 t = iblk m c 2 t := by
  unfold Dat.blockOf iblk; rw [A_eq]

/-- A hyperdimension window's buffer holds, at every point, its block where the fetch filled it and anything past
    the array's end. -/
theorem before0_1 (c : Dev nD) (t : Fin cfg0.N) (d) :
    (dats m 0 c).before 1 t d = win0_1.fill (grid0.coords t) d (iblk m c 1 t) := by
  rw [(dats m 0 c).before_in_eq_fetched 1 rfl (fun _ => rfl) hclip0_1 (fun t => (keep0_1 m c t).trans (blockOf0_1 m c t).symm) t d]
  unfold Dat.fetched; rw [blockOf0_1]
theorem before0_2 (c : Dev nD) (t : Fin cfg0.N) (d) :
    (dats m 0 c).before 2 t d = win0_2.fill (grid0.coords t) d (iblk m c 2 t) := by
  rw [(dats m 0 c).before_in_eq_fetched 2 rfl (fun _ => rfl) hclip0_2 (fun t => (keep0_2 m c t).trans (blockOf0_2 m c t).symm) t d]
  unfold Dat.fetched; rw [blockOf0_2]

/-! ## What the body must leave, window by window -/

theorem leaves0_0 (c : Dev nD) (t : Fin cfg0.N) :
    (dats m 0 c).leaves 0 t = owns (c : Thread nD τ) (ms0_0 t) fullShare (iblk m c 0 t) := by
  unfold Dat.leaves; rw [liveAt0_0 t]; (try rfl)
theorem leaves0_1 (c : Dev nD) (t : Fin cfg0.N) :
    (dats m 0 c).leaves 1 t = iprop(∃ d, owns (c : Thread nD τ) (ms0_1 t) fullShare (win0_1.fill (grid0.coords t) d (iblk m c 1 t))) := by
  unfold Dat.leaves; rw [liveAt0_1 t]
  show iprop(∃ d, owns (c : Thread nD τ) (ms0_1 t) fullShare (win0_1.fill (grid0.coords t) d ((cfg0.win 1).cut (cfg0.grid.coords t) ((dats m 0 c).after 1 t)))) = _
  rw [keep0_1]
theorem leaves0_2 (c : Dev nD) (t : Fin cfg0.N) :
    (dats m 0 c).leaves 2 t = iprop(∃ d, owns (c : Thread nD τ) (ms0_2 t) fullShare (win0_2.fill (grid0.coords t) d (iblk m c 2 t))) := by
  unfold Dat.leaves; rw [liveAt0_2 t]
  show iprop(∃ d, owns (c : Thread nD τ) (ms0_2 t) fullShare (win0_2.fill (grid0.coords t) d ((cfg0.win 2).cut (cfg0.grid.coords t) ((dats m 0 c).after 2 t)))) = _
  rw [keep0_2]
theorem leaves0_3_idle (c : Dev nD) (t : Fin cfg0.N) (ht : t.val < 5) :
    (dats m 0 c).leaves 3 t = iprop(∃ d, owns (c : Thread nD τ) (ms0_3 t) fullShare ((dats m 0 c).before 3 t d)) :=
  (dats m 0 c).leaves_idle 3 t (idleAt0_3 t ht) (noFlush0_3 t ht)
theorem leaves0_3_live (c : Dev nD) (t : Fin cfg0.N) (ht : 5 ≤ t.val) :
    (dats m 0 c).leaves 3 t = owns (c : Thread nD τ) (ms0_3 t) fullShare (outAt m c t) := by
  unfold Dat.leaves; rw [liveAt0_3 t ht]; (try rw [after0_3]); (try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, PhiS_castSucc m c t]
  have hN : t.val < 7 := lt_of_lt_of_eq t.isLt (show cfg0.N = 7 from N_0)
  by_cases hA : t.val = 0
  · -- the first point
    have hc1 : cond0_1 (grid0.coords t) := (hcond0_1 t).mpr hA
    have hc2 : ¬cond0_2 (grid0.coords t) := fun h => by have := (hcond0_2 t).mp h; omega
    have hc3 : ¬cond0_3 (grid0.coords t) := fun h => by have := (hcond0_3 t).mp h; omega
    have hc4 : ¬cond0_4 (grid0.coords t) := fun h => by have := (hcond0_4 t).mp h; omega
    rw [leaves0_3_idle m c t (by omega), accAt_A m c t hA, PhiS_zero m c _ _ hA, PhiA0_eq]
    iintro ⟨⟨⟨HS0, HS1, HS2⟩, Hg⟩, Ho, ⟨%d0, H0⟩, ⟨%d1, H1⟩, ⟨%d2, H2⟩, ⟨%d3, H3⟩⟩
    rw [before0_0 m c t d0, before0_1 m c t d1, before0_2 m c t d2, fill0_1_whole m c t (by omega) d1, fill0_2_whole m c t (by omega) d2]
    iapply (run0_A c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) hc1 hc2 hc3 hc4
      (iblk m c 0 t) (x2At m c t) (x3At m c t) ((dats m 0 c).before 3 t d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]
    · iexists (x2At m c t); rw [fill0_1_whole m c t (by omega)]; iexact H1
    isplitl [H2]
    · iexists (x3At m c t); rw [fill0_2_whole m c t (by omega)]; iexact H2
    iexists d3; iexact H3
  · rw [PhiS_pos m c _ _ hA]
    by_cases hB : t.val < 4
    · -- an interior block
      have hc1 : ¬cond0_1 (grid0.coords t) := fun h => hA ((hcond0_1 t).mp h)
      have hc2 : cond0_2 (grid0.coords t) := (hcond0_2 t).mpr ⟨by omega, hB⟩
      have hc3 : ¬cond0_3 (grid0.coords t) := fun h => by have := (hcond0_3 t).mp h; omega
      have hc4 : ¬cond0_4 (grid0.coords t) := fun h => by have := (hcond0_4 t).mp h; omega
      rw [leaves0_3_idle m c t (by omega), accAt_B m c t hA hB]
      iintro ⟨⟨⟨HS0, HS1, HS2⟩, Hg⟩, Ho, ⟨%d0, H0⟩, ⟨%d1, H1⟩, ⟨%d2, H2⟩, ⟨%d3, H3⟩⟩
      rw [before0_0 m c t d0, before0_1 m c t d1, before0_2 m c t d2, fill0_1_whole m c t hB d1, fill0_2_whole m c t hB d2]
      iapply (run0_B c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _) hc1 hc2 hc3 hc4
        (iblk m c 0 t) (x2At m c t) (x3At m c t) ((dats m 0 c).before 3 t d3) _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]
      · iexists (x2At m c t); rw [fill0_1_whole m c t hB]; iexact H1
      isplitl [H2]
      · iexists (x3At m c t); rw [fill0_2_whole m c t hB]; iexact H2
      iexists d3; iexact H3
    · by_cases hC : t.val = 4
      · -- the last block: the rows and lanes past the arrays' end are zeroed before use
        have hc1 : ¬cond0_1 (grid0.coords t) := fun h => hA ((hcond0_1 t).mp h)
        have hc2 : ¬cond0_2 (grid0.coords t) := fun h => by have := (hcond0_2 t).mp h; omega
        have hc3 : cond0_3 (grid0.coords t) := (hcond0_3 t).mpr hC
        have hc4 : ¬cond0_4 (grid0.coords t) := fun h => by have := (hcond0_4 t).mp h; omega
        rw [leaves0_3_idle m c t (by omega), accAt_C m c t hC]
        iintro ⟨⟨⟨HS0, HS1, HS2⟩, Hg⟩, Ho, ⟨%d0, H0⟩, ⟨%d1, H1⟩, ⟨%d2, H2⟩, ⟨%d3, H3⟩⟩
        rw [before0_0 m c t d0, before0_1 m c t d1, before0_2 m c t d2]
        have h2 : ∀ (k : Fin 2048) (f : Fin 512), k.val < 1808 →
            win0_1.fill (grid0.coords t) d1 (iblk m c 1 t) (ValueIdx.ix2 k f) = x2At m c t (ValueIdx.ix2 k f) :=
          fun k f hk => fill0_1_edge m c t (by omega) d1 k f hk
        have h3 : ∀ (r : Fin 100) (k : Fin 2048), k.val < 1808 →
            win0_2.fill (grid0.coords t) d2 (iblk m c 2 t) (ValueIdx.ix2 r k) = x3At m c t (ValueIdx.ix2 r k) :=
          fun r k hk => fill0_2_edge m c t (by omega) d2 r k hk
        rw [← pay12_congr _ _ _ h2, ← pay13_congr _ _ _ _ _ h2 h3, ← pay14_congr _ _ _ h3]
        iapply (run0_C c (grid0.coords t) (ms0_0 t) (hs0_0 t) (ms0_1 t) (hs0_1 t) (ms0_2 t) (hs0_2 t) (ms0_3 t) (hs0_3 t)
          scM0_0 (Memref.isWhole_whole _) scM0_1 (Memref.isWhole_whole _) scM0_2 (Memref.isWhole_whole _) hc1 hc2 hc3 hc4
          (iblk m c 0 t) (win0_1.fill (grid0.coords t) d1 (iblk m c 1 t)) (win0_2.fill (grid0.coords t) d2 (iblk m c 2 t)) ((dats m 0 c).before 3 t d3) _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]
        · iexists d1; iexact H1
        isplitl [H2]
        · iexists d2; iexact H2
        iexists d3; iexact H3
      · -- a scoring point
        have hD : 5 ≤ t.val := by omega
        have hc1 : ¬cond0_1 (grid0.coords t) := fun h => hA ((hcond0_1 t).mp h)
        have hc2 : ¬cond0_2 (grid0.coords t) := fun h => by have := (hcond0_2 t).mp h; omega
        have hc3 : ¬cond0_3 (grid0.coords t) := fun h => hC ((hcond0_3 t).mp h)
        have hc4 : cond0_4 (grid0.coords t) := (hcond0_4 t).mpr hD
        rw [leaves0_3_live m c t hD, accAt_D m c t hD]
        unfold outAt x1At
        rw [accAt_D m c t hD]
        iintro ⟨⟨⟨HS0, HS1, HS2⟩, Hg⟩, Ho, ⟨%d0, H0⟩, ⟨%d1, H1⟩, ⟨%d2, H2⟩, ⟨%d3, H3⟩⟩
        rw [before0_0 m c t d0, before0_1 m c t d1, before0_2 m c t d2]
        iapply (run0_D c (grid0.coords t) (ms0_0 t) (hs0_0 t) (ms0_1 t) (hs0_1 t) (ms0_2 t) (hs0_2 t) (ms0_3 t) (hs0_3 t)
          scM0_0 (Memref.isWhole_whole _) scM0_1 (Memref.isWhole_whole _) scM0_2 (Memref.isWhole_whole _) hc1 hc2 hc3 hc4
          (iblk m c 0 t) (win0_1.fill (grid0.coords t) d1 (iblk m c 1 t)) (win0_2.fill (grid0.coords t) d2 (iblk m c 2 t)) ((dats m 0 c).before 3 t d3) _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]
        · iexists d1; iexact H1
        isplitl [H2]
        · iexists d2; iexact H2
        iexact H3

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 7 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main ends, and every array of the pipeline holds what the library computes from
    the proof data: the three arguments what they held, the scores the two score blocks written back. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m)
    (hmain := hmain m Variants.none) (hA := A_eq m) (hin := hin m) (hout := hout m)

/-- The frame: the run ends and the three argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.KI.Conds.lean ====
/-
  The grid of seven points runs four kinds of step: point 0 starts the three accumulators (the Gram matrix of the
  projection rows, the projected centroids, the centroids' squared norms) from the first hyperdimension block;
  points 1 to 3 add a whole block; point 4 adds the last block, of which 1808 rows lie inside the arrays; points
  5 and 6 score a block of 2048 samples against the finished accumulators. Here: the four branch conditions as
  functions of the point, in closed form over the grid; where the score window is idle and where it is written
  back; which points fetch which window; the staging and accumulator buffers as the body is handed them.
-/
import proofs.«124658_g15693810500123_cont_7to1_75_23_alg».proof.Proof.Gen.KernelIdeal.Launch
import proofs.«124658_g15693810500123_cont_7to1_75_23_alg».proof.Proof.Gen.KernelIdeal.Skeleton
import proofs.«124658_g15693810500123_cont_7to1_75_23_alg».proof.Proof.Gen.KernelIdeal.Points
import proofs.«124658_g15693810500123_cont_7to1_75_23_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first point": the accumulators are started. -/
abbrev cond0_1 (i : grid0.Coords) : Prop :=
  (Scalar.cmpi .ne (Scalar.extui (Scalar.cmpi .eq (BitVec.ofNat 32 (i 0).val) 0#32)) 0#32) = 1#1
/-- "An interior hyperdimension block": points 1, 2, 3. -/
abbrev cond0_2 (i : grid0.Coords) : Prop :=
  (Scalar.cmpi .ne (Scalar.extui (Scalar.andi (Scalar.cmpi .sgt (BitVec.ofNat 32 (i 0).val) 0#32) (Scalar.cmpi .slt (BitVec.ofNat 32 (i 0).val) 4#32))) 0#32) = 1#1
/-- "The last hyperdimension block": point 4. -/
abbrev cond0_3 (i : grid0.Coords) : Prop :=
  (Scalar.cmpi .ne (Scalar.extui (Scalar.cmpi .eq (BitVec.ofNat 32 (i 0).val) 4#32)) 0#32) = 1#1
/-- "A block of samples is scored": points 5 and 6. -/
abbrev cond0_4 (i : grid0.Coords) : Prop := k0_cond4 i = 1#1

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ (0 < t.val ∧ t.val < 4) :=
  (by decide +kernel : ∀ t : Fin grid0.N, cond0_2 (grid0.coords t) ↔ (0 < t.val ∧ t.val < 4))
theorem hcond0_3 : ∀ t : Fin cfg0.N, cond0_3 (grid0.coords t) ↔ t.val = 4 :=
  (by decide +kernel : ∀ t : Fin grid0.N, cond0_3 (grid0.coords t) ↔ t.val = 4)
theorem hcond0_4 : ∀ t : Fin cfg0.N, cond0_4 (grid0.coords t) ↔ 5 ≤ t.val :=
  (by decide +kernel : ∀ t : Fin grid0.N, cond0_4 (grid0.coords t) ↔ 5 ≤ t.val)

/-! ## Idle points, write-backs and fetches -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The score window is idle while the hyperdimension is swept, and is not written back there; -/
theorem idleAt0_3 : ∀ t : Fin cfg0.N, t.val < 5 → cfg0.idle 3 (grid0.coords t) = true := by decide +kernel
theorem noFlush0_3 : ∀ t : Fin cfg0.N, t.val < 5 → (cfg0.win 3).flush t = false := by decide +kernel
/-- it is live, and written back, at the two scoring points. -/
theorem liveAt0_3 : ∀ t : Fin cfg0.N, 5 ≤ t.val → cfg0.idle 3 (grid0.coords t) = false := by decide +kernel
theorem flush0_3 : ∀ t : Fin cfg0.N, 5 ≤ t.val → (cfg0.win 3).flush t = true := by decide +kernel
/-- The two clipped windows are not loose-free: the configuration states them loose, the other two exact. -/
theorem loose0_0 : cfg0.loose 0 = false := rfl
theorem loose0_1 : cfg0.loose 1 = true := rfl
theorem loose0_2 : cfg0.loose 2 = true := rfl
theorem loose0_3 : cfg0.loose 3 = false := rfl

/-! ## The buffers the body is handed -/

/-- Each window's current staging memref at point `t`, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S100x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x100 .f32 := win0_3.stage (cfg0.slots t 3)
abbrev hs0_3 (t : Fin cfg0.N) : (ms0_3 t).IsWhole := hstage0_3 ((cfg0.slots t 3).cast nbuf0_3)
/-- The three accumulators: whole scoped buffers of the kernel's own. -/
abbrev scM0_0 : Memref sig .tc .vmem S512x512 .f32 := Memref.whole cc0_scratch0
abbrev scM0_1 : Memref sig .tc .vmem S100x512 .f32 := Memref.whole cc0_scratch1
abbrev scM0_2 : Memref sig .tc .vmem S100x1 .f32 := Memref.whole cc0_scratch2

/-- The region's invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Whole-buffer loads and stores -/

/-- A load through the rectangle that is the whole of a whole buffer reads the buffer's contents. -/
theorem readAt_unread_whole {S : Shape} {e : EltTy} (M : Memref sig .tc .vmem S e) (hM : M.IsWhole) {off : Fin S.rank → Nat}
    (h : off = fun _ => 0) (inb : ∀ a, off a + S.size a ≤ S.size a) (X : S.Idx → Elt F e) :
    M.view.readAt (Elt F) (Rect.unit off S.size inb).toLoadRect (hM.unread X) = X := by
  rw [View.readAt_eq_ld, hM.read_unread, View.ld_unit_zero h]

/-- A store through that rectangle leaves its payload, whatever the buffer held. -/
theorem read_writes_whole {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, by
    subst h; show y ∈ (Rect.whole S).set; rw [Rect.set_whole]; exact Finset.mem_univ y⟩), View.canon_unit_zero h]

/-- The zero offsets of a rank-2 access. -/
theorem off00 : (![0, 0] : Fin 2 → Nat) = fun _ => 0 := funext fun a => by fin_cases a <;> rfl

end Cert.KernelIdeal.Gen

end
-- ==== Proof.KI.Blocks.lean ====
/-
  The blocks the body is handed at each point, read off the argument arrays, and what the body's payloads make of
  them point by point: the three accumulators by recursion on the point (`accAt`: started at point 0, a block's term
  added at points 1 to 4, kept at 5 and 6), and the score block a scoring point leaves (`outAt`).
-/
import proofs.«124658_g15693810500123_cont_7to1_75_23_alg».proof.Proof.KI.Conds
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staged blocks -/

/-- The block of samples at point `t`. -/
def x1At (c : Dev nD) (t : Fin cfg0.N) : Vec F S2048x512 .f32 := iblk m c 0 t
/-- The block of projection rows at point `t`, zero past the array's end. -/
def x2At (c : Dev nD) (t : Fin cfg0.N) : Vec F S2048x512 .f32 :=
  win0_1.fill (grid0.coords t) (fun _ => Scalar.ofBits .f32 0#32) (iblk m c 1 t)
/-- The block of centroid lanes at point `t`, zero past the array's end. -/
def x3At (c : Dev nD) (t : Fin cfg0.N) : Vec F S100x2048 .f32 :=
  win0_2.fill (grid0.coords t) (fun _ => Scalar.ofBits .f32 0#32) (iblk m c 2 t)

/-- At the whole blocks (points 0 to 3) a fetch fills the whole buffer. -/
theorem xsize0_1 : ∀ t : Fin cfg0.N, t.val < 4 → ∀ a, win0_1.xsize (grid0.coords t) a = S2048x512.size a := by decide +kernel
theorem xsize0_2 : ∀ t : Fin cfg0.N, t.val < 4 → ∀ a, win0_2.xsize (grid0.coords t) a = S100x2048.size a := by decide +kernel
/-- At the last block 1808 rows (lanes) lie inside the arrays, at every point from 4 on. -/
theorem xsize0_1_edge : ∀ t : Fin cfg0.N, 4 ≤ t.val → win0_1.xsize (grid0.coords t) 0 = 1808 ∧ win0_1.xsize (grid0.coords t) 1 = 512 := by decide +kernel
theorem xsize0_2_edge : ∀ t : Fin cfg0.N, 4 ≤ t.val → win0_2.xsize (grid0.coords t) 0 = 100 ∧ win0_2.xsize (grid0.coords t) 1 = 1808 := by decide +kernel

theorem fill0_1_whole (c : Dev nD) (t : Fin cfg0.N) (ht : t.val < 4) (d : S2048x512.Idx → Elt F .f32) :
    win0_1.fill (grid0.coords t) d (iblk m c 1 t) = x2At m c t := by
  funext j
  have hm : win0_1.moved (grid0.coords t) j = true := (win0_1.moved_iff _ _).mpr fun a => by rw [xsize0_1 t ht a]; exact (j a).isLt
  unfold x2At Window.fill; rw [dif_pos hm, dif_pos hm]
theorem fill0_2_whole (c : Dev nD) (t : Fin cfg0.N) (ht : t.val < 4) (d : S100x2048.Idx → Elt F .f32) :
    win0_2.fill (grid0.coords t) d (iblk m c 2 t) = x3At m c t := by
  funext j
  have hm : win0_2.moved (grid0.coords t) j = true := (win0_2.moved_iff _ _).mpr fun a => by rw [xsize0_2 t ht a]; exact (j a).isLt
  unfold x3At Window.fill; rw [dif_pos hm, dif_pos hm]

open Idealize.ShloMosaic.ValueIdx in
/-- At the last block any two fills agree on the 1808 rows inside the array. -/
theorem fill0_1_edge (c : Dev nD) (t : Fin cfg0.N) (ht : 4 ≤ t.val) (d : S2048x512.Idx → Elt F .f32) (k : Fin 2048) (f : Fin 512) (hk : k.val < 1808) :
    win0_1.fill (grid0.coords t) d (iblk m c 1 t) (ix2 k f) = x2At m c t (ix2 k f) := by
  have hm : win0_1.moved (grid0.coords t) (ix2 k f) = true := (win0_1.moved_iff _ _).mpr fun a => by
    match a with
    | ⟨0, _⟩ => show k.val < win0_1.xsize (grid0.coords t) 0; rw [(xsize0_1_edge t ht).1]; exact hk
    | ⟨1, _⟩ => show f.val < win0_1.xsize (grid0.coords t) 1; rw [(xsize0_1_edge t ht).2]; exact f.isLt
  unfold x2At Window.fill; rw [dif_pos hm, dif_pos hm]
open Idealize.ShloMosaic.ValueIdx in
theorem fill0_2_edge (c : Dev nD) (t : Fin cfg0.N) (ht : 4 ≤ t.val) (d : S100x2048.Idx → Elt F .f32) (r : Fin 100) (k : Fin 2048) (hk : k.val < 1808) :
    win0_2.fill (grid0.coords t) d (iblk m c 2 t) (ix2 r k) = x3At m c t (ix2 r k) := by
  have hm : win0_2.moved (grid0.coords t) (ix2 r k) = true := (win0_2.moved_iff _ _).mpr fun a => by
    match a with
    | ⟨0, _⟩ => show r.val < win0_2.xsize (grid0.coords t) 0; rw [(xsize0_2_edge t ht).1]; exact r.isLt
    | ⟨1, _⟩ => show k.val < win0_2.xsize (grid0.coords t) 1; rw [(xsize0_2_edge t ht).2]; exact hk
  unfold x3At Window.fill; rw [dif_pos hm, dif_pos hm]

/-! ## The accumulators and the score block, point by point -/

/-- The Gram matrix, the projected centroids and the squared norms accumulated up to and including point `n`. -/
def accAt (c : Dev nD) : (n : ℕ) → n < cfg0.N → Vec F S512x512 .f32 × Vec F S100x512 .f32 × Vec F S100x1 .f32
  | 0, hn => (k0_pay2 (x2At m c ⟨0, hn⟩), k0_pay3 (x2At m c ⟨0, hn⟩) (x3At m c ⟨0, hn⟩), k0_pay4 (x3At m c ⟨0, hn⟩))
  | n + 1, hn =>
    if n + 1 < 4 then
      (k0_pay6 (x2At m c ⟨n + 1, hn⟩) (accAt c n (Nat.lt_of_succ_lt hn)).1,
       k0_pay7 (x2At m c ⟨n + 1, hn⟩) (x3At m c ⟨n + 1, hn⟩) (accAt c n (Nat.lt_of_succ_lt hn)).2.1,
       k0_pay8 (x3At m c ⟨n + 1, hn⟩) (accAt c n (Nat.lt_of_succ_lt hn)).2.2)
    else if n + 1 = 4 then
      (k0_pay12 (x2At m c ⟨n + 1, hn⟩) (accAt c n (Nat.lt_of_succ_lt hn)).1,
       k0_pay13 (x2At m c ⟨n + 1, hn⟩) (x3At m c ⟨n + 1, hn⟩) (accAt c n (Nat.lt_of_succ_lt hn)).2.1,
       k0_pay14 (x3At m c ⟨n + 1, hn⟩) (accAt c n (Nat.lt_of_succ_lt hn)).2.2)
    else accAt c n (Nat.lt_of_succ_lt hn)

theorem accAt_A (c : Dev nD) (t : Fin cfg0.N) (h : t.val = 0) :
    accAt m c t.val t.isLt = (k0_pay2 (x2At m c t), k0_pay3 (x2At m c t) (x3At m c t), k0_pay4 (x3At m c t)) := by
  obtain ⟨n, hn⟩ := t
  cases n with
  | zero => rfl
  | succ n => exact absurd h (Nat.succ_ne_zero n)

theorem accAt_B (c : Dev nD) (t : Fin cfg0.N) (h0 : t.val ≠ 0) (h4 : t.val < 4) :
    accAt m c t.val t.isLt =
      (k0_pay6 (x2At m c t) (accAt m c (t.val - 1) (Nat.lt_of_le_of_lt (Nat.sub_le _ _) t.isLt)).1,
       k0_pay7 (x2At m c t) (x3At m c t) (accAt m c (t.val - 1) (Nat.lt_of_le_of_lt (Nat.sub_le _ _) t.isLt)).2.1,
       k0_pay8 (x3At m c t) (accAt m c (t.val - 1) (Nat.lt_of_le_of_lt (Nat.sub_le _ _) t.isLt)).2.2) := by
  obtain ⟨n, hn⟩ := t
  cases n with
  | zero => exact absurd rfl h0
  | succ n => exact (if_pos h4).trans rfl

theorem accAt_C (c : Dev nD) (t : Fin cfg0.N) (h : t.val = 4) :
    accAt m c t.val t.isLt =
      (k0_pay12 (x2At m c t) (accAt m c (t.val - 1) (Nat.lt_of_le_of_lt (Nat.sub_le _ _) t.isLt)).1,
       k0_pay13 (x2At m c t) (x3At m c t) (accAt m c (t.val - 1) (Nat.lt_of_le_of_lt (Nat.sub_le _ _) t.isLt)).2.1,
       k0_pay14 (x3At m c t) (accAt m c (t.val - 1) (Nat.lt_of_le_of_lt (Nat.sub_le _ _) t.isLt)).2.2) := by
  obtain ⟨n, hn⟩ := t
  cases n with
  | zero => exact absurd h (by show ¬ (0 : ℕ) = 4; omega)
  | succ n => exact (if_neg (by dsimp only at h; omega)).trans ((if_pos h).trans rfl)

theorem accAt_D (c : Dev nD) (t : Fin cfg0.N) (h : 5 ≤ t.val) :
    accAt m c t.val t.isLt = accAt m c (t.val - 1) (Nat.lt_of_le_of_lt (Nat.sub_le _ _) t.isLt) := by
  obtain ⟨n, hn⟩ := t
  cases n with
  | zero => exact absurd h (by show ¬ 5 ≤ (0 : ℕ); omega)
  | succ n => exact (if_neg (by dsimp only at h; omega)).trans ((if_neg (by dsimp only at h; omega)).trans rfl)

/-- The score block point `t` leaves: the sample block scored against the accumulators as they stand. -/
def outAt (c : Dev nD) (t : Fin cfg0.N) : Vec F S2048x100 .f32 :=
  k0_pay9 (x1At m c t) (accAt m c t.val t.isLt).1 (accAt m c t.val t.isLt).2.1 (accAt m c t.val t.isLt).2.2

end Cert.KernelIdeal.Gen

end
-- ==== Proof.KI.RunA.lean ====
/- The body at the first point. It loads the first block of projection rows `x2` and of centroid lanes `x3`, and
   starts the three accumulators from them: the block's Gram matrix, the block's projected centroids, the block's
   squared lane sums. The accumulators may hold anything before; the sample and score buffers are left alone. -/
import proofs.«124658_g15693810500123_cont_7to1_75_23_alg».proof.Proof.KI.Conds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : cond0_1 i) (hc2 : ¬cond0_2 i) (hc3 : ¬cond0_3 i) (hc4 : ¬cond0_4 i)
    (x1 : Vec F S2048x512 .f32) (x2 : Vec F S2048x512 .f32) (x3 : Vec F S100x2048 .f32) (x4 : Vec F S2048x100 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay2 x2) ∗ owns (c : Thread nD τ) arg6 fullShare (k0_pay3 x2 x3)
            ∗ owns (c : Thread nD τ) arg7 fullShare (k0_pay4 x3)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, Hk⟩
  obtain rfl := harg1.eq_unread hf1; obtain rfl := harg2.eq_unread hf2; obtain rfl := harg3.eq_unread hf3; obtain rfl := harg4.eq_unread hf4
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_writes_whole _ _ off00 _ _
  isplitl [H6]
  · iexists _; isplitr
    swap; · iexact H6
    ipureintro; exact read_writes_whole _ _ off00 _ _
  iexists _; isplitr
  swap; · iexact H7
  ipureintro; exact read_writes_whole _ _ off00 _ _

end Cert.KernelIdeal.Gen

end
-- ==== Proof.KI.RunB.lean ====
/- The body at an interior hyperdimension block (points 1, 2, 3): each accumulator gains the block's term. -/
import proofs.«124658_g15693810500123_cont_7to1_75_23_alg».proof.Proof.KI.Conds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_B (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond0_1 i) (hc2 : cond0_2 i) (hc3 : ¬cond0_3 i) (hc4 : ¬cond0_4 i)
    (x1 : Vec F S2048x512 .f32) (x2 : Vec F S2048x512 .f32) (x3 : Vec F S100x2048 .f32) (x4 : Vec F S2048x100 .f32)
    (s5 : Vec F S512x512 .f32) (s6 : Vec F S100x512 .f32) (s7 : Vec F S100x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg5 fullShare s5 ∗ owns (c : Thread nD τ) arg6 fullShare s6 ∗ owns (c : Thread nD τ) arg7 fullShare s7
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay6 x2 s5) ∗ owns (c : Thread nD τ) arg6 fullShare (k0_pay7 x2 x3 s6)
            ∗ owns (c : Thread nD τ) arg7 fullShare (k0_pay8 x3 s7)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_writes_whole _ _ off00 _ _
  isplitl [H6]
  · iexists _; isplitr
    swap; · iexact H6
    ipureintro; exact read_writes_whole _ _ off00 _ _
  iexists _; isplitr
  swap; · iexact H7
  ipureintro; exact read_writes_whole _ _ off00 _ _

end Cert.KernelIdeal.Gen

end
-- ==== Proof.KI.RunC.lean ====
/- The body at the last hyperdimension block (point 4): each accumulator gains the block's term, with the rows of
   `x2` and the lanes of `x3` past the arrays' end replaced by zero first. -/
import proofs.«124658_g15693810500123_cont_7to1_75_23_alg».proof.Proof.KI.Conds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_C (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond0_1 i) (hc2 : ¬cond0_2 i) (hc3 : cond0_3 i) (hc4 : ¬cond0_4 i)
    (x1 : Vec F S2048x512 .f32) (x2 : Vec F S2048x512 .f32) (x3 : Vec F S100x2048 .f32) (x4 : Vec F S2048x100 .f32)
    (s5 : Vec F S512x512 .f32) (s6 : Vec F S100x512 .f32) (s7 : Vec F S100x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg5 fullShare s5 ∗ owns (c : Thread nD τ) arg6 fullShare s6 ∗ owns (c : Thread nD τ) arg7 fullShare s7
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay12 x2 s5) ∗ owns (c : Thread nD τ) arg6 fullShare (k0_pay13 x2 x3 s6)
            ∗ owns (c : Thread nD τ) arg7 fullShare (k0_pay14 x3 s7)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_writes_whole _ _ off00 _ _
  isplitl [H6]
  · iexists _; isplitr
    swap; · iexact H6
    ipureintro; exact read_writes_whole _ _ off00 _ _
  iexists _; isplitr
  swap; · iexact H7
  ipureintro; exact read_writes_whole _ _ off00 _ _

end Cert.KernelIdeal.Gen

end
-- ==== Proof.KI.RunD.lean ====
/- The body at a scoring point (5, 6): the block of samples `x1` is scored against the finished accumulators into
   the score buffer, whatever that held; the accumulators and the other buffers are left alone. -/
import proofs.«124658_g15693810500123_cont_7to1_75_23_alg».proof.Proof.KI.Conds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run0_D (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S100x2048 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond0_1 i) (hc2 : ¬cond0_2 i) (hc3 : ¬cond0_3 i) (hc4 : cond0_4 i)
    (x1 : Vec F S2048x512 .f32) (x2 : Vec F S2048x512 .f32) (x3 : Vec F S100x2048 .f32) (x4 : Vec F S2048x100 .f32)
    (s5 : Vec F S512x512 .f32) (s6 : Vec F S100x512 .f32) (s7 : Vec F S100x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg5 fullShare s5 ∗ owns (c : Thread nD τ) arg6 fullShare s6 ∗ owns (c : Thread nD τ) arg7 fullShare s7
        ∗ (iprop(owns (c : Thread nD τ) arg1 fullShare x1 ∗ owns (c : Thread nD τ) arg2 fullShare x2 ∗ owns (c : Thread nD τ) arg3 fullShare x3
            ∗ owns (c : Thread nD τ) arg4 fullShare (k0_pay9 x1 s5 s6 s7)
            ∗ owns (c : Thread nD τ) arg5 fullShare s5 ∗ owns (c : Thread nD τ) arg6 fullShare s6
            ∗ owns (c : Thread nD τ) arg7 fullShare s7) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  simp only [readAt_unread_whole _ harg1 off00, readAt_unread_whole _ harg2 off00, readAt_unread_whole _ harg3 off00, readAt_unread_whole _ harg4 off00, readAt_unread_whole _ harg5 off00, readAt_unread_whole _ harg6 off00, readAt_unread_whole _ harg7 off00]
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact read_writes_whole _ _ off00 _ _
  isplitl [H5]
  · iexists _; isplitr
    swap; · iexact H5
    ipureintro; exact harg5.read_unread _
  isplitl [H6]
  · iexists _; isplitr
    swap; · iexact H6
    ipureintro; exact harg6.read_unread _
  iexists _; isplitr
  swap; · iexact H7
  ipureintro; exact harg7.read_unread _

end Cert.KernelIdeal.Gen

end
-- ==== Proof.KI.MaskCongr.lean ====
import proofs.«124658_g15693810500123_cont_7to1_75_23_alg».proof.Proof.Gen.KernelIdeal.Skeleton
import Idealize.ShloMosaic.Lib.ValueIdx
import Idealize.ShloMosaic.Lib.Affine
import Idealize.ShloMosaic.Lib.Pipeline.Value

/-! # The masked payloads do not read the masked entries

In the last block along the contracted axis the rows of the first operand and the lanes of the
second operand whose number is 1808 or more are replaced by zero before anything else reads them.
Hence two operands that agree below 1808 give the same payloads. -/

noncomputable section

namespace Cert.KernelIdeal.MaskCongr

open Cert.KernelIdeal Cert.KernelIdeal.Gen Idealize.ShloMosaic Idealize.ShloMosaic.ValueIdx

variable {F : FTy → Type} [FloatOps F]

/-- For a number below 2048, the signed comparison of its 32-bit word with the word 1808 holds
    exactly when the number is below 1808. -/
theorem slt_1808_iff (k : Nat) (hk : k < 2048) :
    IntOp.cmpi .slt (BitVec.ofNat 32 k) 1808#32 = 1#1 ↔ k < 1808 := by
  rw [IntOp.cmpi_slt]
  have e := BitVec.toInt_eq_toNat_cond (BitVec.ofNat 32 k)
  have e2 : (1808#32).toInt = 1808 := by decide
  have e3 : (BitVec.ofNat 32 k).toNat = k := by
    rw [BitVec.toNat_ofNat]; exact Nat.mod_eq_of_lt (by omega)
  rw [e2, e, e3]
  split <;> omega

/-- A one-bit word other than one selects the second branch. -/
theorem select_of_ne_one {α : Type} (c : BitVec 1) (hc : c ≠ 1#1) (a b : α) :
    Scalar.select c a b = b := by
  rw [eq_zero_of_ne_one hc]; exact select_zero a b

/-- The row mask at row `k` is set exactly when `k < 1808`. -/
theorem rowMask_iff (k : Fin 2048) (f : Fin 512) :
    cmpi .slt (iota .tc S2048x512 32 [0] iota_S2048x512_d0_w32) (broadcast S2048x512 1808#32) (ix2 k f) = 1#1
      ↔ k.val < 1808 := by
  show IntOp.cmpi .slt (iota .tc S2048x512 32 [0] iota_S2048x512_d0_w32 (ix2 k f)) 1808#32 = 1#1 ↔ _
  rw [iota_single_apply]
  exact slt_1808_iff k.val k.isLt

/-- The lane mask at lane `k` is set exactly when `k < 1808`. -/
theorem laneMask_iff (c : Fin 100) (k : Fin 2048) :
    cmpi .slt (iota .tc S100x2048 32 [1] iota_S100x2048_d1_w32) (broadcast S100x2048 1808#32) (ix2 c k) = 1#1
      ↔ k.val < 1808 := by
  show IntOp.cmpi .slt (iota .tc S100x2048 32 [1] iota_S100x2048_d1_w32 (ix2 c k)) 1808#32 = 1#1 ↔ _
  rw [iota_single_apply]
  exact slt_1808_iff k.val k.isLt

/-- The masked first operand depends only on its rows below 1808. -/
theorem pay11_congr (x2 x2' : Vec F S2048x512 .f32)
    (h : ∀ (k : Fin 2048) (f : Fin 512), k.val < 1808 → x2 (ix2 k f) = x2' (ix2 k f)) :
    k0_pay11 x2 = k0_pay11 x2' := by
  unfold k0_pay11
  refine congrArg (fun v => truncf .bf16 v bitsLt_bf16_f32) ?_
  funext j
  obtain ⟨k, f, rfl⟩ : ∃ k f, j = ix2 k f := ⟨j 0, j 1, eq_ix2 j⟩
  rw [select_apply, select_apply]
  by_cases hk : k.val < 1808
  · rw [(rowMask_iff k f).mpr hk, select_one, select_one]
    exact h k f hk
  · have hne := fun e => hk ((rowMask_iff k f).mp e)
    rw [select_of_ne_one _ hne, select_of_ne_one _ hne]

/-- The masked second operand depends only on its lanes below 1808. -/
theorem pay10_congr (x3 x3' : Vec F S100x2048 .f32)
    (h : ∀ (c : Fin 100) (k : Fin 2048), k.val < 1808 → x3 (ix2 c k) = x3' (ix2 c k)) :
    k0_pay10 x3 = k0_pay10 x3' := by
  unfold k0_pay10
  funext j
  obtain ⟨c, k, rfl⟩ : ∃ c k, j = ix2 c k := ⟨j 0, j 1, eq_ix2 j⟩
  rw [select_apply, select_apply]
  by_cases hk : k.val < 1808
  · rw [(laneMask_iff c k).mpr hk, select_one, select_one]
    exact h c k hk
  · have hne := fun e => hk ((laneMask_iff c k).mp e)
    rw [select_of_ne_one _ hne, select_of_ne_one _ hne]

theorem pay12_congr (x2 x2' : Vec F S2048x512 .f32) (s5 : Vec F S512x512 .f32)
    (h2 : ∀ (k : Fin 2048) (f : Fin 512), k.val < 1808 → x2 (ix2 k f) = x2' (ix2 k f)) :
    k0_pay12 x2 s5 = k0_pay12 x2' s5 := by
  unfold k0_pay12
  rw [pay11_congr x2 x2' h2]

theorem pay13_congr (x2 x2' : Vec F S2048x512 .f32) (x3 x3' : Vec F S100x2048 .f32)
    (s6 : Vec F S100x512 .f32)
    (h2 : ∀ (k : Fin 2048) (f : Fin 512), k.val < 1808 → x2 (ix2 k f) = x2' (ix2 k f))
    (h3 : ∀ (c : Fin 100) (k : Fin 2048), k.val < 1808 → x3 (ix2 c k) = x3' (ix2 c k)) :
    k0_pay13 x2 x3 s6 = k0_pay13 x2' x3' s6 := by
  unfold k0_pay13
  rw [pay11_congr x2 x2' h2, pay10_congr x3 x3' h3]

theorem pay14_congr (x3 x3' : Vec F S100x2048 .f32) (s7 : Vec F S100x1 .f32)
    (h3 : ∀ (c : Fin 100) (k : Fin 2048), k.val < 1808 → x3 (ix2 c k) = x3' (ix2 c k)) :
    k0_pay14 x3 s7 = k0_pay14 x3' s7 := by
  unfold k0_pay14
  rw [pay10_congr x3 x3' h3]

end Cert.KernelIdeal.MaskCongr
-- ==== Proof.KI.Frame.lean ====
/-
  The run of the whole grid. What the three accumulators hold after each point is a recursion on the point over the
  body's own payloads (`accAt`): started at point 0, a block's term added at points 1 to 4, kept at 5 and 6; the score
  block a scoring point leaves is the score payload of the sample block and the finished accumulators (`outAt`).
  The two windows that sweep the hyperdimension overhang their arrays at the last block; what their staging buffers
  hold past the arrays' end is not named, and nothing depends on it: the last block's payloads zero those rows and
  lanes before use. From these, the proof data of the pipeline, the body's obligation at every point by cases on the
  point, and the run: every execution ends, and every array holds what the write-backs of the two score blocks left.
-/
import proofs.«124658_g15693810500123_cont_7to1_75_23_alg».proof.Proof.KI.Blocks
import proofs.«124658_g15693810500123_cont_7to1_75_23_alg».proof.Proof.KI.RunA
import proofs.«124658_g15693810500123_cont_7to1_75_23_alg».proof.Proof.KI.RunB
import proofs.«124658_g15693810500123_cont_7to1_75_23_alg».proof.Proof.KI.RunC
import proofs.«124658_g15693810500123_cont_7to1_75_23_alg».proof.Proof.KI.RunD
import proofs.«124658_g15693810500123_cont_7to1_75_23_alg».proof.Proof.KI.MaskCongr

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.MaskCongr

variable (m : (ℓ : Loc nD τ sig) → Buf (Elt F) ℓ) (ρ : Dev nD → PrngReg)

/-! ## The region's invariant -/

/-- Before the first point the accumulators hold anything; before point `n + 1` what point `n` left. -/
def PhiS (c : Dev nD) : (n : ℕ) → n ≤ cfg0.N → sProp 𝕄
  | 0, _ => Pipeline.ΦA spec0 c
  | n + 1, hn => iprop(iprop(owns (c : Thread nD τ) scM0_0 fullShare (accAt m c n hn).1 ∗ owns (c : Thread nD τ) scM0_1 fullShare (accAt m c n hn).2.1
      ∗ owns (c : Thread nD τ) scM0_2 fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn).1 ∗ owns (c : Thread nD τ) scM0_1 fullShare (accAt m c n hn).2.1
      ∗ owns (c : Thread nD τ) scM0_2 fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)).1 ∗ owns (c : Thread nD τ) scM0_1 fullShare (accAt m c (n - 1) (by omega)).2.1
      ∗ owns (c : Thread nD τ) scM0_2 fullShare (accAt m c (n - 1) (by omega)).2.2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => x2At m c t
    | ⟨2, _⟩ => x3At m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = x2At m c t := by dsimp only [dats]
theorem after0_2 (c : Dev nD) (t : Fin cfg0.N) : (dats m 0 c).after 2 t = x3At m c t := by dsimp only [dats]
theorem after0_3 (c : Dev nD) (t : Fin cfg0.N) : (dats m 0 c).after 3 t = outAt m c t := by dsimp only [dats]

/-- The sample window's buffer holds its block at every point. -/
theorem before0_0 (c : Dev nD) (t : Fin cfg0.N) (d) : (dats m 0 c).before 0 t d = iblk m c 0 t :=
  before0_0_of m (dats m 0 c) (A_eq m c 0) (after0_0 m c) t d

/-- The cuts of the two hyperdimension windows depend on the point through the block index only. -/
theorem hclip0_1 : ∀ t t' : Fin cfg0.N, (cfg0.win 1).index t = (cfg0.win 1).index t' →
    (cfg0.win 1).clip (cfg0.grid.coords t) = (cfg0.win 1).clip (cfg0.grid.coords t') := by decide +kernel
theorem hclip0_2 : ∀ t t' : Fin cfg0.N, (cfg0.win 2).index t = (cfg0.win 2).index t' →
    (cfg0.win 2).clip (cfg0.grid.coords t) = (cfg0.win 2).clip (cfg0.grid.coords t') := by decide +kernel

theorem keep0_1 (c : Dev nD) (t : Fin cfg0.N) :
    (cfg0.win 1).cut (cfg0.grid.coords t) ((dats m 0 c).after 1 t) = iblk m c 1 t := by
  rw [after0_1]; exact win0_1.cut_fill _ _ _
theorem keep0_2 (c : Dev nD) (t : Fin cfg0.N) :
    (cfg0.win 2).cut (cfg0.grid.coords t) ((dats m 0 c).after 2 t) = iblk m c 2 t := by
  rw [after0_2]; exact win0_2.cut_fill _ _ _

theorem blockOf0_1 (c : Dev nD) (t : Fin cfg0.N) : (dats m 0 c).blockOf 1 t = iblk m c 1 t := by
  unfold Dat.blockOf iblk; rw [A_eq]
theorem blockOf0_2 (c : Dev nD) (t : Fin cfg0.N) : (dats m 0 c).blockOf 2 t = iblk m c 2 t := by
  unfold Dat.blockOf iblk; rw [A_eq]

/-- A hyperdimension window's buffer holds, at every point, its block where the fetch filled it and anything past
    the array's end. -/
theorem before0_1 (c : Dev nD) (t : Fin cfg0.N) (d) :
    (dats m 0 c).before 1 t d = win0_1.fill (grid0.coords t) d (iblk m c 1 t) := by
  rw [(dats m 0 c).before_in_eq_fetched 1 rfl (fun _ => rfl) hclip0_1 (fun t => (keep0_1 m c t).trans (blockOf0_1 m c t).symm) t d]
  unfold Dat.fetched; rw [blockOf0_1]
theorem before0_2 (c : Dev nD) (t : Fin cfg0.N) (d) :
    (dats m 0 c).before 2 t d = win0_2.fill (grid0.coords t) d (iblk m c 2 t) := by
  rw [(dats m 0 c).before_in_eq_fetched 2 rfl (fun _ => rfl) hclip0_2 (fun t => (keep0_2 m c t).trans (blockOf0_2 m c t).symm) t d]
  unfold Dat.fetched; rw [blockOf0_2]

/-! ## What the body must leave, window by window -/

theorem leaves0_0 (c : Dev nD) (t : Fin cfg0.N) :
    (dats m 0 c).leaves 0 t = owns (c : Thread nD τ) (ms0_0 t) fullShare (iblk m c 0 t) := by
  unfold Dat.leaves; rw [liveAt0_0 t]; (try rfl)
theorem leaves0_1 (c : Dev nD) (t : Fin cfg0.N) :
    (dats m 0 c).leaves 1 t = iprop(∃ d, owns (c : Thread nD τ) (ms0_1 t) fullShare (win0_1.fill (grid0.coords t) d (iblk m c 1 t))) := by
  unfold Dat.leaves; rw [liveAt0_1 t]
  show iprop(∃ d, owns (c : Thread nD τ) (ms0_1 t) fullShare (win0_1.fill (grid0.coords t) d ((cfg0.win 1).cut (cfg0.grid.coords t) ((dats m 0 c).after 1 t)))) = _
  rw [keep0_1]
theorem leaves0_2 (c : Dev nD) (t : Fin cfg0.N) :
    (dats m 0 c).leaves 2 t = iprop(∃ d, owns (c : Thread nD τ) (ms0_2 t) fullShare (win0_2.fill (grid0.coords t) d (iblk m c 2 t))) := by
  unfold Dat.leaves; rw [liveAt0_2 t]
  show iprop(∃ d, owns (c : Thread nD τ) (ms0_2 t) fullShare (win0_2.fill (grid0.coords t) d ((cfg0.win 2).cut (cfg0.grid.coords t) ((dats m 0 c).after 2 t)))) = _
  rw [keep0_2]
theorem leaves0_3_idle (c : Dev nD) (t : Fin cfg0.N) (ht : t.val < 5) :
    (dats m 0 c).leaves 3 t = iprop(∃ d, owns (c : Thread nD τ) (ms0_3 t) fullShare ((dats m 0 c).before 3 t d)) :=
  (dats m 0 c).leaves_idle 3 t (idleAt0_3 t ht) (noFlush0_3 t ht)
theorem leaves0_3_live (c : Dev nD) (t : Fin cfg0.N) (ht : 5 ≤ t.val) :
    (dats m 0 c).leaves 3 t = owns (c : Thread nD τ) (ms0_3 t) fullShare (outAt m c t) := by
  unfold Dat.leaves; rw [liveAt0_3 t ht]; (try rw [after0_3]); (try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, PhiS_castSucc m c t]
  have hN : t.val < 7 := lt_of_lt_of_eq t.isLt (show cfg0.N = 7 from N_0)
  by_cases hA : t.val = 0
  · -- the first point
    have hc1 : cond0_1 (grid0.coords t) := (hcond0_1 t).mpr hA
    have hc2 : ¬cond0_2 (grid0.coords t) := fun h => by have := (hcond0_2 t).mp h; omega
    have hc3 : ¬cond0_3 (grid0.coords t) := fun h => by have := (hcond0_3 t).mp h; omega
    have hc4 : ¬cond0_4 (grid0.coords t) := fun h => by have := (hcond0_4 t).mp h; omega
    rw [leaves0_3_idle m c t (by omega), accAt_A m c t hA, PhiS_zero m c _ _ hA, PhiA0_eq]
    iintro ⟨⟨⟨HS0, HS1, HS2⟩, Hg⟩, Ho, ⟨%d0, H0⟩, ⟨%d1, H1⟩, ⟨%d2, H2⟩, ⟨%d3, H3⟩⟩
    rw [before0_0 m c t d0, before0_1 m c t d1, before0_2 m c t d2, fill0_1_whole m c t (by omega) d1, fill0_2_whole m c t (by omega) d2]
    iapply (run0_A c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) hc1 hc2 hc3 hc4
      (iblk m c 0 t) (x2At m c t) (x3At m c t) ((dats m 0 c).before 3 t d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]
    · iexists (x2At m c t); rw [fill0_1_whole m c t (by omega)]; iexact H1
    isplitl [H2]
    · iexists (x3At m c t); rw [fill0_2_whole m c t (by omega)]; iexact H2
    iexists d3; iexact H3
  · rw [PhiS_pos m c _ _ hA]
    by_cases hB : t.val < 4
    · -- an interior block
      have hc1 : ¬cond0_1 (grid0.coords t) := fun h => hA ((hcond0_1 t).mp h)
      have hc2 : cond0_2 (grid0.coords t) := (hcond0_2 t).mpr ⟨by omega, hB⟩
      have hc3 : ¬cond0_3 (grid0.coords t) := fun h => by have := (hcond0_3 t).mp h; omega
      have hc4 : ¬cond0_4 (grid0.coords t) := fun h => by have := (hcond0_4 t).mp h; omega
      rw [leaves0_3_idle m c t (by omega), accAt_B m c t hA hB]
      iintro ⟨⟨⟨HS0, HS1, HS2⟩, Hg⟩, Ho, ⟨%d0, H0⟩, ⟨%d1, H1⟩, ⟨%d2, H2⟩, ⟨%d3, H3⟩⟩
      rw [before0_0 m c t d0, before0_1 m c t d1, before0_2 m c t d2, fill0_1_whole m c t hB d1, fill0_2_whole m c t hB d2]
      iapply (run0_B c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _) hc1 hc2 hc3 hc4
        (iblk m c 0 t) (x2At m c t) (x3At m c t) ((dats m 0 c).before 3 t d3) _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]
      · iexists (x2At m c t); rw [fill0_1_whole m c t hB]; iexact H1
      isplitl [H2]
      · iexists (x3At m c t); rw [fill0_2_whole m c t hB]; iexact H2
      iexists d3; iexact H3
    · by_cases hC : t.val = 4
      · -- the last block: the rows and lanes past the arrays' end are zeroed before use
        have hc1 : ¬cond0_1 (grid0.coords t) := fun h => hA ((hcond0_1 t).mp h)
        have hc2 : ¬cond0_2 (grid0.coords t) := fun h => by have := (hcond0_2 t).mp h; omega
        have hc3 : cond0_3 (grid0.coords t) := (hcond0_3 t).mpr hC
        have hc4 : ¬cond0_4 (grid0.coords t) := fun h => by have := (hcond0_4 t).mp h; omega
        rw [leaves0_3_idle m c t (by omega), accAt_C m c t hC]
        iintro ⟨⟨⟨HS0, HS1, HS2⟩, Hg⟩, Ho, ⟨%d0, H0⟩, ⟨%d1, H1⟩, ⟨%d2, H2⟩, ⟨%d3, H3⟩⟩
        rw [before0_0 m c t d0, before0_1 m c t d1, before0_2 m c t d2]
        have h2 : ∀ (k : Fin 2048) (f : Fin 512), k.val < 1808 →
            win0_1.fill (grid0.coords t) d1 (iblk m c 1 t) (ValueIdx.ix2 k f) = x2At m c t (ValueIdx.ix2 k f) :=
          fun k f hk => fill0_1_edge m c t (by omega) d1 k f hk
        have h3 : ∀ (r : Fin 100) (k : Fin 2048), k.val < 1808 →
            win0_2.fill (grid0.coords t) d2 (iblk m c 2 t) (ValueIdx.ix2 r k) = x3At m c t (ValueIdx.ix2 r k) :=
          fun r k hk => fill0_2_edge m c t (by omega) d2 r k hk
        rw [← pay12_congr _ _ _ h2, ← pay13_congr _ _ _ _ _ h2 h3, ← pay14_congr _ _ _ h3]
        iapply (run0_C c (grid0.coords t) (ms0_0 t) (hs0_0 t) (ms0_1 t) (hs0_1 t) (ms0_2 t) (hs0_2 t) (ms0_3 t) (hs0_3 t)
          scM0_0 (Memref.isWhole_whole _) scM0_1 (Memref.isWhole_whole _) scM0_2 (Memref.isWhole_whole _) hc1 hc2 hc3 hc4
          (iblk m c 0 t) (win0_1.fill (grid0.coords t) d1 (iblk m c 1 t)) (win0_2.fill (grid0.coords t) d2 (iblk m c 2 t)) ((dats m 0 c).before 3 t d3) _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]
        · iexists d1; iexact H1
        isplitl [H2]
        · iexists d2; iexact H2
        iexists d3; iexact H3
      · -- a scoring point
        have hD : 5 ≤ t.val := by omega
        have hc1 : ¬cond0_1 (grid0.coords t) := fun h => hA ((hcond0_1 t).mp h)
        have hc2 : ¬cond0_2 (grid0.coords t) := fun h => by have := (hcond0_2 t).mp h; omega
        have hc3 : ¬cond0_3 (grid0.coords t) := fun h => hC ((hcond0_3 t).mp h)
        have hc4 : cond0_4 (grid0.coords t) := (hcond0_4 t).mpr hD
        rw [leaves0_3_live m c t hD, accAt_D m c t hD]
        unfold outAt x1At
        rw [accAt_D m c t hD]
        iintro ⟨⟨⟨HS0, HS1, HS2⟩, Hg⟩, Ho, ⟨%d0, H0⟩, ⟨%d1, H1⟩, ⟨%d2, H2⟩, ⟨%d3, H3⟩⟩
        rw [before0_0 m c t d0, before0_1 m c t d1, before0_2 m c t d2]
        iapply (run0_D c (grid0.coords t) (ms0_0 t) (hs0_0 t) (ms0_1 t) (hs0_1 t) (ms0_2 t) (hs0_2 t) (ms0_3 t) (hs0_3 t)
          scM0_0 (Memref.isWhole_whole _) scM0_1 (Memref.isWhole_whole _) scM0_2 (Memref.isWhole_whole _) hc1 hc2 hc3 hc4
          (iblk m c 0 t) (win0_1.fill (grid0.coords t) d1 (iblk m c 1 t)) (win0_2.fill (grid0.coords t) d2 (iblk m c 2 t)) ((dats m 0 c).before 3 t d3) _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]
        · iexists d1; iexact H1
        isplitl [H2]
        · iexists d2; iexact H2
        iexact H3

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 7 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main ends, and every array of the pipeline holds what the library computes from
    the proof data: the three arguments what they held, the scores the two score blocks written back. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m)
    (hmain := hmain m Variants.none) (hA := A_eq m) (hin := hin m) (hout := hout m)

/-- The frame: the run ends and the three argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.Spec.lean ====
/-
  What the two programs compute, as functions of the three argument arrays over the extended reals.

  samples S : [4096, 512], projection rows W : [10000, 512], centroids C : [100, 10000].
  The encoding of sample b along hyperdimension d is enc b d = Σ_f S[b,f]·W[d,f]. The reference scores sample b
  against centroid c by the cosine Σ_d (enc b d / A_b)·(C[c,d] / B_c), with A_b = max(ε, ‖enc b‖) and
  B_c = max(ε, ‖C c‖). The kernel never forms enc: it accumulates the Gram matrix Q = WᵀW, the projected
  centroids P = C·W and the centroids' squared norms over the hyperdimension, and scores by
  (Σ_f S[b,f]·P[c,f]) / (max(√max(S_b Q S_bᵀ, 0), ε) · max(√‖C c‖², ε)).
-/
import Idealize.ShloMosaic.PureOps.Ideal
import Idealize.ShloMosaic.Lib.ValueIdx

noncomputable section

open scoped BigOperators

namespace Cert.Spec

open Idealize.ShloMosaic Idealize.ShloMosaic.ValueIdx

/-- The shapes of the samples, the projection rows, the centroids and the scores. -/
abbrev SS : Shape := ⟨2, ![4096, 512]⟩
abbrev SW : Shape := ⟨2, ![10000, 512]⟩
abbrev SC : Shape := ⟨2, ![100, 10000]⟩
abbrev SO : Shape := ⟨2, ![4096, 100]⟩

/-- The norm floor ε both programs clamp a norm at: the float nearest 1e-12. -/
def eps : EReal := Ideal.ofBits .f32 0x2B8CBCCC#32

/-- The encoding of sample `b` along hyperdimension `d`. -/
def enc (S : SS.Idx → EReal) (W : SW.Idx → EReal) (b : Fin 4096) (d : Fin 10000) : EReal :=
  ∑ f : Fin 512, S (ix2 b f) * W (ix2 d f)

/-- The Gram matrix of the projection rows over the hyperdimension. -/
def gram (W : SW.Idx → EReal) (f f' : Fin 512) : EReal := ∑ d : Fin 10000, W (ix2 d f) * W (ix2 d f')

/-- The centroids projected back to feature space. -/
def proj (W : SW.Idx → EReal) (C : SC.Idx → EReal) (c : Fin 100) (f : Fin 512) : EReal :=
  ∑ d : Fin 10000, C (ix2 c d) * W (ix2 d f)

/-- A centroid's squared norm. -/
def cnorm2 (C : SC.Idx → EReal) (c : Fin 100) : EReal := ∑ d : Fin 10000, C (ix2 c d) * C (ix2 c d)

/-- The squared norm of a sample's encoding as the kernel computes it: the quadratic form of the Gram matrix. -/
def quad (S : SS.Idx → EReal) (W : SW.Idx → EReal) (b : Fin 4096) : EReal :=
  ∑ f' : Fin 512, (∑ f : Fin 512, S (ix2 b f) * gram W f f') * S (ix2 b f')

/-- The kernel's score of sample `b` against centroid `c`. -/
def kerScore (S : SS.Idx → EReal) (W : SW.Idx → EReal) (C : SC.Idx → EReal) (b : Fin 4096) (c : Fin 100) : EReal :=
  Ideal.div (∑ f : Fin 512, S (ix2 b f) * proj W C c f)
    (max (Ideal.sqrt (max (quad S W b) 0)) eps * max (Ideal.sqrt (cnorm2 C c)) eps)

/-- The reference's score of sample `b` against centroid `c`: the cosine of the encoding and the centroid, each
    divided by its clamped norm before the inner product over the hyperdimension. -/
def refScore (S : SS.Idx → EReal) (W : SW.Idx → EReal) (C : SC.Idx → EReal) (b : Fin 4096) (c : Fin 100) : EReal :=
  ∑ d : Fin 10000,
    Ideal.div (enc S W b d) (max eps (Ideal.sqrt (0 + ∑ d' : Fin 10000, enc S W b d' * enc S W b d')))
      * Ideal.div (C (ix2 c d)) (max eps (Ideal.sqrt (0 + ∑ d' : Fin 10000, C (ix2 c d') * C (ix2 c d'))))

/-- The last hyperdimension block holds 1808 rows of the 2048: what lies past them reads as zero. -/
def msk (k : Fin 2048) (v : EReal) : EReal := if k.val < 1808 then v else 0

end Cert.Spec

end
-- ==== Proof.KVal.Reads.lean ====
/- The blocks the body is handed, as entries of the argument arrays: a block's entry sits in its array at the block
   index times the block's extent plus its own coordinate. -/
import proofs.«124658_g15693810500123_cont_7to1_75_23_alg».proof.Proof.KI.Blocks
import proofs.«124658_g15693810500123_cont_7to1_75_23_alg».proof.Proof.Spec
import Idealize.ShloMosaic.Lib.ValueIdx
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

/-- The block index of each input window at each point: the hyperdimension block up to point 4, the sample block from point 5. -/
theorem idx0_0 : ∀ t : Fin cfg0.N, 5 ≤ t.val → win0_0.index t 0 = t.val - 5 ∧ win0_0.index t 1 = 0 := by decide +kernel
theorem idx0_1 : ∀ t : Fin cfg0.N, t.val ≤ 4 → win0_1.index t 0 = t.val ∧ win0_1.index t 1 = 0 := by decide +kernel
theorem idx0_2 : ∀ t : Fin cfg0.N, t.val ≤ 4 → win0_2.index t 0 = 0 ∧ win0_2.index t 1 = t.val := by decide +kernel

variable (m : (ℓ : Loc nD τ sig) → Buf (Elt Ideal) ℓ)

/-- The staged block of projection rows at a hyperdimension point holds rows `2048·t` onward of the array. -/
theorem x2At_apply (c : Dev nD) (t : Fin cfg0.N) (ht : t.val ≤ 4) (k : Fin 2048) (f : Fin 512) (h : 2048 * t.val + k.val < 10000) :
    x2At (F := Ideal) m c t (ix2 k f) = (m ((c.tc : Thread nD τ).loc main_arg1)) (ix2 (⟨2048 * t.val + k.val, h⟩ : Fin 10000) f) := by
  obtain ⟨e0, e1⟩ := idx0_1 t ht
  have hx : k.val < win0_1.xsize (grid0.coords t) 0 ∧ f.val < win0_1.xsize (grid0.coords t) 1 := by
    rcases Nat.lt_or_ge t.val 4 with h4 | h4
    · rw [xsize0_1 t h4 0, xsize0_1 t h4 1]; exact ⟨k.isLt, f.isLt⟩
    · obtain ⟨a0, a1⟩ := xsize0_1_edge t h4
      rw [a0, a1]; exact ⟨by omega, f.isLt⟩
  have hm : win0_1.moved (grid0.coords t) (ix2 k f) = true := (win0_1.moved_iff _ _).mpr fun a => by
    match a with
    | ⟨0, _⟩ => exact hx.1
    | ⟨1, _⟩ => exact hx.2
  unfold x2At Pipeline.Window.fill; rw [dif_pos hm]
  unfold iblk
  rw [View.read_apply]
  show V m c main_arg1 _ = m ((c.tc : Thread nD τ).loc main_arg1) _
  unfold V
  congr 1
  funext a
  apply Fin.ext
  match a with
  | ⟨0, _⟩ => show win0_1.index t 0 * 2048 + 1 * k.val = 2048 * t.val + k.val; rw [e0]; omega
  | ⟨1, _⟩ => show win0_1.index t 1 * 512 + 1 * f.val = f.val; rw [e1]; omega

/-- The staged block of centroid lanes at a hyperdimension point holds lanes `2048·t` onward of the array. -/
theorem x3At_apply (c : Dev nD) (t : Fin cfg0.N) (ht : t.val ≤ 4) (r : Fin 100) (k : Fin 2048) (h : 2048 * t.val + k.val < 10000) :
    x3At (F := Ideal) m c t (ix2 r k) = (m ((c.tc : Thread nD τ).loc main_arg2)) (ix2 r (⟨2048 * t.val + k.val, h⟩ : Fin 10000)) := by
  obtain ⟨e0, e1⟩ := idx0_2 t ht
  have hx : r.val < win0_2.xsize (grid0.coords t) 0 ∧ k.val < win0_2.xsize (grid0.coords t) 1 := by
    rcases Nat.lt_or_ge t.val 4 with h4 | h4
    · rw [xsize0_2 t h4 0, xsize0_2 t h4 1]; exact ⟨r.isLt, k.isLt⟩
    · obtain ⟨a0, a1⟩ := xsize0_2_edge t h4
      rw [a0, a1]; exact ⟨r.isLt, by omega⟩
  have hm : win0_2.moved (grid0.coords t) (ix2 r k) = true := (win0_2.moved_iff _ _).mpr fun a => by
    match a with
    | ⟨0, _⟩ => exact hx.1
    | ⟨1, _⟩ => exact hx.2
  unfold x3At Pipeline.Window.fill; rw [dif_pos hm]
  unfold iblk
  rw [View.read_apply]
  show V m c main_arg2 _ = m ((c.tc : Thread nD τ).loc main_arg2) _
  unfold V
  congr 1
  funext a
  apply Fin.ext
  match a with
  | ⟨0, _⟩ => show win0_2.index t 0 * 100 + 1 * r.val = r.val; rw [e0]; omega
  | ⟨1, _⟩ => show win0_2.index t 1 * 2048 + 1 * k.val = 2048 * t.val + k.val; rw [e1]; omega

/-- The staged block of samples at a scoring point holds rows `2048·(t - 5)` onward of the array. -/
theorem x1At_apply (c : Dev nD) (t : Fin cfg0.N) (ht : 5 ≤ t.val) (r : Fin 2048) (f : Fin 512) (h : 2048 * (t.val - 5) + r.val < 4096) :
    x1At (F := Ideal) m c t (ix2 r f) = (m ((c.tc : Thread nD τ).loc main_arg0)) (ix2 (⟨2048 * (t.val - 5) + r.val, h⟩ : Fin 4096) f) := by
  obtain ⟨e0, e1⟩ := idx0_0 t ht
  unfold x1At iblk
  rw [View.read_apply]
  show V m c main_arg0 _ = m ((c.tc : Thread nD τ).loc main_arg0) _
  unfold V
  congr 1
  funext a
  apply Fin.ext
  match a with
  | ⟨0, _⟩ => show win0_0.index t 0 * 2048 + 1 * r.val = 2048 * (t.val - 5) + r.val; rw [e0]; omega
  | ⟨1, _⟩ => show win0_0.index t 1 * 512 + 1 * f.val = f.val; rw [e1]; omega

end Cert.KernelIdeal.KVal

end
-- ==== Proof.Algebra.lean ====
/-
  The algebra both programs' scores rest on, over the extended reals and the reals.

  Part 1: for real-valued arrays the kernel's score (inner product of the sample with the projected centroid,
  divided by the product of the clamped norms, the encoding's norm read off the Gram matrix) equals the
  reference's score (the cosine of the encoding and the centroid, each divided by its clamped norm first).
  Part 2: a sum over the 10000 hyperdimensions swept in blocks of 2048, the last block holding 1808 rows.
-/
import proofs.«124658_g15693810500123_cont_7to1_75_23_alg».proof.Proof.Spec
import Mathlib.Data.EReal.Basic
import Mathlib.Data.EReal.Operations
import Mathlib.Data.EReal.Inv
import Mathlib.Data.Fintype.BigOperators
import Mathlib.Algebra.BigOperators.Fin
import Mathlib.Algebra.BigOperators.Intervals
import Mathlib.Algebra.BigOperators.Ring.Finset
import Mathlib.Algebra.Order.BigOperators.Ring.Finset
import Mathlib.Tactic.Ring
import Mathlib.Tactic.Linarith
import Mathlib.Tactic.Positivity
import Mathlib.Tactic.FieldSimp
import Mathlib.Tactic.NormNum

noncomputable section

open scoped BigOperators

namespace Cert.Spec

open Idealize.ShloMosaic Idealize.ShloMosaic.ValueIdx

/-! ### Part 2: the hyperdimension swept in blocks -/

/-- The sum of `g` over the hyperdimensions below `n`. -/
def psum (g : Fin 10000 → EReal) (n : ℕ) : EReal := ∑ d : Fin 10000, if d.val < n then g d else 0

/-- A function on the hyperdimension extended by zero to all naturals. -/
def ext0 (g : Fin 10000 → EReal) (n : ℕ) : EReal := if h : n < 10000 then g ⟨n, h⟩ else 0

theorem ext0_val (g : Fin 10000 → EReal) (d : Fin 10000) : ext0 g d.val = g d := by
  unfold ext0
  rw [dif_pos d.isLt]

theorem ext0_of_lt (g : Fin 10000 → EReal) (n : ℕ) (h : n < 10000) : ext0 g n = g ⟨n, h⟩ := by
  unfold ext0
  rw [dif_pos h]

/-- A sum over `range N` cut off below `n ≤ N` is the sum over `range n`. -/
theorem sum_range_lt (G : ℕ → EReal) (N n : ℕ) (hn : n ≤ N) :
    (∑ i ∈ Finset.range N, if i < n then G i else 0) = ∑ i ∈ Finset.range n, G i := by
  rw [← Finset.sum_filter]
  congr 1
  ext i
  simp only [Finset.mem_filter, Finset.mem_range]
  omega

theorem psum_eq_range (g : Fin 10000 → EReal) (n : ℕ) (hn : n ≤ 10000) :
    psum g n = ∑ i ∈ Finset.range n, ext0 g i := by
  rw [← sum_range_lt (ext0 g) 10000 n hn,
    ← Fin.sum_univ_eq_sum_range (fun i => if i < n then ext0 g i else 0) 10000]
  unfold psum
  refine Finset.sum_congr rfl fun d _ => ?_
  rw [ext0_val]

theorem psum_zero (g : Fin 10000 → EReal) : psum g 0 = 0 := by
  rw [psum_eq_range g 0 (by omega), Finset.range_zero, Finset.sum_empty]

theorem psum_full (g : Fin 10000 → EReal) : psum g 10000 = ∑ d, g d := by
  rw [psum_eq_range g 10000 le_rfl, ← Fin.sum_univ_eq_sum_range (ext0 g) 10000]
  refine Finset.sum_congr rfl fun d _ => ?_
  rw [ext0_val]

theorem psum_step (g : Fin 10000 → EReal) (j : ℕ) (hj : 2048 * (j + 1) ≤ 10000) :
    psum g (2048 * (j + 1)) = psum g (2048 * j) + ∑ k : Fin 2048, g ⟨2048 * j + k.val, by omega⟩ := by
  rw [psum_eq_range g _ hj, psum_eq_range g (2048 * j) (by omega),
    show 2048 * (j + 1) = 2048 * j + 2048 by ring, Finset.sum_range_add,
    ← Fin.sum_univ_eq_sum_range (fun k => ext0 g (2048 * j + k)) 2048]
  refine congrArg (_ + ·) (Finset.sum_congr rfl fun k _ => ?_)
  rw [ext0_of_lt]

theorem psum_last (g : Fin 10000 → EReal) :
    (∑ d, g d) = psum g 8192 + ∑ k : Fin 2048, if h : k.val < 1808 then g ⟨8192 + k.val, by omega⟩ else 0 := by
  have h1 : (∑ i ∈ Finset.range 10000, ext0 g i)
      = (∑ i ∈ Finset.range 8192, ext0 g i) + ∑ k ∈ Finset.range 1808, ext0 g (8192 + k) :=
    Finset.sum_range_add (ext0 g) 8192 1808
  rw [← psum_full, psum_eq_range g 10000 le_rfl, psum_eq_range g 8192 (by omega), h1,
    ← sum_range_lt (fun k => ext0 g (8192 + k)) 2048 1808 (by omega),
    ← Fin.sum_univ_eq_sum_range (fun k => if k < 1808 then ext0 g (8192 + k) else 0) 2048]
  refine congrArg (_ + ·) (Finset.sum_congr rfl fun k _ => ?_)
  by_cases h : k.val < 1808
  · rw [dif_pos h, if_pos h, ext0_of_lt]
  · rw [dif_neg h, if_neg h]

/-! ### Part 1: the two scores agree on real arrays -/

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => rw [Finset.sum_empty, Finset.sum_empty, EReal.coe_zero]
  | insert a t ha ih => rw [Finset.sum_insert ha, Finset.sum_insert ha, EReal.coe_add, ih]

/-- A sum of products of reals, formed in the extended reals, is the real sum of products. -/
theorem coe_sum_mul {ι : Type*} (t : Finset ι) (f g : ι → ℝ) :
    (∑ i ∈ t, (f i : EReal) * (g i : EReal)) = ((∑ i ∈ t, f i * g i : ℝ) : EReal) := by
  rw [coe_sum]
  exact Finset.sum_congr rfl fun i _ => (EReal.coe_mul _ _).symm

theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- The norm floor is a positive real. -/
theorem eps_pos : ∃ e : ℝ, 0 < e ∧ eps = (e : EReal) := by
  refine ⟨((2 ^ 23 + 834764 : ℕ) : ℝ) * (2 : ℝ) ^ ((87 : ℤ) - 127 - 23), by positivity, ?_⟩
  simp [eps, Ideal.ofBits, Ideal.ieee]

theorem sqrt_coe_nonneg {x : ℝ} (hx : 0 ≤ x) : Ideal.sqrt (x : EReal) = ((Real.sqrt x : ℝ) : EReal) := by
  rw [Ideal.sqrt_coe, if_neg (not_lt.2 hx)]

/-- The kernel's clamped norm of a nonnegative real square. -/
theorem clamp_ker {x e : ℝ} (hx : 0 ≤ x) :
    max (Ideal.sqrt (x : EReal)) (e : EReal) = ((max (Real.sqrt x) e : ℝ) : EReal) := by
  rw [sqrt_coe_nonneg hx, coe_max]

/-- The reference's clamped norm of a nonnegative real square: the same real. -/
theorem clamp_ref {x e : ℝ} (hx : 0 ≤ x) :
    max (e : EReal) (Ideal.sqrt (0 + (x : EReal))) = ((max (Real.sqrt x) e : ℝ) : EReal) := by
  rw [zero_add, sqrt_coe_nonneg hx, coe_max, max_comm]

/-- Σ_f s_f · (Σ_d c_d w_df) = Σ_d (Σ_f s_f w_df) · c_d. -/
theorem num_real {ι κ : Type*} [Fintype ι] [Fintype κ] (s : ι → ℝ) (c : κ → ℝ) (w : κ → ι → ℝ) :
    (∑ f, s f * ∑ d, c d * w d f) = ∑ d, (∑ f, s f * w d f) * c d := by
  calc (∑ f, s f * ∑ d, c d * w d f) = ∑ f, ∑ d, (s f * w d f) * c d := by
        refine Finset.sum_congr rfl fun f _ => ?_
        rw [Finset.mul_sum]
        exact Finset.sum_congr rfl fun d _ => by ring
    _ = ∑ d, ∑ f, (s f * w d f) * c d := Finset.sum_comm
    _ = ∑ d, (∑ f, s f * w d f) * c d := Finset.sum_congr rfl fun d _ => (Finset.sum_mul _ _ _).symm

/-- The quadratic form of the Gram matrix is the squared norm of the encoding:
    Σ_f' (Σ_f s_f · Σ_d w_df w_df') · s_f' = Σ_d (Σ_f s_f w_df)². -/
theorem quad_real {ι κ : Type*} [Fintype ι] [Fintype κ] (s : ι → ℝ) (w : κ → ι → ℝ) :
    (∑ f', (∑ f, s f * ∑ d, w d f * w d f') * s f') = ∑ d, (∑ f, s f * w d f) * (∑ f, s f * w d f) := by
  calc (∑ f', (∑ f, s f * ∑ d, w d f * w d f') * s f')
      = ∑ f', ∑ f, ∑ d, (s f * w d f) * (s f' * w d f') := by
        refine Finset.sum_congr rfl fun f' _ => ?_
        rw [Finset.sum_mul]
        refine Finset.sum_congr rfl fun f _ => ?_
        rw [Finset.mul_sum, Finset.sum_mul]
        exact Finset.sum_congr rfl fun d _ => by ring
    _ = ∑ f, ∑ f', ∑ d, (s f * w d f) * (s f' * w d f') := Finset.sum_comm
    _ = ∑ f, ∑ d, ∑ f', (s f * w d f) * (s f' * w d f') := Finset.sum_congr rfl fun f _ => Finset.sum_comm
    _ = ∑ d, ∑ f, ∑ f', (s f * w d f) * (s f' * w d f') := Finset.sum_comm
    _ = ∑ d, (∑ f, s f * w d f) * (∑ f, s f * w d f) :=
        Finset.sum_congr rfl fun d _ => (Finset.sum_mul_sum _ _ _ _).symm

/-- With real encodings `E`, real centroid entries `cd` and a positive floor `e`, the quotient of the inner product
    by the product of the clamped norms is the inner product of the two vectors each divided by its clamped norm. -/
theorem score_eq {κ : Type*} [Fintype κ] (E cd : κ → ℝ) (e : ℝ) (he : 0 < e) :
    Ideal.div ((∑ d, E d * cd d : ℝ) : EReal)
        (max (Ideal.sqrt (max ((∑ d, E d * E d : ℝ) : EReal) 0)) (e : EReal)
          * max (Ideal.sqrt ((∑ d, cd d * cd d : ℝ) : EReal)) (e : EReal))
      = ∑ d, Ideal.div (E d : EReal) (max (e : EReal) (Ideal.sqrt (0 + ∑ d', (E d' : EReal) * (E d' : EReal))))
          * Ideal.div (cd d : EReal) (max (e : EReal) (Ideal.sqrt (0 + ∑ d', (cd d' : EReal) * (cd d' : EReal)))) := by
  have hN : 0 ≤ ∑ d, E d * E d := Finset.sum_nonneg fun d _ => mul_self_nonneg _
  have hM : 0 ≤ ∑ d, cd d * cd d := Finset.sum_nonneg fun d _ => mul_self_nonneg _
  have hA : 0 < max (Real.sqrt (∑ d, E d * E d)) e := lt_max_of_lt_right he
  have hB : 0 < max (Real.sqrt (∑ d, cd d * cd d)) e := lt_max_of_lt_right he
  rw [max_eq_left (EReal.coe_nonneg.2 hN), clamp_ker hN, clamp_ker hM, coe_sum_mul, coe_sum_mul,
    clamp_ref hN, clamp_ref hM, ← EReal.coe_mul, Ideal.div_coe (mul_pos hA hB).ne', ← EReal.coe_mul]
  simp only [Ideal.div_coe hA.ne', Ideal.div_coe hB.ne', ← EReal.coe_mul]
  rw [← coe_sum]
  generalize max (Real.sqrt (∑ d, E d * E d)) e = A at hA ⊢
  generalize max (Real.sqrt (∑ d, cd d * cd d)) e = B at hB ⊢
  have hA' := hA.ne'
  have hB' := hB.ne'
  refine congrArg _ ?_
  rw [Finset.sum_mul]
  refine Finset.sum_congr rfl fun d _ => ?_
  field_simp

/-- The real encoding of sample `b` along hyperdimension `d`. -/
def encR (s : SS.Idx → ℝ) (w : SW.Idx → ℝ) (b : Fin 4096) (d : Fin 10000) : ℝ :=
  ∑ f : Fin 512, s (ix2 b f) * w (ix2 d f)

theorem enc_coe (s : SS.Idx → ℝ) (w : SW.Idx → ℝ) (b : Fin 4096) (d : Fin 10000) :
    enc (fun i => (s i : EReal)) (fun i => (w i : EReal)) b d = (encR s w b d : EReal) := by
  unfold enc encR
  exact coe_sum_mul _ _ _

theorem gram_coe (w : SW.Idx → ℝ) (f f' : Fin 512) :
    gram (fun i => (w i : EReal)) f f' = ((∑ d : Fin 10000, w (ix2 d f) * w (ix2 d f') : ℝ) : EReal) := by
  unfold gram
  exact coe_sum_mul _ _ _

theorem proj_coe (w : SW.Idx → ℝ) (cc : SC.Idx → ℝ) (c : Fin 100) (f : Fin 512) :
    proj (fun i => (w i : EReal)) (fun i => (cc i : EReal)) c f
      = ((∑ d : Fin 10000, cc (ix2 c d) * w (ix2 d f) : ℝ) : EReal) := by
  unfold proj
  exact coe_sum_mul _ _ _

theorem cnorm2_coe (cc : SC.Idx → ℝ) (c : Fin 100) :
    cnorm2 (fun i => (cc i : EReal)) c = ((∑ d : Fin 10000, cc (ix2 c d) * cc (ix2 c d) : ℝ) : EReal) := by
  unfold cnorm2
  exact coe_sum_mul _ _ _

theorem quad_coe (s : SS.Idx → ℝ) (w : SW.Idx → ℝ) (b : Fin 4096) :
    quad (fun i => (s i : EReal)) (fun i => (w i : EReal)) b
      = ((∑ d : Fin 10000, encR s w b d * encR s w b d : ℝ) : EReal) := by
  unfold quad
  simp only [gram_coe, coe_sum_mul]
  exact congrArg _ (quad_real (fun f => s (ix2 b f)) (fun d f => w (ix2 d f)))

theorem num_coe (s : SS.Idx → ℝ) (w : SW.Idx → ℝ) (cc : SC.Idx → ℝ) (b : Fin 4096) (c : Fin 100) :
    (∑ f : Fin 512, (s (ix2 b f) : EReal) * proj (fun i => (w i : EReal)) (fun i => (cc i : EReal)) c f)
      = ((∑ d : Fin 10000, encR s w b d * cc (ix2 c d) : ℝ) : EReal) := by
  simp only [proj_coe, coe_sum_mul]
  exact congrArg _ (num_real (fun f => s (ix2 b f)) (fun d => cc (ix2 c d)) (fun d f => w (ix2 d f)))

/-- On real-valued arrays the kernel's score is the reference's score. -/
theorem kerScore_eq_refScore (S : SS.Idx → EReal) (W : SW.Idx → EReal) (C : SC.Idx → EReal)
    (hS : ∀ i, ∃ r : ℝ, S i = (r : EReal)) (hW : ∀ i, ∃ r : ℝ, W i = (r : EReal))
    (hC : ∀ i, ∃ r : ℝ, C i = (r : EReal)) (b : Fin 4096) (c : Fin 100) :
    kerScore S W C b c = refScore S W C b c := by
  choose s hs using hS
  choose w hw using hW
  choose cc hc using hC
  obtain rfl : S = fun i => ((s i : ℝ) : EReal) := funext hs
  obtain rfl : W = fun i => ((w i : ℝ) : EReal) := funext hw
  obtain rfl : C = fun i => ((cc i : ℝ) : EReal) := funext hc
  obtain ⟨e, he, hE⟩ := eps_pos
  unfold kerScore refScore
  rw [num_coe, quad_coe, cnorm2_coe, hE]
  simp only [enc_coe]
  exact score_eq (fun d => encR s w b d) (fun d => cc (ix2 c d)) e he

end Cert.Spec

end
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.PayAcc.lean ====
/-
  The accumulating payloads of the kernel, read at an index on the extended reals.

  Over one block of 2048 hyperdimension rows, with W the block of projection rows ([2048, 512]) and C the block of
  centroid columns ([100, 2048]): the Gram term is (WᵀW)[f, f'] = Σ_k W[k, f]·W[k, f'], the projected centroids are
  (C·W)[c, f] = Σ_k C[c, k]·W[k, f], and the squared norm of centroid c over the block is Σ_k C[c, k]². The first block
  stores these; a later block adds them to what the accumulators hold. The rounding to bf16 before the products is the
  identity at the ideal values.
-/
import proofs.«124658_g15693810500123_cont_7to1_75_23_alg».proof.Proof.Gen.KernelIdeal.Skeleton
import proofs.«124658_g15693810500123_cont_7to1_75_23_alg».proof.Proof.Spec
import proofs.«124658_g15693810500123_cont_7to1_75_23_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The Gram product: both operands contracted along their rows -/

theorem gram_lhs_0 (i : S512x512.Idx) (q : dot_S2048x512_S2048x512_S512x512_0_0_1_1_n_n.contr.Idx) :
    (dot_S2048x512_S2048x512_S512x512_0_0_1_1_n_n.lhsIdx i q 0).val = (q ⟨0, by decide⟩).val :=
  dot_S2048x512_S2048x512_S512x512_0_0_1_1_n_n.lhsIdx_val_of_single rfl i q
theorem gram_lhs_1 (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl
theorem gram_rhs_0 (i : S512x512.Idx) (q : dot_S2048x512_S2048x512_S512x512_0_0_1_1_n_n.contr.Idx) :
    (dot_S2048x512_S2048x512_S512x512_0_0_1_1_n_n.rhsIdx i q 0).val = (q ⟨0, by decide⟩).val :=
  dot_S2048x512_S2048x512_S512x512_0_0_1_1_n_n.rhsIdx_val_of_single rfl i q
theorem gram_rhs_1 (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl

/-- The product WᵀW into the zero accumulator, at `(f, f')`: the sum over the rows of the products of columns `f` and `f'`. -/
theorem gram_apply (a b : FVec Ideal S2048x512 .bf16) (f f' : Fin 512) :
    FloatOps.matmul dot_S2048x512_S2048x512_S512x512_0_0_1_1_n_n none a b (constant S512x512 .f32 0x00000000#32) (ix2 f f')
      = ∑ k : Fin 2048, a (ix2 k f) * b (ix2 k f') := by
  rw [Ideal.matmul_constant_zero_apply, ← Equiv.sum_comp (contrEquiv1 dot_S2048x512_S2048x512_S512x512_0_0_1_1_n_n 2048 rfl rfl).symm]
  refine Finset.sum_congr rfl fun k _ => ?_
  have hk := contrEquiv1_symm_val dot_S2048x512_S2048x512_S512x512_0_0_1_1_n_n 2048 rfl rfl k
  have el : dot_S2048x512_S2048x512_S512x512_0_0_1_1_n_n.lhsIdx (ix2 f f') ((contrEquiv1 dot_S2048x512_S2048x512_S512x512_0_0_1_1_n_n 2048 rfl rfl).symm k) = ix2 k f := funext fun c => Fin.ext (by
    match c with
    | ⟨0, _⟩ => exact (gram_lhs_0 _ _).trans hk
    | ⟨1, _⟩ => exact gram_lhs_1 _ _)
  have er : dot_S2048x512_S2048x512_S512x512_0_0_1_1_n_n.rhsIdx (ix2 f f') ((contrEquiv1 dot_S2048x512_S2048x512_S512x512_0_0_1_1_n_n 2048 rfl rfl).symm k) = ix2 k f' := funext fun c => Fin.ext (by
    match c with
    | ⟨0, _⟩ => exact (gram_rhs_0 _ _).trans hk
    | ⟨1, _⟩ => exact gram_rhs_1 _ _)
  rw [el, er]

theorem pay2_apply (x2 : Vec Ideal S2048x512 .f32) (f f' : Fin 512) :
    k0_pay2 (F := Ideal) x2 (ix2 f f') = ∑ k : Fin 2048, x2 (ix2 k f) * x2 (ix2 k f') := by
  unfold k0_pay2 k0_pay1
  rw [shapeCast_self]
  exact gram_apply _ _ f f'

/-! ## The projection product: rows of the centroid block against columns of the projection block -/

theorem proj_lhs_0 (i : S100x512.Idx) (q : dot_S100x2048_S2048x512_S100x512_1_0_0_1_n_n.contr.Idx) :
    (dot_S100x2048_S2048x512_S100x512_1_0_0_1_n_n.lhsIdx i q 0).val = (i 0).val := by
  unfold DotDims.lhsIdx
  rw [dif_neg (show ¬(0 : Fin S100x2048.rank) ∈ dot_S100x2048_S2048x512_S100x512_1_0_0_1_n_n.lhsBatch by decide), dif_pos (show (0 : Fin S100x2048.rank) ∈ dot_S100x2048_S2048x512_S100x512_1_0_0_1_n_n.lhsNonContracting by decide)]
  rfl
theorem proj_lhs_1 (i : S100x512.Idx) (q : dot_S100x2048_S2048x512_S100x512_1_0_0_1_n_n.contr.Idx) :
    (dot_S100x2048_S2048x512_S100x512_1_0_0_1_n_n.lhsIdx i q 1).val = (q ⟨0, by decide⟩).val :=
  dot_S100x2048_S2048x512_S100x512_1_0_0_1_n_n.lhsIdx_val_of_single rfl i q
theorem proj_rhs_0 (i : S100x512.Idx) (q : dot_S100x2048_S2048x512_S100x512_1_0_0_1_n_n.contr.Idx) :
    (dot_S100x2048_S2048x512_S100x512_1_0_0_1_n_n.rhsIdx i q 0).val = (q ⟨0, by decide⟩).val :=
  dot_S100x2048_S2048x512_S100x512_1_0_0_1_n_n.rhsIdx_val_of_single rfl i q
theorem proj_rhs_1 (i : S100x512.Idx) (q : dot_S100x2048_S2048x512_S100x512_1_0_0_1_n_n.contr.Idx) :
    (dot_S100x2048_S2048x512_S100x512_1_0_0_1_n_n.rhsIdx i q 1).val = (i 1).val := by
  unfold DotDims.rhsIdx
  rw [dif_neg (show ¬(1 : Fin S2048x512.rank) ∈ dot_S100x2048_S2048x512_S100x512_1_0_0_1_n_n.rhsBatch by decide), dif_pos (show (1 : Fin S2048x512.rank) ∈ dot_S100x2048_S2048x512_S100x512_1_0_0_1_n_n.rhsNonContracting by decide)]
  rfl

/-- The product C·W into the zero accumulator, at `(c, f)`: the sum over the block of row `c` against column `f`. -/
theorem proj_apply (a : FVec Ideal S100x2048 .bf16) (b : FVec Ideal S2048x512 .bf16) (c : Fin 100) (f : Fin 512) :
    FloatOps.matmul dot_S100x2048_S2048x512_S100x512_1_0_0_1_n_n none a b (constant S100x512 .f32 0x00000000#32) (ix2 c f)
      = ∑ k : Fin 2048, a (ix2 c k) * b (ix2 k f) := by
  rw [Ideal.matmul_constant_zero_apply, ← Equiv.sum_comp (contrEquiv1 dot_S100x2048_S2048x512_S100x512_1_0_0_1_n_n 2048 rfl rfl).symm]
  refine Finset.sum_congr rfl fun k _ => ?_
  have hk := contrEquiv1_symm_val dot_S100x2048_S2048x512_S100x512_1_0_0_1_n_n 2048 rfl rfl k
  have el : dot_S100x2048_S2048x512_S100x512_1_0_0_1_n_n.lhsIdx (ix2 c f) ((contrEquiv1 dot_S100x2048_S2048x512_S100x512_1_0_0_1_n_n 2048 rfl rfl).symm k) = ix2 c k := funext fun e => Fin.ext (by
    match e with
    | ⟨0, _⟩ => exact proj_lhs_0 _ _
    | ⟨1, _⟩ => exact (proj_lhs_1 _ _).trans hk)
  have er : dot_S100x2048_S2048x512_S100x512_1_0_0_1_n_n.rhsIdx (ix2 c f) ((contrEquiv1 dot_S100x2048_S2048x512_S100x512_1_0_0_1_n_n 2048 rfl rfl).symm k) = ix2 k f := funext fun e => Fin.ext (by
    match e with
    | ⟨0, _⟩ => exact (proj_rhs_0 _ _).trans hk
    | ⟨1, _⟩ => exact proj_rhs_1 _ _)
  rw [el, er]

theorem pay3_apply (x2 : Vec Ideal S2048x512 .f32) (x3 : Vec Ideal S100x2048 .f32) (c : Fin 100) (f : Fin 512) :
    k0_pay3 (F := Ideal) x2 x3 (ix2 c f) = ∑ k : Fin 2048, x3 (ix2 c k) * x2 (ix2 k f) := by
  unfold k0_pay3 k0_pay1
  rw [shapeCast_self]
  exact proj_apply _ _ c f

/-! ## The later blocks add the block's term to the accumulator -/

theorem pay6_apply (x2 : Vec Ideal S2048x512 .f32) (s5 : Vec Ideal S512x512 .f32) (f f' : Fin 512) :
    k0_pay6 (F := Ideal) x2 s5 (ix2 f f') = s5 (ix2 f f') + ∑ k : Fin 2048, x2 (ix2 k f) * x2 (ix2 k f') := by
  unfold k0_pay6 k0_pay5
  rw [shapeCast_self, addf_apply]
  exact congrArg (s5 (ix2 f f') + ·) (gram_apply _ _ f f')

theorem pay7_apply (x2 : Vec Ideal S2048x512 .f32) (x3 : Vec Ideal S100x2048 .f32) (s6 : Vec Ideal S100x512 .f32)
    (c : Fin 100) (f : Fin 512) :
    k0_pay7 (F := Ideal) x2 x3 s6 (ix2 c f) = s6 (ix2 c f) + ∑ k : Fin 2048, x3 (ix2 c k) * x2 (ix2 k f) := by
  unfold k0_pay7 k0_pay5
  rw [shapeCast_self, addf_apply]
  exact congrArg (s6 (ix2 c f) + ·) (proj_apply _ _ c f)

/-! ## The squared norm of a centroid over the block: the lane sum of the squares, kept as a column -/

/-- The squares of the block summed over the lanes and cast to a column, at `(c, z)`. -/
theorem sqnorm_apply (x3 : Vec Ideal S100x2048 .f32) (c : Fin 100) (z : Fin 1) :
    shapeCast S100x1 (multiReduction (F := Ideal) .add [1] S100 (mulf x3 x3 : FVec Ideal S100x2048 .f32) 0x00000000#32 reduces_S100x2048_S100 (.inl rfl) rfl)
        shapeCasts_S100_S100x1 (ix2 c z)
      = ∑ k : Fin 2048, x3 (ix2 c k) * x3 (ix2 c k) := by
  rw [Cert.RowOps.castCol_apply]
  refine (Cert.RowOps.laneSum_apply (R := 100) (C := 2048) _ _ _ _ _ c).trans ?_
  rfl

theorem pay4_apply (x3 : Vec Ideal S100x2048 .f32) (c : Fin 100) (z : Fin 1) :
    k0_pay4 (F := Ideal) x3 (ix2 c z) = ∑ k : Fin 2048, x3 (ix2 c k) * x3 (ix2 c k) := by
  unfold k0_pay4
  rw [shapeCast_self]
  exact sqnorm_apply x3 c z

theorem pay8_apply (x3 : Vec Ideal S100x2048 .f32) (s7 : Vec Ideal S100x1 .f32) (c : Fin 100) (z : Fin 1) :
    k0_pay8 (F := Ideal) x3 s7 (ix2 c z) = s7 (ix2 c z) + ∑ k : Fin 2048, x3 (ix2 c k) * x3 (ix2 c k) := by
  unfold k0_pay8
  rw [shapeCast_self, addf_apply]
  exact congrArg (s7 (ix2 c z) + ·) (sqnorm_apply x3 c z)

end Cert.KernelIdeal.Pay

end
-- ==== Proof.PayEdge.lean ====
/-
  The payloads of the last hyperdimension block, read at an index on the extended reals.

  The last block holds 1808 rows of the 2048 inside the arrays. The kernel replaces the rows of the projection block
  and the lanes of the centroid block at or past 1808 by zero (a select on a signed comparison of the row or lane
  number with 1808), and then accumulates as for a whole block: the Gram matrix gains the product of the masked block
  with itself over its rows, the projected centroids gain the product of the masked centroid block with the masked
  projection block, and the squared norms gain the lane sums of the masked centroid block's squares. Each is stated
  with the mask written as `Cert.Spec.msk`: the value where the number is below 1808, zero elsewhere.
-/
import proofs.«124658_g15693810500123_cont_7to1_75_23_alg».proof.Proof.Gen.KernelIdeal.Skeleton
import proofs.«124658_g15693810500123_cont_7to1_75_23_alg».proof.Proof.Spec
import proofs.«124658_g15693810500123_cont_7to1_75_23_alg».proof.Proof.LibRowOps
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.PayE

open Cert.KernelIdeal Cert.KernelIdeal.Gen Idealize.ShloMosaic Idealize.ShloMosaic.ValueIdx

/-! ## The mask of the last block -/

/-- A number below 2048, as a 32-bit word, is below 1808 as a signed word exactly when it is below 1808. -/
theorem slt_1808 (k : Fin 2048) :
    IntOp.cmpi .slt (BitVec.ofNat 32 k.val) 1808#32 = if k.val < 1808 then 1#1 else 0#1 := by
  have hk := k.isLt
  have ha : (BitVec.ofNat 32 k.val).toNat = k.val := by
    rw [BitVec.toNat_ofNat]; exact Nat.mod_eq_of_lt (by omega)
  have hb : (1808#32 : BitVec 32).toNat = 1808 := rfl
  have h := StableHlo.Predicate.slt_iff_toNat (a := BitVec.ofNat 32 k.val) (b := 1808#32)
    (by rw [ha]; omega) (by rw [hb]; norm_num)
  rw [ha, hb] at h
  split
  · next hlt => exact h.mpr hlt
  · next hge => exact eq_zero_of_ne_one (fun hh => hge (h.mp hh))

/-- A value kept where the mask bit is set and replaced by the zero word elsewhere is the masked value. -/
theorem select_msk (k : Fin 2048) (v : EReal) :
    Scalar.select (IntOp.cmpi .slt (BitVec.ofNat 32 k.val) 1808#32) v (Ideal.ofBits .f32 0x00000000#32)
      = Cert.Spec.msk k v := by
  rw [slt_1808]
  unfold Cert.Spec.msk
  split
  · exact select_one _ _
  · rw [select_zero]; exact Ideal.ofBits_zero_f32

/-- The rows of the block at or past 1808 read as zero. -/
theorem pay11_apply (x2 : Vec Ideal S2048x512 .f32) (k : Fin 2048) (f : Fin 512) :
    k0_pay11 (F := Ideal) x2 (ix2 k f) = Cert.Spec.msk k (x2 (ix2 k f)) := by
  unfold k0_pay11
  rw [truncf_apply, select_apply]
  have hc : cmpi CmpIPredicate.slt (iota Kind.tc S2048x512 32 [0] iota_S2048x512_d0_w32) (broadcast S2048x512 1808#32) (ix2 k f)
      = IntOp.cmpi .slt (BitVec.ofNat 32 k.val) 1808#32 := by
    show IntOp.cmpi .slt (iota .tc S2048x512 32 [0] iota_S2048x512_d0_w32 (ix2 k f)) 1808#32 = _
    rw [iota_single_apply]
  rw [hc]
  exact select_msk k _

/-- The lanes of the block at or past 1808 read as zero. -/
theorem pay10_apply (x3 : Vec Ideal S100x2048 .f32) (c : Fin 100) (k : Fin 2048) :
    k0_pay10 (F := Ideal) x3 (ix2 c k) = Cert.Spec.msk k (x3 (ix2 c k)) := by
  unfold k0_pay10
  rw [select_apply]
  have hc : cmpi CmpIPredicate.slt (iota Kind.tc S100x2048 32 [1] iota_S100x2048_d1_w32) (broadcast S100x2048 1808#32) (ix2 c k)
      = IntOp.cmpi .slt (BitVec.ofNat 32 k.val) 1808#32 := by
    show IntOp.cmpi .slt (iota .tc S100x2048 32 [1] iota_S100x2048_d1_w32 (ix2 c k)) 1808#32 = _
    rw [iota_single_apply]
  rw [hc]
  exact select_msk k _

/-! ## The two products of the block read at an index -/

/-- The Gram product contracts the rows of both operands: the left operand is read at (k, f), the right at (k, f'). -/
theorem lhs_gram_0 (i : S512x512.Idx) (q : dot_S2048x512_S2048x512_S512x512_0_0_1_1_n_n.contr.Idx) :
    (dot_S2048x512_S2048x512_S512x512_0_0_1_1_n_n.lhsIdx i q 0).val = (q ⟨0, by decide⟩).val :=
  dot_S2048x512_S2048x512_S512x512_0_0_1_1_n_n.lhsIdx_val_of_single rfl i q
theorem lhs_gram_1 (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl
theorem rhs_gram_0 (i : S512x512.Idx) (q : dot_S2048x512_S2048x512_S512x512_0_0_1_1_n_n.contr.Idx) :
    (dot_S2048x512_S2048x512_S512x512_0_0_1_1_n_n.rhsIdx i q 0).val = (q ⟨0, by decide⟩).val :=
  dot_S2048x512_S2048x512_S512x512_0_0_1_1_n_n.rhsIdx_val_of_single rfl i q
theorem rhs_gram_1 (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl

/-- The Gram product into the zero splat, at (f, f'): the sum over the block's rows of the products of columns f and f'. -/
theorem gram_apply (a b : FVec Ideal S2048x512 .bf16) (f f' : Fin 512) :
    FloatOps.matmul dot_S2048x512_S2048x512_S512x512_0_0_1_1_n_n none a b (constant S512x512 .f32 0x00000000#32) (ix2 f f')
      = ∑ k : Fin 2048, a (ix2 k f) * b (ix2 k f') := by
  rw [Ideal.matmul_constant_zero_apply, ← Equiv.sum_comp (contrEquiv1 dot_S2048x512_S2048x512_S512x512_0_0_1_1_n_n 2048 rfl rfl).symm]
  refine Finset.sum_congr rfl fun k _ => ?_
  have hk := contrEquiv1_symm_val dot_S2048x512_S2048x512_S512x512_0_0_1_1_n_n 2048 rfl rfl k
  have el : dot_S2048x512_S2048x512_S512x512_0_0_1_1_n_n.lhsIdx (ix2 f f') ((contrEquiv1 dot_S2048x512_S2048x512_S512x512_0_0_1_1_n_n 2048 rfl rfl).symm k) = ix2 k f := funext fun a => Fin.ext (by
    match a with
    | ⟨0, _⟩ => exact (lhs_gram_0 _ _).trans hk
    | ⟨1, _⟩ => exact lhs_gram_1 _ _)
  have er : dot_S2048x512_S2048x512_S512x512_0_0_1_1_n_n.rhsIdx (ix2 f f') ((contrEquiv1 dot_S2048x512_S2048x512_S512x512_0_0_1_1_n_n 2048 rfl rfl).symm k) = ix2 k f' := funext fun a => Fin.ext (by
    match a with
    | ⟨0, _⟩ => exact (rhs_gram_0 _ _).trans hk
    | ⟨1, _⟩ => exact rhs_gram_1 _ _)
  rw [el, er]

/-- The projection product contracts the lanes of the left operand with the rows of the right: the left is read at
    (c, k), the right at (k, f). -/
theorem lhs_proj_0 (i : S100x512.Idx) (q : dot_S100x2048_S2048x512_S100x512_1_0_0_1_n_n.contr.Idx) :
    (dot_S100x2048_S2048x512_S100x512_1_0_0_1_n_n.lhsIdx i q 0).val = (i 0).val := by
  unfold DotDims.lhsIdx
  rw [dif_neg (show ¬(0 : Fin S100x2048.rank) ∈ dot_S100x2048_S2048x512_S100x512_1_0_0_1_n_n.lhsBatch by decide), dif_pos (show (0 : Fin S100x2048.rank) ∈ dot_S100x2048_S2048x512_S100x512_1_0_0_1_n_n.lhsNonContracting by decide)]
  rfl
theorem lhs_proj_1 (i : S100x512.Idx) (q : dot_S100x2048_S2048x512_S100x512_1_0_0_1_n_n.contr.Idx) :
    (dot_S100x2048_S2048x512_S100x512_1_0_0_1_n_n.lhsIdx i q 1).val = (q ⟨0, by decide⟩).val :=
  dot_S100x2048_S2048x512_S100x512_1_0_0_1_n_n.lhsIdx_val_of_single rfl i q
theorem rhs_proj_0 (i : S100x512.Idx) (q : dot_S100x2048_S2048x512_S100x512_1_0_0_1_n_n.contr.Idx) :
    (dot_S100x2048_S2048x512_S100x512_1_0_0_1_n_n.rhsIdx i q 0).val = (q ⟨0, by decide⟩).val :=
  dot_S100x2048_S2048x512_S100x512_1_0_0_1_n_n.rhsIdx_val_of_single rfl i q
theorem rhs_proj_1 (i : S100x512.Idx) (q : dot_S100x2048_S2048x512_S100x512_1_0_0_1_n_n.contr.Idx) :
    (dot_S100x2048_S2048x512_S100x512_1_0_0_1_n_n.rhsIdx i q 1).val = (i 1).val := by
  unfold DotDims.rhsIdx
  rw [dif_neg (show ¬(1 : Fin S2048x512.rank) ∈ dot_S100x2048_S2048x512_S100x512_1_0_0_1_n_n.rhsBatch by decide), dif_pos (show (1 : Fin S2048x512.rank) ∈ dot_S100x2048_S2048x512_S100x512_1_0_0_1_n_n.rhsNonContracting by decide)]
  rfl

/-- The projection product into the zero splat, at (c, f): the sum over the block of row c of the left times column f
    of the right. -/
theorem projmm_apply (a : FVec Ideal S100x2048 .bf16) (b : FVec Ideal S2048x512 .bf16) (c : Fin 100) (f : Fin 512) :
    FloatOps.matmul dot_S100x2048_S2048x512_S100x512_1_0_0_1_n_n none a b (constant S100x512 .f32 0x00000000#32) (ix2 c f)
      = ∑ k : Fin 2048, a (ix2 c k) * b (ix2 k f) := by
  rw [Ideal.matmul_constant_zero_apply, ← Equiv.sum_comp (contrEquiv1 dot_S100x2048_S2048x512_S100x512_1_0_0_1_n_n 2048 rfl rfl).symm]
  refine Finset.sum_congr rfl fun k _ => ?_
  have hk := contrEquiv1_symm_val dot_S100x2048_S2048x512_S100x512_1_0_0_1_n_n 2048 rfl rfl k
  have el : dot_S100x2048_S2048x512_S100x512_1_0_0_1_n_n.lhsIdx (ix2 c f) ((contrEquiv1 dot_S100x2048_S2048x512_S100x512_1_0_0_1_n_n 2048 rfl rfl).symm k) = ix2 c k := funext fun a => Fin.ext (by
    match a with
    | ⟨0, _⟩ => exact lhs_proj_0 _ _
    | ⟨1, _⟩ => exact (lhs_proj_1 _ _).trans hk)
  have er : dot_S100x2048_S2048x512_S100x512_1_0_0_1_n_n.rhsIdx (ix2 c f) ((contrEquiv1 dot_S100x2048_S2048x512_S100x512_1_0_0_1_n_n 2048 rfl rfl).symm k) = ix2 k f := funext fun a => Fin.ext (by
    match a with
    | ⟨0, _⟩ => exact (rhs_proj_0 _ _).trans hk
    | ⟨1, _⟩ => exact rhs_proj_1 _ _)
  rw [el, er]

/-! ## The three accumulators after the last block -/

/-- The Gram accumulator gains, at (f, f'), the sum over the block's rows inside the arrays of the products of
    columns f and f'. -/
theorem pay12_apply (x2 : Vec Ideal S2048x512 .f32) (s5 : Vec Ideal S512x512 .f32) (f f' : Fin 512) :
    k0_pay12 (F := Ideal) x2 s5 (ix2 f f')
      = s5 (ix2 f f') + ∑ k : Fin 2048, Cert.Spec.msk k (x2 (ix2 k f)) * Cert.Spec.msk k (x2 (ix2 k f')) := by
  unfold k0_pay12
  rw [shapeCast_self, addf_apply]
  refine congrArg (s5 (ix2 f f') + ·) ?_
  show FloatOps.matmul dot_S2048x512_S2048x512_S512x512_0_0_1_1_n_n none (k0_pay11 (F := Ideal) x2) (k0_pay11 (F := Ideal) x2) (constant S512x512 .f32 0x00000000#32) (ix2 f f') = _
  rw [gram_apply]
  exact Finset.sum_congr rfl fun k _ => by rw [pay11_apply, pay11_apply]

/-- The projected centroids gain, at (c, f), the sum over the block's lanes inside the arrays of centroid c times
    column f. -/
theorem pay13_apply (x2 : Vec Ideal S2048x512 .f32) (x3 : Vec Ideal S100x2048 .f32) (s6 : Vec Ideal S100x512 .f32)
    (c : Fin 100) (f : Fin 512) :
    k0_pay13 (F := Ideal) x2 x3 s6 (ix2 c f)
      = s6 (ix2 c f) + ∑ k : Fin 2048, Cert.Spec.msk k (x3 (ix2 c k)) * Cert.Spec.msk k (x2 (ix2 k f)) := by
  unfold k0_pay13
  rw [shapeCast_self, addf_apply]
  refine congrArg (s6 (ix2 c f) + ·) ?_
  show FloatOps.matmul dot_S100x2048_S2048x512_S100x512_1_0_0_1_n_n none (truncf .bf16 (k0_pay10 (F := Ideal) x3) bitsLt_bf16_f32) (k0_pay11 (F := Ideal) x2) (constant S100x512 .f32 0x00000000#32) (ix2 c f) = _
  rw [projmm_apply]
  exact Finset.sum_congr rfl fun k _ => by rw [truncf_apply, pay10_apply, pay11_apply]

/-- The centroids' squared norms gain, at row c, the sum over the block's lanes inside the arrays of the squares. -/
theorem pay14_apply (x3 : Vec Ideal S100x2048 .f32) (s7 : Vec Ideal S100x1 .f32) (c : Fin 100) (z : Fin 1) :
    k0_pay14 (F := Ideal) x3 s7 (ix2 c z)
      = s7 (ix2 c z) + ∑ k : Fin 2048, Cert.Spec.msk k (x3 (ix2 c k)) * Cert.Spec.msk k (x3 (ix2 c k)) := by
  unfold k0_pay14
  rw [shapeCast_self, addf_apply]
  refine congrArg (s7 (ix2 c z) + ·) ?_
  rw [Cert.RowOps.castCol_apply]
  refine (Cert.RowOps.laneSum_apply (R := 100) (C := 2048)
    (mulf (k0_pay10 (F := Ideal) x3) (k0_pay10 (F := Ideal) x3)) _ reduces_S100x2048_S100 _ _ c).trans ?_
  exact Finset.sum_congr rfl fun k _ => by rw [mulf_apply, pay10_apply]

end Cert.KernelIdeal.PayE

end
-- ==== Proof.KVal.Acc.lean ====
/- The accumulators after the hyperdimension has been swept: each is the sum over all 10000 hyperdimensions, the sweep's
   five block terms being the partial sums up to 2048, 4096, 6144, 8192 and, with the last block's 1808 rows, 10000. -/
import proofs.«124658_g15693810500123_cont_7to1_75_23_alg».proof.Proof.KI.Blocks
import proofs.«124658_g15693810500123_cont_7to1_75_23_alg».proof.Proof.KVal.Reads
import proofs.«124658_g15693810500123_cont_7to1_75_23_alg».proof.Proof.Spec
import proofs.«124658_g15693810500123_cont_7to1_75_23_alg».proof.Proof.Algebra
import proofs.«124658_g15693810500123_cont_7to1_75_23_alg».proof.Proof.PayAcc
import proofs.«124658_g15693810500123_cont_7to1_75_23_alg».proof.Proof.PayEdge
import Idealize.ShloMosaic.Lib.ValueIdx

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ### One block's term joins a partial sum over the hyperdimension -/

/-- The first block's term is the partial sum below 2048. -/
theorem step_first (g : Fin 10000 → EReal) (blk : Fin 2048 → EReal)
    (hblk : ∀ (k : Fin 2048) (h : 2048 * 0 + k.val < 10000), blk k = g ⟨2048 * 0 + k.val, h⟩) :
    ∑ k : Fin 2048, blk k = Cert.Spec.psum g (2048 * (0 + 1)) := by
  have hz : Cert.Spec.psum g (2048 * 0) = 0 := Cert.Spec.psum_zero g
  rw [Cert.Spec.psum_step g 0 (by omega), hz, zero_add]
  exact Finset.sum_congr rfl fun k _ => hblk k (by omega)

/-- A whole block's term carries the partial sum below `2048·j` to the one below `2048·(j+1)`. -/
theorem step_whole (g : Fin 10000 → EReal) (j : ℕ) (hj : 2048 * (j + 1) ≤ 10000) (acc : EReal)
    (hacc : acc = Cert.Spec.psum g (2048 * j)) (blk : Fin 2048 → EReal)
    (hblk : ∀ (k : Fin 2048) (h : 2048 * j + k.val < 10000), blk k = g ⟨2048 * j + k.val, h⟩) :
    acc + ∑ k : Fin 2048, blk k = Cert.Spec.psum g (2048 * (j + 1)) := by
  rw [Cert.Spec.psum_step g j hj, hacc]
  exact congrArg (_ + ·) (Finset.sum_congr rfl fun k _ => hblk k (by omega))

/-- The last block's term, its rows past 1808 reading as zero, carries the partial sum below 8192 to the whole sum. -/
theorem step_last (g : Fin 10000 → EReal) (acc : EReal) (hacc : acc = Cert.Spec.psum g (2048 * (3 + 1)))
    (a b : Fin 2048 → EReal)
    (hab : ∀ (k : Fin 2048) (_ : k.val < 1808) (h : 2048 * 4 + k.val < 10000), a k * b k = g ⟨2048 * 4 + k.val, h⟩) :
    acc + ∑ k : Fin 2048, Cert.Spec.msk k (a k) * Cert.Spec.msk k (b k) = ∑ d, g d := by
  have h8 : acc = Cert.Spec.psum g 8192 := hacc
  rw [Cert.Spec.psum_last g, h8]
  refine congrArg (_ + ·) (Finset.sum_congr rfl fun k _ => ?_)
  unfold Cert.Spec.msk
  by_cases hk : k.val < 1808
  · rw [if_pos hk, if_pos hk, dif_pos hk]
    exact hab k hk (by omega)
  · rw [if_neg hk, if_neg hk, dif_neg hk, mul_zero]

/-! ### The Gram matrix -/

/-- The projection rows and the centroids as arrays of extended reals. -/
abbrev arrW (c : Dev nD) : Cert.Spec.SW.Idx → EReal := m ((c.tc : Thread nD τ).loc main_arg1)
abbrev arrC (c : Dev nD) : Cert.Spec.SC.Idx → EReal := m ((c.tc : Thread nD τ).loc main_arg2)

/-- After whole block `n` the first accumulator is the partial sum over the rows below `2048·(n+1)`. -/
theorem gram_upto (c : Dev nD) (f f' : Fin 512) (n : ℕ) (hn : n < cfg0.N) (h4 : n < 4) :
    (accAt (F := Ideal) m c n hn).1 (ix2 f f')
      = Cert.Spec.psum (fun d : Fin 10000 => arrW m c (ix2 d f)
          * arrW m c (ix2 d f')) (2048 * (n + 1)) := by
  induction n with
  | zero =>
    rw [show accAt (F := Ideal) m c 0 hn = _ from accAt_A (F := Ideal) m c ⟨0, hn⟩ rfl]
    show k0_pay2 (F := Ideal) (x2At m c ⟨0, hn⟩) (ix2 f f') = _
    rw [Pay.pay2_apply]
    refine step_first _ _ fun k h => ?_
    show x2At (F := Ideal) m c ⟨0, hn⟩ (ix2 k f) * x2At (F := Ideal) m c ⟨0, hn⟩ (ix2 k f') = _
    rw [x2At_apply m c ⟨0, hn⟩ (Nat.zero_le 4) k f h, x2At_apply m c ⟨0, hn⟩ (Nat.zero_le 4) k f' h] <;> rfl
  | succ n ih =>
    rw [show accAt (F := Ideal) m c (n + 1) hn = _ from
      accAt_B (F := Ideal) m c ⟨n + 1, hn⟩ (Nat.succ_ne_zero n) h4]
    show k0_pay6 (F := Ideal) (x2At m c ⟨n + 1, hn⟩) _ (ix2 f f') = _
    rw [Pay.pay6_apply]
    refine step_whole _ (n + 1) (by omega) _ (ih (Nat.lt_of_succ_lt hn) (by omega)) _ fun k h => ?_
    show x2At (F := Ideal) m c ⟨n + 1, hn⟩ (ix2 k f) * x2At (F := Ideal) m c ⟨n + 1, hn⟩ (ix2 k f') = _
    rw [x2At_apply m c ⟨n + 1, hn⟩ (Nat.le_of_lt h4) k f h, x2At_apply m c ⟨n + 1, hn⟩ (Nat.le_of_lt h4) k f' h] <;> rfl

/-- From the last block on the first accumulator is the sum over all the rows. -/
theorem gram_from4 (c : Dev nD) (f f' : Fin 512) (n : ℕ) (hn : n < cfg0.N) (h4 : 4 ≤ n) :
    (accAt (F := Ideal) m c n hn).1 (ix2 f f')
      = ∑ d : Fin 10000, arrW m c (ix2 d f)
          * arrW m c (ix2 d f') := by
  induction n with
  | zero => omega
  | succ n ih =>
    rcases Nat.lt_or_ge n 4 with h | h
    · obtain rfl : n = 3 := by omega
      rw [show accAt (F := Ideal) m c (3 + 1) hn = _ from accAt_C (F := Ideal) m c ⟨3 + 1, hn⟩ rfl]
      show k0_pay12 (F := Ideal) (x2At m c ⟨3 + 1, hn⟩) _ (ix2 f f') = _
      rw [PayE.pay12_apply]
      refine step_last (fun d : Fin 10000 => arrW m c (ix2 d f)
          * arrW m c (ix2 d f')) _
        (gram_upto m c f f' 3 (Nat.lt_of_succ_lt hn) (by omega)) _ _ fun k _ h => ?_
      rw [x2At_apply m c ⟨3 + 1, hn⟩ (Nat.le_refl 4) k f h, x2At_apply m c ⟨3 + 1, hn⟩ (Nat.le_refl 4) k f' h] <;> rfl
    · rw [show accAt (F := Ideal) m c (n + 1) hn = _ from accAt_D (F := Ideal) m c ⟨n + 1, hn⟩ (by show 5 ≤ n + 1; omega)]
      exact ih (Nat.lt_of_succ_lt hn) h

/-! ### The projected centroids -/

/-- After whole block `n` the second accumulator is the partial sum over the hyperdimensions below `2048·(n+1)`. -/
theorem proj_upto (c : Dev nD) (r : Fin 100) (f : Fin 512) (n : ℕ) (hn : n < cfg0.N) (h4 : n < 4) :
    (accAt (F := Ideal) m c n hn).2.1 (ix2 r f)
      = Cert.Spec.psum (fun d : Fin 10000 => arrC m c (ix2 r d)
          * arrW m c (ix2 d f)) (2048 * (n + 1)) := by
  induction n with
  | zero =>
    rw [show accAt (F := Ideal) m c 0 hn = _ from accAt_A (F := Ideal) m c ⟨0, hn⟩ rfl]
    show k0_pay3 (F := Ideal) (x2At m c ⟨0, hn⟩) (x3At m c ⟨0, hn⟩) (ix2 r f) = _
    rw [Pay.pay3_apply]
    refine step_first _ _ fun k h => ?_
    show x3At (F := Ideal) m c ⟨0, hn⟩ (ix2 r k) * x2At (F := Ideal) m c ⟨0, hn⟩ (ix2 k f) = _
    rw [x3At_apply m c ⟨0, hn⟩ (Nat.zero_le 4) r k h, x2At_apply m c ⟨0, hn⟩ (Nat.zero_le 4) k f h] <;> rfl
  | succ n ih =>
    rw [show accAt (F := Ideal) m c (n + 1) hn = _ from
      accAt_B (F := Ideal) m c ⟨n + 1, hn⟩ (Nat.succ_ne_zero n) h4]
    show k0_pay7 (F := Ideal) (x2At m c ⟨n + 1, hn⟩) (x3At m c ⟨n + 1, hn⟩) _ (ix2 r f) = _
    rw [Pay.pay7_apply]
    refine step_whole _ (n + 1) (by omega) _ (ih (Nat.lt_of_succ_lt hn) (by omega)) _ fun k h => ?_
    show x3At (F := Ideal) m c ⟨n + 1, hn⟩ (ix2 r k) * x2At (F := Ideal) m c ⟨n + 1, hn⟩ (ix2 k f) = _
    rw [x3At_apply m c ⟨n + 1, hn⟩ (Nat.le_of_lt h4) r k h, x2At_apply m c ⟨n + 1, hn⟩ (Nat.le_of_lt h4) k f h] <;> rfl

/-- From the last block on the second accumulator is the sum over all the hyperdimensions. -/
theorem proj_from4 (c : Dev nD) (r : Fin 100) (f : Fin 512) (n : ℕ) (hn : n < cfg0.N) (h4 : 4 ≤ n) :
    (accAt (F := Ideal) m c n hn).2.1 (ix2 r f)
      = ∑ d : Fin 10000, arrC m c (ix2 r d)
          * arrW m c (ix2 d f) := by
  induction n with
  | zero => omega
  | succ n ih =>
    rcases Nat.lt_or_ge n 4 with h | h
    · obtain rfl : n = 3 := by omega
      rw [show accAt (F := Ideal) m c (3 + 1) hn = _ from accAt_C (F := Ideal) m c ⟨3 + 1, hn⟩ rfl]
      show k0_pay13 (F := Ideal) (x2At m c ⟨3 + 1, hn⟩) (x3At m c ⟨3 + 1, hn⟩) _ (ix2 r f) = _
      rw [PayE.pay13_apply]
      refine step_last (fun d : Fin 10000 => arrC m c (ix2 r d)
          * arrW m c (ix2 d f)) _
        (proj_upto m c r f 3 (Nat.lt_of_succ_lt hn) (by omega)) _ _ fun k _ h => ?_
      rw [x3At_apply m c ⟨3 + 1, hn⟩ (Nat.le_refl 4) r k h, x2At_apply m c ⟨3 + 1, hn⟩ (Nat.le_refl 4) k f h] <;> rfl
    · rw [show accAt (F := Ideal) m c (n + 1) hn = _ from accAt_D (F := Ideal) m c ⟨n + 1, hn⟩ (by show 5 ≤ n + 1; omega)]
      exact ih (Nat.lt_of_succ_lt hn) h

/-! ### The centroids' squared norms -/

/-- After whole block `n` the third accumulator is the partial sum over the hyperdimensions below `2048·(n+1)`. -/
theorem cnorm_upto (c : Dev nD) (r : Fin 100) (z : Fin 1) (n : ℕ) (hn : n < cfg0.N) (h4 : n < 4) :
    (accAt (F := Ideal) m c n hn).2.2 (ix2 r z)
      = Cert.Spec.psum (fun d : Fin 10000 => arrC m c (ix2 r d)
          * arrC m c (ix2 r d)) (2048 * (n + 1)) := by
  induction n with
  | zero =>
    rw [show accAt (F := Ideal) m c 0 hn = _ from accAt_A (F := Ideal) m c ⟨0, hn⟩ rfl]
    show k0_pay4 (F := Ideal) (x3At m c ⟨0, hn⟩) (ix2 r z) = _
    rw [Pay.pay4_apply]
    refine step_first _ _ fun k h => ?_
    show x3At (F := Ideal) m c ⟨0, hn⟩ (ix2 r k) * x3At (F := Ideal) m c ⟨0, hn⟩ (ix2 r k) = _
    rw [x3At_apply m c ⟨0, hn⟩ (Nat.zero_le 4) r k h] <;> rfl
  | succ n ih =>
    rw [show accAt (F := Ideal) m c (n + 1) hn = _ from
      accAt_B (F := Ideal) m c ⟨n + 1, hn⟩ (Nat.succ_ne_zero n) h4]
    show k0_pay8 (F := Ideal) (x3At m c ⟨n + 1, hn⟩) _ (ix2 r z) = _
    rw [Pay.pay8_apply]
    refine step_whole _ (n + 1) (by omega) _ (ih (Nat.lt_of_succ_lt hn) (by omega)) _ fun k h => ?_
    show x3At (F := Ideal) m c ⟨n + 1, hn⟩ (ix2 r k) * x3At (F := Ideal) m c ⟨n + 1, hn⟩ (ix2 r k) = _
    rw [x3At_apply m c ⟨n + 1, hn⟩ (Nat.le_of_lt h4) r k h] <;> rfl

/-- From the last block on the third accumulator is the sum over all the hyperdimensions. -/
theorem cnorm_from4 (c : Dev nD) (r : Fin 100) (z : Fin 1) (n : ℕ) (hn : n < cfg0.N) (h4 : 4 ≤ n) :
    (accAt (F := Ideal) m c n hn).2.2 (ix2 r z)
      = ∑ d : Fin 10000, arrC m c (ix2 r d)
          * arrC m c (ix2 r d) := by
  induction n with
  | zero => omega
  | succ n ih =>
    rcases Nat.lt_or_ge n 4 with h | h
    · obtain rfl : n = 3 := by omega
      rw [show accAt (F := Ideal) m c (3 + 1) hn = _ from accAt_C (F := Ideal) m c ⟨3 + 1, hn⟩ rfl]
      show k0_pay14 (F := Ideal) (x3At m c ⟨3 + 1, hn⟩) _ (ix2 r z) = _
      rw [PayE.pay14_apply]
      refine step_last (fun d : Fin 10000 => arrC m c (ix2 r d)
          * arrC m c (ix2 r d)) _
        (cnorm_upto m c r z 3 (Nat.lt_of_succ_lt hn) (by omega)) _ _ fun k _ h => ?_
      rw [x3At_apply m c ⟨3 + 1, hn⟩ (Nat.le_refl 4) r k h] <;> rfl
    · rw [show accAt (F := Ideal) m c (n + 1) hn = _ from accAt_D (F := Ideal) m c ⟨n + 1, hn⟩ (by show 5 ≤ n + 1; omega)]
      exact ih (Nat.lt_of_succ_lt hn) h

/-- From the last hyperdimension block on, the first accumulator is the Gram matrix of the projection rows, -/
theorem acc_gram (c : Dev nD) (t : Fin cfg0.N) (ht : 4 ≤ t.val) (f f' : Fin 512) :
    (accAt (F := Ideal) m c t.val t.isLt).1 (ix2 f f') = Cert.Spec.gram (m ((c.tc : Thread nD τ).loc main_arg1)) f f' := by
  exact gram_from4 m c f f' t.val t.isLt ht

/-- the second the projected centroids, -/
theorem acc_proj (c : Dev nD) (t : Fin cfg0.N) (ht : 4 ≤ t.val) (r : Fin 100) (f : Fin 512) :
    (accAt (F := Ideal) m c t.val t.isLt).2.1 (ix2 r f) = Cert.Spec.proj (m ((c.tc : Thread nD τ).loc main_arg1)) (m ((c.tc : Thread nD τ).loc main_arg2)) r f := by
  exact proj_from4 m c r f t.val t.isLt ht

/-- the third the centroids' squared norms. -/
theorem acc_cnorm (c : Dev nD) (t : Fin cfg0.N) (ht : 4 ≤ t.val) (r : Fin 100) (z : Fin 1) :
    (accAt (F := Ideal) m c t.val t.isLt).2.2 (ix2 r z) = Cert.Spec.cnorm2 (m ((c.tc : Thread nD τ).loc main_arg2)) r := by
  exact cnorm_from4 m c r z t.val t.isLt ht

end Cert.KernelIdeal.KVal

end
-- ==== Proof.PayOut.lean ====
/-
  The kernel's last payload, the score block it stores, read at an index on the extended reals.

  For the sample rows x : [2048, 512], the accumulated Gram matrix Q : [512, 512], the projected centroids P : [100, 512]
  and the centroids' squared norms n : [100, 1], the block holds at (r, c)
      (Σ_f x[r,f]·P[c,f]) / (max(√max(Σ_f' (Σ_f x[r,f]·Q[f,f'])·x[r,f'], 0), ε) · max(√n[c,0], ε)).
  Each step that is not entry by entry has its own lemma at coordinates: the two contractions (the rows against the
  Gram matrix's rows, the rows against the projected centroids' lanes), the lane sum kept as a column, the column of
  centroid norms laid as a row, and the two spreads (a column over the lanes, a row over the rows).
-/
import proofs.«124658_g15693810500123_cont_7to1_75_23_alg».proof.Proof.Gen.KernelIdeal.Skeleton
import proofs.«124658_g15693810500123_cont_7to1_75_23_alg».proof.Proof.Spec
import proofs.«124658_g15693810500123_cont_7to1_75_23_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayO

open Cert.KernelIdeal Cert.KernelIdeal.Gen Idealize.ShloMosaic Idealize.ShloMosaic.ValueIdx

/-! ## The rows against the Gram matrix: left axis 1 contracted with right axis 0 -/

theorem lhs_gram_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_gram_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_gram_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_gram_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of the rows with the Gram matrix holds at (r, f') the sum over f of x[r,f]·Q[f,f']. -/
theorem gramMul_apply (a : FVec Ideal S2048x512 .bf16) (b : FVec Ideal S512x512 .bf16) (r : Fin 2048) (f' : Fin 512) :
    matmul dot_S2048x512_S512x512_S2048x512_1_0_0_1_n_n none a b (constant S2048x512 .f32 0x00000000#32) (ix2 r f')
      = ∑ f : Fin 512, a (ix2 r f) * b (ix2 f f') := by
  show FloatOps.matmul dot_S2048x512_S512x512_S2048x512_1_0_0_1_n_n none a b (constant S2048x512 .f32 0x00000000#32) (ix2 r f') = _
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r f') ((contrEquiv1 dot_S2048x512_S512x512_S2048x512_1_0_0_1_n_n 512 rfl rfl).symm k) = ix2 r k := funext fun c => Fin.ext (by
    match c with
    | ⟨0, _⟩ => exact lhs_gram_0 _ _
    | ⟨1, _⟩ => exact (lhs_gram_1 _ _).trans hk)
  have er : dot_S2048x512_S512x512_S2048x512_1_0_0_1_n_n.rhsIdx (ix2 r f') ((contrEquiv1 dot_S2048x512_S512x512_S2048x512_1_0_0_1_n_n 512 rfl rfl).symm k) = ix2 k f' := funext fun c => Fin.ext (by
    match c with
    | ⟨0, _⟩ => exact (rhs_gram_0 _ _).trans hk
    | ⟨1, _⟩ => exact rhs_gram_1 _ _)
  rw [el, er]

/-! ## The rows against the projected centroids: left axis 1 contracted with right axis 1 -/

theorem lhs_proj_0 (i : S2048x100.Idx) (q : dot_S2048x512_S100x512_S2048x100_1_1_0_0_n_n.contr.Idx) :
    (dot_S2048x512_S100x512_S2048x100_1_1_0_0_n_n.lhsIdx i q 0).val = (i 0).val := by
  unfold DotDims.lhsIdx
  rw [dif_neg (show ¬(0 : Fin S2048x512.rank) ∈ dot_S2048x512_S100x512_S2048x100_1_1_0_0_n_n.lhsBatch by decide), dif_pos (show (0 : Fin S2048x512.rank) ∈ dot_S2048x512_S100x512_S2048x100_1_1_0_0_n_n.lhsNonContracting by decide)]
  rfl
theorem lhs_proj_1 (i : S2048x100.Idx) (q : dot_S2048x512_S100x512_S2048x100_1_1_0_0_n_n.contr.Idx) :
    (dot_S2048x512_S100x512_S2048x100_1_1_0_0_n_n.lhsIdx i q 1).val = (q ⟨0, by decide⟩).val :=
  dot_S2048x512_S100x512_S2048x100_1_1_0_0_n_n.lhsIdx_val_of_single rfl i q
theorem rhs_proj_0 (i : S2048x100.Idx) (q : dot_S2048x512_S100x512_S2048x100_1_1_0_0_n_n.contr.Idx) :
    (dot_S2048x512_S100x512_S2048x100_1_1_0_0_n_n.rhsIdx i q 0).val = (i 1).val := by
  unfold DotDims.rhsIdx
  rw [dif_neg (show ¬(0 : Fin S100x512.rank) ∈ dot_S2048x512_S100x512_S2048x100_1_1_0_0_n_n.rhsBatch by decide), dif_pos (show (0 : Fin S100x512.rank) ∈ dot_S2048x512_S100x512_S2048x100_1_1_0_0_n_n.rhsNonContracting by decide)]
  rfl
theorem rhs_proj_1 (i : S2048x100.Idx) (q : dot_S2048x512_S100x512_S2048x100_1_1_0_0_n_n.contr.Idx) :
    (dot_S2048x512_S100x512_S2048x100_1_1_0_0_n_n.rhsIdx i q 1).val = (q ⟨0, by decide⟩).val :=
  dot_S2048x512_S100x512_S2048x100_1_1_0_0_n_n.rhsIdx_val_of_single rfl i q

/-- The product of the rows with the projected centroids holds at (r, c) the sum over f of x[r,f]·P[c,f]. -/
theorem projMul_apply (a : FVec Ideal S2048x512 .bf16) (b : FVec Ideal S100x512 .bf16) (r : Fin 2048) (c : Fin 100) :
    matmul dot_S2048x512_S100x512_S2048x100_1_1_0_0_n_n none a b (constant S2048x100 .f32 0x00000000#32) (ix2 r c)
      = ∑ f : Fin 512, a (ix2 r f) * b (ix2 c f) := by
  show FloatOps.matmul dot_S2048x512_S100x512_S2048x100_1_1_0_0_n_n none a b (constant S2048x100 .f32 0x00000000#32) (ix2 r c) = _
  rw [Ideal.matmul_constant_zero_apply, ← Equiv.sum_comp (contrEquiv1 dot_S2048x512_S100x512_S2048x100_1_1_0_0_n_n 512 rfl rfl).symm]
  refine Finset.sum_congr rfl fun k _ => ?_
  have hk := contrEquiv1_symm_val dot_S2048x512_S100x512_S2048x100_1_1_0_0_n_n 512 rfl rfl k
  have el : dot_S2048x512_S100x512_S2048x100_1_1_0_0_n_n.lhsIdx (ix2 r c) ((contrEquiv1 dot_S2048x512_S100x512_S2048x100_1_1_0_0_n_n 512 rfl rfl).symm k) = ix2 r k := funext fun d => Fin.ext (by
    match d with
    | ⟨0, _⟩ => exact lhs_proj_0 _ _
    | ⟨1, _⟩ => exact (lhs_proj_1 _ _).trans hk)
  have er : dot_S2048x512_S100x512_S2048x100_1_1_0_0_n_n.rhsIdx (ix2 r c) ((contrEquiv1 dot_S2048x512_S100x512_S2048x100_1_1_0_0_n_n 512 rfl rfl).symm k) = ix2 c k := funext fun d => Fin.ext (by
    match d with
    | ⟨0, _⟩ => exact rhs_proj_0 _ _
    | ⟨1, _⟩ => exact (rhs_proj_1 _ _).trans hk)
  rw [el, er]

/-! ## Layout steps -/

/-- A column laid as a row reads, at (0, c), the column's entry of row c. -/
theorem colAsRow_apply {α : Type} (col : S100x1.Idx → α) (hc : S100x1.ShapeCasts S1x100) (c : Fin 100) :
    shapeCast S1x100 col hc (ix2 (0 : Fin 1) c) = col (ix2 c (0 : Fin 1)) :=
  shapeCast_apply col hc (ix2 (0 : Fin 1) c) (ix2 c (0 : Fin 1)) (by
    rw [Shape.rowMajor_val_two, Shape.rowMajor_val_two]
    show c.val * 1 + 0 = 0 * 100 + c.val
    omega)

/-- A row spread over the rows reads, at (r, c), the row's entry of lane c. -/
theorem spreadRow_apply {α : Type} (row : S1x100.Idx → α) (hb : S1x100.Broadcasts S2048x100) (r : Fin 2048) (c : Fin 100) :
    broadcastTo S2048x100 row hb (ix2 r c) = row (ix2 (0 : Fin 1) c) :=
  broadcastTo_apply row hb (ix2 r c) (ix2 (0 : Fin 1) c) (fun a => by
    match a with
    | ⟨0, _⟩ =>
      show (0 : Fin 1).val = if (1 : ℕ) = 1 then 0 else r.val
      simp
    | ⟨1, _⟩ =>
      show c.val = if (100 : ℕ) = 1 then 0 else c.val
      simp)

/-! ## The two clamped norms -/

/-- The quadratic form of the Gram matrix at row r, as the lane sum kept as a column holds it. -/
theorem quadCol_apply (x1 : Vec Ideal S2048x512 .f32) (s5 : Vec Ideal S512x512 .f32) (r : Fin 2048) (q : Fin 1) :
    shapeCast S2048x1
        (multiReduction .add [1] S2048
          (mulf (matmul dot_S2048x512_S512x512_S2048x512_1_0_0_1_n_n none (truncf .bf16 x1 bitsLt_bf16_f32)
            (truncf .bf16 s5 bitsLt_bf16_f32) (constant (F := Ideal) S2048x512 .f32 0x00000000#32)) x1)
          0x00000000#32 reduces_S2048x512_S2048 (.inl rfl) rfl)
        shapeCasts_S2048_S2048x1 (ix2 r q)
      = ∑ f' : Fin 512, (∑ f : Fin 512, x1 (ix2 r f) * s5 (ix2 f f')) * x1 (ix2 r f') := by
  refine (Cert.RowOps.castCol_apply _ _ r q).trans ?_
  refine (Cert.RowOps.laneSum_apply _ _ _ _ _ r).trans ?_
  refine Finset.sum_congr rfl fun f' _ => ?_
  refine (mulf_apply _ _ _).trans ?_
  rw [gramMul_apply]
  rfl

/-- The kernel's score block at (r, c). -/
theorem pay9_apply (x1 : Vec Ideal S2048x512 .f32) (s5 : Vec Ideal S512x512 .f32) (s6 : Vec Ideal S100x512 .f32)
    (s7 : Vec Ideal S100x1 .f32) (r : Fin 2048) (c : Fin 100) :
    k0_pay9 (F := Ideal) x1 s5 s6 s7 (ix2 r c)
      = Ideal.div (∑ f : Fin 512, x1 (ix2 r f) * s6 (ix2 c f))
          (max (Ideal.sqrt (max (∑ f' : Fin 512, (∑ f : Fin 512, x1 (ix2 r f) * s5 (ix2 f f')) * x1 (ix2 r f')) 0)) Cert.Spec.eps
            * max (Ideal.sqrt (s7 (ix2 c (0 : Fin 1)))) Cert.Spec.eps) := by
  unfold k0_pay9
  refine (divf_apply _ _ _).trans ?_
  refine congrArg₂ Ideal.div ?_ ?_
  · refine (projMul_apply _ _ r c).trans ?_
    rfl
  · refine (mulf_apply _ _ _).trans ?_
    refine congrArg₂ (· * ·) ?_ ?_
    · refine (Cert.RowOps.spreadCol_apply _ _ r c).trans ?_
      refine (maximumf_apply _ _ _).trans ?_
      refine congrArg₂ max ?_ rfl
      refine (Cert.RowOps.sqrt_apply _ _).trans ?_
      refine congrArg Ideal.sqrt ?_
      refine (maximumf_apply _ _ _).trans ?_
      refine congrArg₂ max (quadCol_apply x1 s5 r 0) ?_
      exact Ideal.ofBits_zero_f32
    · refine (spreadRow_apply _ _ r c).trans ?_
      refine (colAsRow_apply _ _ c).trans ?_
      refine (maximumf_apply _ _ _).trans ?_
      rfl

end Cert.KernelIdeal.PayO

end
-- ==== Proof.KVal.Out.lean ====
/- A scoring point's block of scores, entry by entry, is the kernel's score of the sample against the centroid. -/
import proofs.«124658_g15693810500123_cont_7to1_75_23_alg».proof.Proof.KI.Blocks
import proofs.«124658_g15693810500123_cont_7to1_75_23_alg».proof.Proof.KVal.Reads
import proofs.«124658_g15693810500123_cont_7to1_75_23_alg».proof.Proof.KVal.Acc
import proofs.«124658_g15693810500123_cont_7to1_75_23_alg».proof.Proof.Spec
import proofs.«124658_g15693810500123_cont_7to1_75_23_alg».proof.Proof.PayOut
import Idealize.ShloMosaic.Lib.ValueIdx

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The score block a scoring point leaves holds the kernel's scores of its 2048 samples against every centroid. -/
theorem outAt_apply (c : Dev nD) (t : Fin cfg0.N) (ht : 5 ≤ t.val) (r : Fin 2048) (cc : Fin 100) (h : 2048 * (t.val - 5) + r.val < 4096) :
    outAt (F := Ideal) m c t (ix2 r cc) = Cert.Spec.kerScore (m ((c.tc : Thread nD τ).loc main_arg0)) (m ((c.tc : Thread nD τ).loc main_arg1)) (m ((c.tc : Thread nD τ).loc main_arg2)) (⟨2048 * (t.val - 5) + r.val, h⟩ : Fin 4096) cc := by
  have h4 : 4 ≤ t.val := by omega
  unfold outAt
  rw [Cert.KernelIdeal.PayO.pay9_apply]
  unfold Cert.Spec.kerScore Cert.Spec.quad
  refine congrArg₂ Ideal.div ?_ ?_
  · exact Finset.sum_congr rfl fun f _ => by rw [x1At_apply m c t ht r f h, acc_proj m c t h4 cc f]
  · refine congrArg₂ (· * ·) ?_ ?_
    · refine congrArg (fun z => max (Ideal.sqrt (max z 0)) Cert.Spec.eps) ?_
      refine Finset.sum_congr rfl fun f' _ => ?_
      rw [x1At_apply m c t ht r f' h]
      refine congrArg (· * _) ?_
      exact Finset.sum_congr rfl fun f _ => by rw [x1At_apply m c t ht r f h, acc_gram m c t h4 f f']
    · rw [acc_cnorm m c t h4 cc 0]

end Cert.KernelIdeal.KVal

end
-- ==== Proof.KVal.Final.lean ====
/- The score array after the run. The two scoring points write back the two halves of the array, rows 0 to 2047 and
   2048 to 4095; each half is the kernel's scores of its samples; together they are the whole array. -/
import proofs.«124658_g15693810500123_cont_7to1_75_23_alg».proof.Proof.KI.Frame
import proofs.«124658_g15693810500123_cont_7to1_75_23_alg».proof.Proof.KVal.Out
import proofs.«124658_g15693810500123_cont_7to1_75_23_alg».proof.Proof.Spec
import Idealize.ShloMosaic.Lib.ValueIdx
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The whole array of the kernel's scores. -/
def scores (c : Dev nD) : S4096x100.Idx → EReal := fun i =>
  Cert.Spec.kerScore (m ((c.tc : Thread nD τ).loc main_arg0)) (m ((c.tc : Thread nD τ).loc main_arg1)) (m ((c.tc : Thread nD τ).loc main_arg2)) (i 0) (i 1)

/-- The score window's block index at the scoring points: the point less five along the samples, zero along the centroids. -/
theorem idx0_3 : ∀ t : Fin cfg0.N, 5 ≤ t.val → win0_3.index t (0 : Fin 2) = t.val - 5 ∧ win0_3.index t (1 : Fin 2) = 0 :=
  (by decide +kernel : ∀ t : Fin grid0.N, 5 ≤ t.val → win0_3.index t (0 : Fin 2) = t.val - 5 ∧ win0_3.index t (1 : Fin 2) = 0)

theorem flush_ge (t : Fin cfg0.N) (hf : (cfg0.win 3).flush t = true) : 5 ≤ t.val := by
  by_contra h
  have := noFlush0_3 t (by omega)
  rw [this] at hf
  exact Bool.false_ne_true hf

/-- What a scoring point writes back is its block of the score array. -/
theorem flushed3_eq (c : Dev nD) (t : Fin cfg0.N) (hf : (cfg0.win 3).flush t = true) :
    (dats m 0 c).flushed 3 t = ((cfg0.win 3).blk t).view.read (Elt Ideal) (scores m c) := by
  have ht := flush_ge t hf
  have hN : t.val < 7 := lt_of_lt_of_eq t.isLt (show cfg0.N = 7 from N_0)
  show (cfg0.win 3).cut (grid0.coords t) ((dats m 0 c).after 3 t) = _
  rw [after0_3]
  obtain ⟨e0, e1⟩ := idx0_3 t ht
  funext j
  have hj0 : (j 0).val < 2048 := (j 0).isLt
  have hj1 : (j 1).val < 100 := (j 1).isLt
  have hb : 2048 * (t.val - 5) + (j 0).val < 4096 := by omega
  show outAt m c t (win0_3.xinj (grid0.coords t) j) = scores m c (((cfg0.win 3).blk t).view.emb j)
  have hx : win0_3.xinj (grid0.coords t) j = ix2 (⟨(j 0).val, hj0⟩ : Fin 2048) (⟨(j 1).val, hj1⟩ : Fin 100) := by
    funext a; apply Fin.ext
    match a with
    | ⟨0, _⟩ => rfl
    | ⟨1, _⟩ => rfl
  rw [hx, outAt_apply m c t ht (⟨(j 0).val, hj0⟩ : Fin 2048) (⟨(j 1).val, hj1⟩ : Fin 100) hb]
  unfold scores
  congr 1
  · apply Fin.ext
    show 2048 * (t.val - 5) + (j 0).val = win0_3.index t (0 : Fin 2) * 2048 + 1 * (j 0).val
    rw [e0]; omega
  · apply Fin.ext
    show (j 1).val = win0_3.index t (1 : Fin 2) * 100 + 1 * (j 1).val
    rw [e1]; omega

/-- An index of the score array is in point `t`'s block iff each coordinate is within the block's extent from the block's start. -/
theorem mem_blk3 (t : Fin cfg0.N) (i : S4096x100.Idx) :
    i ∈ ((cfg0.win 3).blk t).view.set ↔ ∀ a : Fin 2, win0_3.index t a * S2048x100.size a ≤ (i a).val ∧ (i a).val < win0_3.index t a * S2048x100.size a + S2048x100.size a := by
  show i ∈ ((View.whole main_v0).slice (win0_3.rect t)).set ↔ _
  rw [View.set_slice_whole, Rect.mem_set_unit]
  exact Iff.rfl

/-- Every row of the score array lies in the first or the second scoring point's block. -/
theorem cover3 (i : S4096x100.Idx) : ∃ t : Fin cfg0.N, (cfg0.win 3).flush t = true ∧ i ∈ ((cfg0.win 3).blk t).view.set := by
  have h0 : (i 0).val < 4096 := (i 0).isLt
  have h1 : (i 1).val < 100 := (i 1).isLt
  by_cases h : (i 0).val < 2048
  · refine ⟨t0_5, flush0_3 t0_5 (le_refl 5), ?_⟩
    obtain ⟨e0, e1⟩ : win0_3.index t0_5 (0 : Fin 2) = 0 ∧ win0_3.index t0_5 (1 : Fin 2) = 0 := idx0_3 t0_5 (le_refl 5)
    rw [mem_blk3]
    intro a
    match a with
    | ⟨0, _⟩ =>
      show win0_3.index t0_5 (0 : Fin 2) * 2048 ≤ (i 0).val ∧ (i 0).val < win0_3.index t0_5 (0 : Fin 2) * 2048 + 2048
      rw [e0]; omega
    | ⟨1, _⟩ =>
      show win0_3.index t0_5 (1 : Fin 2) * 100 ≤ (i 1).val ∧ (i 1).val < win0_3.index t0_5 (1 : Fin 2) * 100 + 100
      rw [e1]; omega
  · refine ⟨t0_6, flush0_3 t0_6 (by show 5 ≤ 6; omega), ?_⟩
    obtain ⟨e0, e1⟩ : win0_3.index t0_6 (0 : Fin 2) = 1 ∧ win0_3.index t0_6 (1 : Fin 2) = 0 := idx0_3 t0_6 (by show 5 ≤ 6; omega)
    rw [mem_blk3]
    intro a
    match a with
    | ⟨0, _⟩ =>
      show win0_3.index t0_6 (0 : Fin 2) * 2048 ≤ (i 0).val ∧ (i 0).val < win0_3.index t0_6 (0 : Fin 2) * 2048 + 2048
      rw [e0]; omega
    | ⟨1, _⟩ =>
      show win0_3.index t0_6 (1 : Fin 2) * 100 ≤ (i 1).val ∧ (i 1).val < win0_3.index t0_6 (1 : Fin 2) * 100 + 100
      rw [e1]; omega

/-- The score array ends holding the kernel's scores. -/
theorem final3 (c : Dev nD) : (dats m 0 c).arrAt 3 cfg0.N = scores m c :=
  (dats m 0 c).arrAt_eq_of_cover 3 (scores m c) (fun t hf => flushed3_eq m c t hf) cover3

/-- The run, read: every execution ends with the score array at the kernel's scores and the arguments as launched. -/
theorem run_vals : θ_run defs (onTc (τ := τ) (main (F := Ideal))) ⟨m, fun _ => 0, ρ⟩ (fun r => ∀ c : Dev nD,
      r.2.mem ((c.tc : Thread nD τ).loc main_v0) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KVal

end
-- ==== Proof.RefRead.lean ====
/- The reference program's run and its stages read at an index: the generated modules, gathered for the
   modules that state what the reference computes. -/
import proofs.«124658_g15693810500123_cont_7to1_75_23_alg».proof.Proof.Gen.ReferenceIdeal.Run
import proofs.«124658_g15693810500123_cont_7to1_75_23_alg».proof.Proof.Gen.ReferenceIdeal.Read
-- ==== Proof.RefValue.lean ====
/-
  What the reference program computes, read at an index: the value its last operation writes at (b, c) is the
  cosine score Σ_d (enc b d / A_b)·(C[c,d] / B_c) of the specification, with A_b = max(ε, √(0 + Σ_d' (enc b d')²))
  and B_c = max(ε, √(0 + Σ_d' C[c,d']²)).
-/
import proofs.«124658_g15693810500123_cont_7to1_75_23_alg».proof.Proof.RefRead
import proofs.«124658_g15693810500123_cont_7to1_75_23_alg».proof.Proof.Spec
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-- The first contraction at (b, d) is the encoding of sample b along d: the right operand is the transpose of the
    projection rows, so its element (f, d) is W[d, f]. -/
theorem enc_at (x0 : (⟨S4096x512, .f32⟩ : BufTy).Contents (Elt Ideal))
    (x1 : (⟨S10000x512, .f32⟩ : BufTy).Contents (Elt Ideal)) (b : Fin 4096) (d : Fin 10000) :
    val_main_v1 (F := Ideal) x0 x1 (ix2 b d) = enc x0 x1 b d := by
  rw [val_main_v1_apply]
  unfold enc
  refine Finset.sum_congr rfl fun f _ => ?_
  rw [val_main_v0_apply]
  have el : lidx_main_v1 (ix2 b d) f = ix2 b f :=
    funext fun a => Fin.ext (by match a with | ⟨0, _⟩ => rfl | ⟨1, _⟩ => rfl)
  have er : idx_main_v0 (ridx_main_v1 (ix2 b d) f) = ix2 d f :=
    funext fun a => Fin.ext (by match a with | ⟨0, _⟩ => rfl | ⟨1, _⟩ => rfl)
  rw [el, er]

/-- The clamped norm of sample b's encoding, as the reference broadcasts it along the hyperdimension. -/
theorem den_s (x0 : (⟨S4096x512, .f32⟩ : BufTy).Contents (Elt Ideal))
    (x1 : (⟨S10000x512, .f32⟩ : BufTy).Contents (Elt Ideal)) (b : Fin 4096) (d : Fin 10000) :
    val_main_v4 (F := Ideal) x0 x1 (ix2 b d)
      = max eps (Ideal.sqrt (0 + ∑ d' : Fin 10000, enc x0 x1 b d' * enc x0 x1 b d')) := by
  have ek : ∀ k : Fin 10000,
      idx_main_call0_v1 (idx_main_call0_v2 (idx_main_v4 (ix2 b d))) k = ix2 b k := fun k =>
    funext fun a => Fin.ext (by match a with | ⟨0, _⟩ => rfl | ⟨1, _⟩ => rfl)
  rw [val_main_v4_apply, val_main_v3_apply, val_main_call1_v1_apply, val_main_call1_v0_apply, val_main_cst_apply,
    val_main_v2_apply, val_main_call0_v2_apply, val_main_call0_v1_apply, val_main_call0_cst_apply]
  simp only [ek, val_main_call0_v0_apply, enc_at, Ideal.maximumf_def, Ideal.hostUnary_sqrt_def, Ideal.mulf_def,
    Ideal.ofBits_def, Ideal.ofBits_zero_f32]
  rfl

/-- The clamped norm of centroid c, as the reference broadcasts it along the hyperdimension. -/
theorem den_c (x2 : (⟨S100x10000, .f32⟩ : BufTy).Contents (Elt Ideal)) (c : Fin 100) (d : Fin 10000) :
    val_main_v8 (F := Ideal) x2 (ix2 c d)
      = max eps (Ideal.sqrt (0 + ∑ d' : Fin 10000, x2 (ix2 c d') * x2 (ix2 c d'))) := by
  have ek : ∀ k : Fin 10000,
      idx_main_call2_v1 (idx_main_call2_v2 (idx_main_v8 (ix2 c d))) k = ix2 c k := fun k =>
    funext fun a => Fin.ext (by match a with | ⟨0, _⟩ => rfl | ⟨1, _⟩ => rfl)
  rw [val_main_v8_apply, val_main_v7_apply, val_main_call3_v1_apply, val_main_call3_v0_apply, val_main_cst_0_apply,
    val_main_v6_apply, val_main_call2_v2_apply, val_main_call2_v1_apply, val_main_call2_cst_apply]
  simp only [ek, val_main_call2_v0_apply, Ideal.maximumf_def, Ideal.hostUnary_sqrt_def, Ideal.mulf_def,
    Ideal.ofBits_def, Ideal.ofBits_zero_f32]
  rfl

/-- The reference's result at (b, c) is the specification's cosine score. -/
theorem ref_apply (x0 : (⟨S4096x512, .f32⟩ : BufTy).Contents (Elt Ideal))
    (x1 : (⟨S10000x512, .f32⟩ : BufTy).Contents (Elt Ideal))
    (x2 : (⟨S100x10000, .f32⟩ : BufTy).Contents (Elt Ideal)) (b : Fin 4096) (c : Fin 100) :
    val_main_v11 (F := Ideal) x0 x1 x2 (ix2 b c) = refScore x0 x1 x2 b c := by
  rw [val_main_v11_apply]
  unfold refScore
  refine Finset.sum_congr rfl fun d _ => ?_
  have el : lidx_main_v11 (ix2 b c) d = ix2 b d :=
    funext fun a => Fin.ext (by match a with | ⟨0, _⟩ => rfl | ⟨1, _⟩ => rfl)
  have er : idx_main_v10 (ridx_main_v11 (ix2 b c) d) = ix2 c d :=
    funext fun a => Fin.ext (by match a with | ⟨0, _⟩ => rfl | ⟨1, _⟩ => rfl)
  rw [val_main_v10_apply, el, er, val_main_v5_apply, val_main_v9_apply, enc_at, den_s, den_c]
  rfl

/-- The reference's result array is the specification's cosine score at every index. -/
theorem ref_eq (x0 : (⟨S4096x512, .f32⟩ : BufTy).Contents (Elt Ideal))
    (x1 : (⟨S10000x512, .f32⟩ : BufTy).Contents (Elt Ideal))
    (x2 : (⟨S100x10000, .f32⟩ : BufTy).Contents (Elt Ideal)) :
    val_main_v11 (F := Ideal) x0 x1 x2 = fun i => refScore x0 x1 x2 (i 0) (i 1) := by
  funext i
  obtain ⟨p, q, rfl⟩ : ∃ p q, i = ix2 p q := ⟨i 0, i 1, eq_ix2 i⟩
  exact ref_apply x0 x1 x2 p q

/-- The reference's run, with its result named by the specification: every weakly fair execution ends with the
    result array at the cosine score of the launch contents of the three arguments, the arguments unchanged. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩
      (fun r => ∀ c : Dev Cert.ReferenceIdeal.nD,
        r.2.mem ((c.tc : Thread _ _).loc Cert.ReferenceIdeal.main_v11)
          = (fun i => Cert.Spec.refScore (m ((c.tc : Thread _ _).loc Cert.ReferenceIdeal.main_arg0))
              (m ((c.tc : Thread _ _).loc Cert.ReferenceIdeal.main_arg1))
              (m ((c.tc : Thread _ _).loc Cert.ReferenceIdeal.main_arg2)) (i 0) (i 1))
        ∧ r.2.mem ((c.tc : Thread _ _).loc Cert.ReferenceIdeal.main_arg0)
            = m ((c.tc : Thread _ _).loc Cert.ReferenceIdeal.main_arg0)
        ∧ r.2.mem ((c.tc : Thread _ _).loc Cert.ReferenceIdeal.main_arg1)
            = m ((c.tc : Thread _ _).loc Cert.ReferenceIdeal.main_arg1)
        ∧ r.2.mem ((c.tc : Thread _ _).loc Cert.ReferenceIdeal.main_arg2)
            = m ((c.tc : Thread _ _).loc Cert.ReferenceIdeal.main_arg2)) :=
  (θ_run (Cert.ReferenceIdeal.defs (F := Ideal)) _ _).mono
    (fun _ h c => ⟨(h c).1.trans ((val_main_v11_eq (F := Ideal) _ _ _).trans (ref_eq _ _ _)), (h c).2⟩)
    (Cert.ReferenceIdeal.Value.run (F := Ideal) m ρ)

end Cert.RefValue

end
-- ==== Proof.Finite.lean ====
/-
  The precondition read back: every entry of the three float inputs is a real number.
  The precondition is the conjunction of three statements "all |x| < +inf", each a reduction by
  `and` of the elementwise comparison of |x| against the broadcast constant +inf. A reduction by `and`
  that is 1 met only 1s; a comparison |x| < ⊤ that holds in the extended reals excludes x = ⊤ and
  x = ⊥, so x is the image of a real.
-/
import proofs.«124658_g15693810500123_cont_7to1_75_23_alg».proof.Defs
import proofs.«124658_g15693810500123_cont_7to1_75_23_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic Idealize.SL.Sem Idealize.ShloMosaic.ValueIdx

/-- The f32 pattern `0x7F800000` (exponent all ones, fraction zero, sign clear) is `⊤`. -/
theorem ofBits_inf : Ideal.ofBits .f32 0x7F800000#32 = (⊤ : EReal) := by
  simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

/-- One `all(|x| < +inf)`, generic in the shape: if the reduction by `and` is 1, every entry of `x` is real. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu j = 1#1) :
    ∀ i, ∃ r : ℝ, x i = (r : EReal) := by
  intro i
  have h1 := Host.reduce_andi_all _ _ hr hu j e i
  have h2 : Ideal.cmp .olt (max (x i) (-(x i))) (Ideal.ofBits .f32 0x7F800000#32) = 1#1 := h1
  rw [ofBits_inf] at h2
  refine real_of_abs_lt_top (x i) ?_
  by_contra hn
  simp [Ideal.cmp, hn] at h2

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨real_of_all _ _ _ _ _ h0', real_of_all _ _ _ _ _ h1, real_of_all _ _ _ _ _ h2⟩

end Cert.Finite

end
-- ==== Proof.lean ====
/-
  The certificate. The kernel scores 4096 samples against 100 class centroids by cosine similarity in a
  10000-dimensional random projection without ever forming the projected samples: it sweeps the hyperdimension once in
  five blocks, accumulating the Gram matrix of the projection rows, the centroids projected back to feature space and
  the centroids' squared norms, then scores two blocks of samples against those. The reference projects, normalizes
  and takes inner products. Over the extended reals, for finite inputs, the two are the same function: the quadratic
  form of the Gram matrix is the squared norm of a projected sample, the sample's inner product with a projected
  centroid is the inner product of the projections, and dividing both factors by their clamped norms before the inner
  product is dividing the inner product by the product of the norms.

  The three frames: the kernel's two readings run the grid by the same argument (the body at each of the four kinds
  of point, the accumulators carried between points, the rows the last hyperdimension block fetches past the arrays'
  end zeroed before use); the reference is host operations only. The idealization rewrote nothing.
-/
import proofs.«124658_g15693810500123_cont_7to1_75_23_alg».proof.Defs
import proofs.«124658_g15693810500123_cont_7to1_75_23_alg».proof.Proof.Gen.Kernel
import proofs.«124658_g15693810500123_cont_7to1_75_23_alg».proof.Proof.Gen.KernelIdeal
import proofs.«124658_g15693810500123_cont_7to1_75_23_alg».proof.Proof.Gen.ReferenceIdeal
import proofs.«124658_g15693810500123_cont_7to1_75_23_alg».proof.Proof.Gen.Pre_finite_inputs
import proofs.«124658_g15693810500123_cont_7to1_75_23_alg».proof.Proof.K.Frame
import proofs.«124658_g15693810500123_cont_7to1_75_23_alg».proof.Proof.KI.Frame
import proofs.«124658_g15693810500123_cont_7to1_75_23_alg».proof.Proof.KVal.Final
import proofs.«124658_g15693810500123_cont_7to1_75_23_alg».proof.Proof.RefValue
import proofs.«124658_g15693810500123_cont_7to1_75_23_alg».proof.Proof.Algebra
import proofs.«124658_g15693810500123_cont_7to1_75_23_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the score array at one function of the arguments: the kernel's scores, which for
    finite inputs are the reference's. -/
theorem algebraic : Cert.algebraic_KernelIdeal_ReferenceIdeal := by
  intro m ρ m' ρ' hpre hagree
  refine ⟨fun c => Cert.KernelIdeal.KVal.scores m c, Cert.KernelIdeal.KVal.run_vals m ρ, ?_⟩
  refine (θ_run Cert.ReferenceIdeal.defs _ _).mono (fun r h c => ⟨(h c).1.trans ?_, (h c).2⟩)
    (Cert.RefValue.run_ref m' ρ')
  obtain ⟨hS, hW, hC⟩ := Cert.Finite.real_of_pre m hpre c
  rw [(hagree c).1, (hagree c).2.1, (hagree c).2.2]
  funext i
  exact (Cert.Spec.kerScore_eq_refScore _ _ _ hS hW hC (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
